-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x100000 : Shape := ⟨2, ![512, 100000]⟩
abbrev S512 : Shape := ⟨1, ![512]⟩
abbrev S_ : Shape := ⟨0, ![]⟩

class Facts : Prop where
  bcast_S_S512x100000 : S_.BroadcastsInDim S512x100000 (![] : Fin 0 → Fin S512x100000.rank)
  reducesTo_S512x100000_S_d0_1 : S512x100000.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S512x100000 .f32) (main_arg1 : IVec S512 32) : IVec S_ 1 :=
  let main_v0 : FVec F S512x100000 .f32 := Host.absf main_arg0
  let main_cst : FVec F S_ .f32 := constant S_ .f32 0x7F800000#32
  let main_v1 : FVec F S512x100000 .f32 := broadcastInDim S512x100000 ![] bcast_S_S512x100000 main_cst
  let main_v2 : IVec S512x100000 1 := cmpf .olt main_v0 main_v1
  let main_c : IVec S_ 1 := constantI S_ 1 1#1
  let main_v3 : IVec S_ 1 := (fun x v => Host.reduce IntOp.andi x v reducesTo_S512x100000_S_d0_1 h_S_) main_v2 main_c
  let main_c_0 : IVec S_ 32 := constantI S_ 32 0#32
  let main_v4 : IVec S512 32 := broadcastInDim S512 ![] bcast_S_S512 main_c_0
  let main_v5 : IVec S512 1 := cmpi .sge main_arg1 main_v4
  let main_c_1 : IVec S_ 32 := constantI S_ 32 100000#32
  let main_v6 : IVec S512 32 := broadcastInDim S512 ![] bcast_S_S512 main_c_1
  let main_v7 : IVec S512 1 := cmpi .slt main_arg1 main_v6
  let main_v8 : IVec S512 1 := andi main_v5 main_v7
  let main_c_2 : IVec S_ 1 := constantI S_ 1 1#1
  let main_v9 : IVec S_ 1 := (fun x v => Host.reduce IntOp.andi x v reducesTo_S512_S_d0 h_S_) main_v8 main_c_2
  let main_v10 : IVec S_ 1 := andi main_v3 main_v9
  main_v10
-- ==== Kernel.lean ====
abbrev S512x100000 : Shape := ⟨2, ![512, 100000]⟩
abbrev S512 : Shape := ⟨1, ![512]⟩
abbrev S512x1 : Shape := ⟨2, ![512, 1]⟩
abbrev S256x1 : Shape := ⟨2, ![256, 1]⟩
abbrev S256x6144 : Shape := ⟨2, ![256, 6144]⟩
abbrev S256 : Shape := ⟨1, ![256]⟩
abbrev S_ : Shape := ⟨0, ![]⟩

abbrev nBuf : Space → Nat
  | .hbm => 20
  | .vmem => 11
  | .smem => 0
  | _ => 0

abbrev bufTy : (tb : Table) → Fin (tcTables nBuf tb) → BufTy
  | .hbm, ⟨0, _⟩ => ⟨S512x100000, .f32⟩
  | .hbm, ⟨1, _⟩ => ⟨S512, .i32⟩
  | .hbm, ⟨2, _⟩ => ⟨S512x1, .i32⟩
  | .hbm, ⟨3, _⟩ => ⟨S512x1, .f32⟩
  | .hbm, ⟨4, _⟩ => ⟨S512x1, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S256x1, .i32⟩
  | .local _ .vmem, ⟨1, _⟩ => ⟨S256x1, .i32⟩
  | .local _ .vmem, ⟨2, _⟩ => ⟨S256x6144, .f32⟩
  | .local _ .vmem, ⟨3, _⟩ => ⟨S256x6144, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | _, _ => ⟨S512x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c16_i32 : BitVec 32 := 16#32
  let v69 : BitVec 1 := Scalar.cmpi .eq arg1 c16_i32
  let v70 : BitVec 32 := Scalar.extui v69
  let c0_i32_31 : BitVec 32 := 0#32
  let v71 : BitVec 1 := Scalar.cmpi .ne v70 c0_i32_31
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S512_S512x1 : S512.ShapeCasts S512x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x6144_S256x6144_0_0 : ∀ a, (![0, 0] : Fin 2 → Nat) a + S256x6144.size a ≤ S256x6144.size a
  h_S256x6144 : 0 < S256x6144.numel
  iota_S256x6144_d1_w32 : S256x6144.Iotas .tc 32 [1]
  broadcasts_S256x1_S256x6144 : S256x1.Broadcasts S256x6144
  reduces_S256x6144_S256 : S256x6144.Reduces [1] S256
  shapeCasts_S256_S256x1 : S256.ShapeCasts S256x1
  shapeCasts_S512x1_S512 : S512x1.ShapeCasts S512
  bcast_S_S512 : S_.BroadcastsInDim S512 (![] : Fin 0 → Fin S512.rank)
  reducesTo_S512_S_d0 : S512.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S512x1.size a
  hwx0_0 : ∀ i : grid0.Coords, EltTy.bits .i32 = 32 ∨ (Rect.block (s := S512x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S256x6144.size a < S512x100000.size a
  hwx0_1 : ∀ i : grid0.Coords, EltTy.bits .f32 = 32 ∨ (Rect.unit (s := S512x100000) (fun a => cc0_transform_1 i a * S256x6144.size a) (fun a => (Pipeline.Clip.of (cc0_transform_1 i a) (S256x6144.size a) (S512x100000.size a)).extent (S256x6144.size a)) fun a => Pipeline.Clip.inb (Pipeline.Clip.ok_of (hstart0_1 i a))).WholeWords (EltTy.packing .f32)
  hwxs0_1 : ∀ i : grid0.Coords, EltTy.bits .f32 = 32 ∨ (Rect.unit (s := S256x6144) (fun _ => 0) (fun a => (Pipeline.Clip.of (cc0_transform_1 i a) (S256x6144.size a) (S512x100000.size a)).extent (S256x6144.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S512x1.size a
  hwx0_2 : ∀ i : grid0.Coords, EltTy.bits .f32 = 32 ∨ (Rect.block (s := S512x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S512x1.size a
  hwx0_3 : ∀ i : grid0.Coords, EltTy.bits .f32 = 32 ∨ (Rect.block (s := S512x1) S256x1.size (cc0_transform_3 i) (hinb0_3 i)).WholeWords (EltTy.packing .f32)

variable [Facts₀]

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg0) S256x6144.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1_0) S256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S512x100000 : Shape := ⟨2, ![512, 100000]⟩
abbrev S512 : Shape := ⟨1, ![512]⟩
abbrev S_ : Shape := ⟨0, ![]⟩
abbrev S100000 : Shape := ⟨1, ![100000]⟩
abbrev S1x100000 : Shape := ⟨2, ![1, 100000]⟩
abbrev S512x1 : Shape := ⟨2, ![512, 1]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S512x100000, .f32⟩
  | .hbm, ⟨1, _⟩ => ⟨S512, .i32⟩
  | .hbm, ⟨2, _⟩ => ⟨S512x100000, .f32⟩
  | .hbm, ⟨3, _⟩ => ⟨S_, .f32⟩
  | .hbm, ⟨4, _⟩ => ⟨S512x100000, .f32⟩
  | .hbm, ⟨5, _⟩ => ⟨S512x100000, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S512x100000, .f32⟩
  | .hbm, ⟨10, _⟩ => ⟨S512x100000, .f32⟩
  | .hbm, ⟨11, _⟩ => ⟨S_, .f32⟩
  | .hbm, ⟨12, _⟩ => ⟨S512x100000, .f32⟩
  | .hbm, ⟨13, _⟩ => ⟨S512x100000, .f32⟩
  | .hbm, ⟨14, _⟩ => ⟨S512x100000, .f32⟩
  | .hbm, ⟨15, _⟩ => ⟨S_, .f32⟩
  | .hbm, ⟨16, _⟩ => ⟨S512x100000, .f32⟩
  | .hbm, ⟨17, _⟩ => ⟨S512x100000, .f32⟩
  | .hbm, ⟨18, _⟩ => ⟨S_, .f32⟩
  | .hbm, ⟨19, _⟩ => ⟨S512x100000, .f32⟩
  | .hbm, ⟨20, _⟩ => ⟨S512x100000, .f32⟩
  | .hbm, ⟨21, _⟩ => ⟨S512x100000, .f32⟩
  | .hbm, ⟨22, _⟩ => ⟨S_, .f32⟩
  | .hbm, ⟨23, _⟩ => ⟨S512x100000, .f32⟩
  | .hbm, ⟨24, _⟩ => ⟨S512x100000, .i1⟩
  | .hbm, ⟨25, _⟩ => ⟨S_, .f32⟩
  | .hbm, ⟨26, _⟩ => ⟨S512x100000, .f32⟩
  | .hbm, ⟨27, _⟩ => ⟨S512x100000, .f32⟩
  | .hbm, ⟨28, _⟩ => ⟨S512x100000, .f32⟩
  | .hbm, ⟨29, _⟩ => ⟨S100000, .i32⟩
  | .hbm, ⟨30, _⟩ => ⟨S1x100000, .i32⟩
  | .hbm, ⟨31, _⟩ => ⟨S512x1, .i32⟩
  | .hbm, ⟨32, _⟩ => ⟨S512x100000, .i32⟩
  | .hbm, ⟨33, _⟩ => ⟨S512x100000, .i32⟩
  | .hbm, ⟨34, _⟩ => ⟨S512x100000, .i1⟩
  | .hbm, ⟨35, _⟩ => ⟨S512x100000, .f32⟩
  | .hbm, ⟨36, _⟩ => ⟨S_, .f32⟩
  | .hbm, ⟨37, _⟩ => ⟨S512x100000, .f32⟩
  | .hbm, ⟨38, _⟩ => ⟨S512x100000, .f32⟩
  | .hbm, ⟨39, _⟩ => ⟨S_, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S512x1, .f32⟩
  | .hbm, ⟨45, _⟩ => ⟨S512x100000, .f32⟩
  | .hbm, ⟨46, _⟩ => ⟨S512x100000, .f32⟩
  | .hbm, ⟨47, _⟩ => ⟨S512x100000, .f32⟩
  | .hbm, ⟨48, _⟩ => ⟨S_, .f32⟩
  | .hbm, ⟨49, _⟩ => ⟨S512, .f32⟩
  | .hbm, ⟨50, _⟩ => ⟨S512x1, .f32⟩
  | .hbm, ⟨51, _⟩ => ⟨S512x1, .f32⟩
  | .hbm, ⟨52, _⟩ => ⟨S512x100000, .f32⟩
  | .hbm, ⟨53, _⟩ => ⟨S512x100000, .f32⟩
  | .hbm, ⟨54, _⟩ => ⟨S512x1, .i32⟩
  | .hbm, ⟨55, _⟩ => ⟨S_, .i32⟩
  | .hbm, ⟨56, _⟩ => ⟨S512x1, .i32⟩
  | .hbm, ⟨57, _⟩ => ⟨S512x1, .i1⟩
  | .hbm, ⟨58, _⟩ => ⟨S_, .i32⟩
  | .hbm, ⟨59, _⟩ => ⟨S512x1, .i32⟩
  | .hbm, ⟨60, _⟩ => ⟨S512x1, .i32⟩
  | .hbm, ⟨61, _⟩ => ⟨S512x1, .i32⟩
  | .hbm, ⟨62, _⟩ => ⟨S512x1x1, .i32⟩
  | .hbm, ⟨63, _⟩ => ⟨S1, .i32⟩
  | .hbm, ⟨64, _⟩ => ⟨S_, .i32⟩
  | .hbm, ⟨65, _⟩ => ⟨S512x1x1, .i32⟩
  | .hbm, ⟨66, _⟩ => ⟨S512x1x1, .i1⟩
  | .hbm, ⟨67, _⟩ => ⟨S1x1x1, .i32⟩
  | .hbm, ⟨68, _⟩ => ⟨S512x1x1, .i32⟩
  | .hbm, ⟨69, _⟩ => ⟨S512x1x1, .i1⟩
  | .hbm, ⟨70, _⟩ => ⟨S512x1x1, .i1⟩
  | .hbm, ⟨71, _⟩ => ⟨S_, .i1⟩
  | .hbm, ⟨72, _⟩ => ⟨S512x1, .i1⟩
  | .hbm, ⟨73, _⟩ => ⟨S512x1, .f32⟩
  | .hbm, ⟨74, _⟩ => ⟨S_, .f32⟩
  | .hbm, ⟨75, _⟩ => ⟨S512x1, .f32⟩
  | .hbm, ⟨76, _⟩ => ⟨S512x1, .f32⟩
  | .hbm, ⟨77, _⟩ => ⟨S512, .f32⟩
  | .hbm, ⟨78, _⟩ => ⟨S512, .f32⟩
  | .hbm, ⟨79, _⟩ => ⟨S_, .f32⟩
  | .hbm, ⟨80, _⟩ => ⟨S512, .f32⟩
  | .hbm, ⟨81, _⟩ => ⟨S512, .f32⟩
  | .hbm, ⟨82, _⟩ => ⟨S_, .f32⟩
  | .hbm, ⟨83, _⟩ => ⟨S512, .f32⟩
  | .hbm, ⟨84, _⟩ => ⟨S512, .f32⟩
  | .hbm, ⟨85, _⟩ => ⟨S512, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S512x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_call3_cst : Ref sig .tc := ⟨.hbm, 39, rfl⟩
abbrev main_call3_v0 : Ref sig .tc := ⟨.hbm, 40, rfl⟩
abbrev main_call3_cst_0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_v6 : Ref sig .tc := ⟨.hbm, 47, rfl⟩
abbrev main_call3_cst_1 : Ref sig .tc := ⟨.hbm, 48, rfl⟩
abbrev main_call3_v7 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_v24 : Ref sig .tc := ⟨.hbm, 53, rfl⟩
abbrev main_v25 : Ref sig .tc := ⟨.hbm, 54, rfl⟩
abbrev main_call4_c : Ref sig .tc := ⟨.hbm, 55, rfl⟩
abbrev main_call4_v0 : Ref sig .tc := ⟨.hbm, 56, rfl⟩
abbrev main_call4_v1 : Ref sig .tc := ⟨.hbm, 57, rfl⟩
abbrev main_call4_c_0 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_call4_v5 : Ref sig .tc := ⟨.hbm, 62, rfl⟩
abbrev main_call4_c_1 : Ref sig .tc := ⟨.hbm, 63, rfl⟩
abbrev main_call4_c_2 : Ref sig .tc := ⟨.hbm, 64, rfl⟩
abbrev main_call4_v6 : Ref sig .tc := ⟨.hbm, 65, rfl⟩
abbrev main_call4_v7 : Ref sig .tc := ⟨.hbm, 66, rfl⟩
abbrev main_call4_v8 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_c_3 : Ref sig .tc := ⟨.hbm, 71, rfl⟩
abbrev main_call4_v12 : Ref sig .tc := ⟨.hbm, 72, rfl⟩
abbrev main_call4_v13 : Ref sig .tc := ⟨.hbm, 73, rfl⟩
abbrev main_call4_cst : Ref sig .tc := ⟨.hbm, 74, rfl⟩
abbrev main_call4_v14 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_cst_7 : Ref sig .tc := ⟨.hbm, 79, rfl⟩
abbrev main_v29 : Ref sig .tc := ⟨.hbm, 80, rfl⟩
abbrev main_v30 : Ref sig .tc := ⟨.hbm, 81, rfl⟩
abbrev main_cst_8 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_cst_9 : Ref sig .tc := ⟨.hbm, 86, rfl⟩
abbrev main_v34 : Ref sig .tc := ⟨.hbm, 87, rfl⟩
abbrev main_cst_10 : Ref sig .tc := ⟨.hbm, 88, rfl⟩
abbrev main_v35 : Ref sig .tc := ⟨.hbm, 89, rfl⟩

abbrev nD : Nat := 1
abbrev τ : Topo := Topo.v7x

variable {F : FTy → Type} [FloatOps F]

class Facts₀ : Prop where
  bcast_S_S512x100000 : S_.BroadcastsInDim S512x100000 (![] : Fin 0 → Fin S512x100000.rank)
  bcast_S100000_S1x100000_1 : S100000.BroadcastsInDim S1x100000 (![1] : Fin 1 → Fin S1x100000.rank)
  bcast_S512_S512x1_0 : S512.BroadcastsInDim S512x1 (![0] : Fin 1 → Fin S512x1.rank)
  bcast_S1x100000_S512x100000_0_1 : S1x100000.BroadcastsInDim S512x100000 (![0, 1] : Fin 2 → Fin S512x100000.rank)
  bcast_S512x1_S512x100000_0_1 : S512x1.BroadcastsInDim S512x100000 (![0, 1] : Fin 2 → Fin S512x100000.rank)
  reducesTo_S512x100000_S512_d1 : S512x100000.ReducesTo [1] S512
  h_S_ : 0 < S_.numel
  bcast_S_S512 : S_.BroadcastsInDim S512 (![] : Fin 0 → Fin S512.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  gather_S512x100000_S512x1x1_S512x1_n_1_0_0_1_2_11_wf : GatherDims.WF S512x100000 S512x1x1 S512x1 [] [1] [0] [1] [0] 2 ![1, 1]

variable [Facts₀]

def gather_S512x100000_S512x1x1_S512x1_n_1_0_0_1_2_11 : GatherDims S512x100000 S512x1x1 S512x1 where
  offsetDims := []
  collapsedSliceDims := [1]
  operandBatchingDims := [0]
  startIndicesBatchingDims := [0]
  startIndexMap := [1]
  indexVectorDim := 2
  sliceSizes := ![1, 1]
  wf := gather_S512x100000_S512x1x1_S512x1_n_1_0_0_1_2_11_wf

class Facts : Prop extends Facts₀ where

variable [Facts]
-- ==== Proof.KBContents.lean ====
/-
  What the kernel's three scratch columns hold after each grid point, as pure functions of the argument arrays.

  The grid is 2 row tiles by 17 column tiles, swept row tile by row tile: point `t` is row tile `t / 17`,
  column tile `t % 17`.  Each point reads its 256 target indices (`tgB`) and its 256 x 6144 block of scores
  (`xB`: the part of the block inside the array, filled out past the array's last column with the zero word —
  the body masks those lanes, so the filler is never read into a result), and updates a running maximum, a
  running sum of shifted exponentials and a running pick of the target's score (`step`).  The three columns
  are reset at the first column tile of each row tile (`init`), and at the last one the two results are
  the running maximum plus the logarithm of the running sum (`lseAt`) and the running pick (`accAt`).
-/
import proofs.«427789_j12532714570064_2_alg».proof.Proof.Gen.Kernel.Frame
import proofs.«427789_j12532714570064_2_alg».proof.Proof.Gen.Kernel.Skeleton

noncomputable section

namespace Cert.Kernel.Body

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- A column of 256 floats: what one scratch buffer, or one result block, holds. -/
abbrev Col (F : FTy → Type) : Type := Vec F S256x1 .f32

/-- The filler for the lanes of a score block past the array's last column. -/
def zfill : S256x6144.Idx → Elt F .f32 := fun _ => Scalar.ofBits .f32 0#32

/-- The target indices of point `t`'s 256 rows. -/
def tgB (c : Dev nD) (t : Fin cfg0.N) : Vec F S256x1 .i32 := iblk m c 0 t

/-- The score block of point `t`, filled out with the zero word past the array's last column. -/
def xB (c : Dev nD) (t : Fin cfg0.N) : Vec F S256x6144 .f32 :=
  win0_1.fill (grid0.coords t) zfill (iblk m c 1 t)

/-- One point's update of (running maximum, running shifted sum, running pick) from the point's blocks. -/
def step (i : grid0.Coords) (x : Vec F S256x6144 .f32) (tg : Vec F S256x1 .i32) (s : Col F × Col F × Col F) :
    Col F × Col F × Col F :=
  (k0_pay3 (k0_pay13 i x tg) s.1,
   k0_pay2 (k0_pay12 i x tg) (k0_pay13 i x tg) s.1 s.1 s.2.1,
   k0_pay4 (k0_pay9 x) (k0_pay11 i tg) s.2.2)

/-- The reset at a row tile's first column tile. -/
def init : Col F × Col F × Col F := (k0_pay6, k0_pay7, k0_pay8)

/-- The three columns after point `n`. -/
def scAt (c : Dev nD) : (n : ℕ) → n < cfg0.N → Col F × Col F × Col F
  | 0, h => step (grid0.coords ⟨0, h⟩) (xB m c ⟨0, h⟩) (tgB m c ⟨0, h⟩) init
  | n + 1, h => step (grid0.coords ⟨n + 1, h⟩) (xB m c ⟨n + 1, h⟩) (tgB m c ⟨n + 1, h⟩)
      (if (n + 1) % 17 = 0 then init else scAt c n (Nat.lt_of_succ_lt h))

/-- What the columns hold when point `n`'s update starts: the reset at a first column tile, else what the
    point before left. -/
def scIn (c : Dev nD) (n : ℕ) (h : n < cfg0.N) : Col F × Col F × Col F :=
  if n % 17 = 0 then init else scAt m c (n - 1) (Nat.lt_of_le_of_lt (Nat.sub_le _ _) h)

theorem scAt_eq (c : Dev nD) (n : ℕ) (h : n < cfg0.N) :
    scAt m c n h = step (grid0.coords ⟨n, h⟩) (xB m c ⟨n, h⟩) (tgB m c ⟨n, h⟩) (scIn m c n h) := by
  cases n with
  | zero => rfl
  | succ n => rfl

/-- The first result's block after point `t`: the running maximum plus the logarithm of the running sum. -/
def lseAt (c : Dev nD) (t : Fin cfg0.N) : Col F := k0_pay5 (scAt m c t.val t.isLt).1 (scAt m c t.val t.isLt).2.1

/-- The second result's block after point `t`: the running pick. -/
def accAt (c : Dev nD) (t : Fin cfg0.N) : Col F := (scAt m c t.val t.isLt).2.2

end Cert.Kernel.Body

end
-- ==== Proof.KBRuns.lean ====
import proofs.«427789_j12532714570064_2_alg».proof.Proof.KBContents
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! The body's two conditionals, as propositions over the grid coordinates. -/

/-- The column tile is the first: the three columns are reset before the update. -/
abbrev cond0 (i : grid0.Coords) : Prop :=
  (Scalar.cmpi .ne (Scalar.extui (Scalar.cmpi .eq (BitVec.ofNat 32 (i 1).val) 0#32)) 0#32) = 1#1
/-- The column tile is the last: the two results are stored after the update. -/
abbrev cond1 (i : grid0.Coords) : Prop := k0_cond2 i = 1#1

set_option maxHeartbeats 4000000 in
/-- A first column tile: whatever the three columns held, they end at the update of the reset; nothing else changes. -/
theorem runA (c : Dev nD) (i : grid0.Coords)
    (arg2 : Memref sig .tc .vmem S256x1 .i32) (harg2 : arg2.IsWhole) (arg3 : Memref sig .tc .vmem S256x6144 .f32) (harg3 : arg3.IsWhole)
    (arg4 : Memref sig .tc .vmem S256x1 .f32) (harg4 : arg4.IsWhole) (arg5 : Memref sig .tc .vmem S256x1 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x1 .f32) (harg8 : arg8.IsWhole)
    (hc0 : cond0 i) (hc1 : ¬cond1 i)
    (tg : Vec F S256x1 .i32) (x : Vec F S256x6144 .f32) (y4 y5 : Col F) (d : Col F × Col F × Col F)
    (E : Set ℕ) (K : PUnit → sProp 𝕄) :
    iprop(owns (c : Thread nD τ) arg2 fullShare tg ∗ owns (c : Thread nD τ) arg3 fullShare x
        ∗ owns (c : Thread nD τ) arg4 fullShare y4 ∗ owns (c : Thread nD τ) arg5 fullShare y5
        ∗ owns (c : Thread nD τ) arg6 fullShare d.1 ∗ owns (c : Thread nD τ) arg7 fullShare d.2.1 ∗ owns (c : Thread nD τ) arg8 fullShare d.2.2
        ∗ (iprop(owns (c : Thread nD τ) arg2 fullShare tg ∗ owns (c : Thread nD τ) arg3 fullShare x
            ∗ owns (c : Thread nD τ) arg4 fullShare y4 ∗ owns (c : Thread nD τ) arg5 fullShare y5
            ∗ owns (c : Thread nD τ) arg6 fullShare (step i x tg init).1 ∗ owns (c : Thread nD τ) arg7 fullShare (step i x tg init).2.1 ∗ owns (c : Thread nD τ) arg8 fullShare (step i x tg init).2.2) -∗ K ⟨⟩))
      ⊢ wp frame (wpE (defs₀ (F := F)) Variants.none c none) E (cc0__kernel i arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3
  obtain rfl := harg4.eq_unread hf4; obtain rfl := harg5.eq_unread hf5
  obtain rfl := harg6.eq_unread hf6; obtain rfl := harg7.eq_unread hf7; obtain rfl := harg8.eq_unread hf8
  have hz : (![0, 0] : Fin 2 → Nat) = fun _ => 0 := funext fun a => by fin_cases a <;> rfl
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  isplitl [H7]
  · iexists _; isplitr; swap; · iexact H7
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  · iexists _; isplitr; swap; · iexact H8
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl

set_option maxHeartbeats 4000000 in
/-- A middle column tile: the three columns go from `s` to their update; nothing else changes. -/
theorem runB (c : Dev nD) (i : grid0.Coords)
    (arg2 : Memref sig .tc .vmem S256x1 .i32) (harg2 : arg2.IsWhole) (arg3 : Memref sig .tc .vmem S256x6144 .f32) (harg3 : arg3.IsWhole)
    (arg4 : Memref sig .tc .vmem S256x1 .f32) (harg4 : arg4.IsWhole) (arg5 : Memref sig .tc .vmem S256x1 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x1 .f32) (harg8 : arg8.IsWhole)
    (hc0 : ¬cond0 i) (hc1 : ¬cond1 i)
    (tg : Vec F S256x1 .i32) (x : Vec F S256x6144 .f32) (y4 y5 : Col F) (s : Col F × Col F × Col F)
    (E : Set ℕ) (K : PUnit → sProp 𝕄) :
    iprop(owns (c : Thread nD τ) arg2 fullShare tg ∗ owns (c : Thread nD τ) arg3 fullShare x
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare tg ∗ owns (c : Thread nD τ) arg3 fullShare x
            ∗ owns (c : Thread nD τ) arg4 fullShare y4 ∗ owns (c : Thread nD τ) arg5 fullShare y5
            ∗ owns (c : Thread nD τ) arg6 fullShare (step i x tg s).1 ∗ owns (c : Thread nD τ) arg7 fullShare (step i x tg s).2.1 ∗ owns (c : Thread nD τ) arg8 fullShare (step i x tg s).2.2) -∗ K ⟨⟩))
      ⊢ wp frame (wpE (defs₀ (F := F)) Variants.none c none) E (cc0__kernel i arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3
  obtain rfl := harg4.eq_unread hf4; obtain rfl := harg5.eq_unread hf5
  obtain rfl := harg6.eq_unread hf6; obtain rfl := harg7.eq_unread hf7; obtain rfl := harg8.eq_unread hf8
  have hz : (![0, 0] : Fin 2 → Nat) = fun _ => 0 := funext fun a => by fin_cases a <;> rfl
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  isplitl [H7]
  · iexists _; isplitr; swap; · iexact H7
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  · iexists _; isplitr; swap; · iexact H8
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl

set_option maxHeartbeats 4000000 in
/-- A last column tile: the three columns go from `s` to their update, and the two result blocks end at the running maximum plus the logarithm of the running sum, and at the running pick. -/
theorem runC (c : Dev nD) (i : grid0.Coords)
    (arg2 : Memref sig .tc .vmem S256x1 .i32) (harg2 : arg2.IsWhole) (arg3 : Memref sig .tc .vmem S256x6144 .f32) (harg3 : arg3.IsWhole)
    (arg4 : Memref sig .tc .vmem S256x1 .f32) (harg4 : arg4.IsWhole) (arg5 : Memref sig .tc .vmem S256x1 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x1 .f32) (harg8 : arg8.IsWhole)
    (hc0 : ¬cond0 i) (hc1 : cond1 i)
    (tg : Vec F S256x1 .i32) (x : Vec F S256x6144 .f32) (y4 y5 : Col F) (s : Col F × Col F × Col F)
    (E : Set ℕ) (K : PUnit → sProp 𝕄) :
    iprop(owns (c : Thread nD τ) arg2 fullShare tg ∗ owns (c : Thread nD τ) arg3 fullShare x
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare tg ∗ owns (c : Thread nD τ) arg3 fullShare x
            ∗ owns (c : Thread nD τ) arg4 fullShare (k0_pay5 (step i x tg s).1 (step i x tg s).2.1) ∗ owns (c : Thread nD τ) arg5 fullShare (step i x tg s).2.2
            ∗ owns (c : Thread nD τ) arg6 fullShare (step i x tg s).1 ∗ owns (c : Thread nD τ) arg7 fullShare (step i x tg s).2.1 ∗ owns (c : Thread nD τ) arg8 fullShare (step i x tg s).2.2) -∗ K ⟨⟩))
      ⊢ wp frame (wpE (defs₀ (F := F)) Variants.none c none) E (cc0__kernel i arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3
  obtain rfl := harg4.eq_unread hf4; obtain rfl := harg5.eq_unread hf5
  obtain rfl := harg6.eq_unread hf6; obtain rfl := harg7.eq_unread hf7; obtain rfl := harg8.eq_unread hf8
  have hz : (![0, 0] : Fin 2 → Nat) = fun _ => 0 := funext fun a => by fin_cases a <;> rfl
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  isplitl [H5]
  · iexists _; isplitr; swap; · iexact H5
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  isplitl [H6]
  · iexists _; isplitr; swap; · iexact H6
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  isplitl [H7]
  · iexists _; isplitr; swap; · iexact H7
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  · iexists _; isplitr; swap; · iexact H8
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl

end Cert.Kernel.Body

end
-- ==== Proof.KBIndep.lean ====
/-
  The update of the three columns does not read the lanes past the array's last column.

  A score block is 256 x 6144; in the last column tile only the first 1696 lanes lie inside the array
  (100000 = 16 · 6144 + 1696) and the rest of the staging buffer holds words nothing names.  The update masks
  them: a lane's score is replaced by the fill constant unless its column is below 100000, and the target's
  pick keeps a lane only where the column equals the row's target word — which, for a target word below
  100000, is never a lane past the array's end.  So two blocks that agree on the lanes inside the array give
  the same update.
-/
import proofs.«427789_j12532714570064_2_alg».proof.Proof.KBContents
import Idealize.ShloMosaic.Lib.ValueIdx
import Idealize.ShloMosaic.Lib.Pipeline.Value
import Idealize.ShloMosaic.Lib.StableHlo.Predicate

noncomputable section

namespace Cert.Kernel.Body

open Cert.Kernel Cert.Kernel.Gen
open Idealize.ShloMosaic Idealize.ShloMosaic.TcCoe Idealize.SL.Sem

variable {F : FTy → Type} [FloatOps F]

/-! ## Which lanes of a block lie inside the array

The array is 512 x 100000 and a block 256 x 6144, at block index (row tile, column tile).  Two row tiles tile
the 512 rows exactly, so no block is cut on the rows; on the columns the tiles 0..15 end inside the array
(16 · 6144 = 98304 ≤ 100000) and tile 16 is cut to its first 100000 - 98304 = 1696 lanes. -/

/-- No block is cut on the row axis. -/
theorem xsize_rows (i : grid0.Coords) : win0_1.xsize i 0 = 256 := by
  have h0 : (i 0).val < 2 := (i 0).isLt
  show (Pipeline.Clip.of (cc0_transform_1 i 0) 256 512).extent 256 = 256
  have e : cc0_transform_1 i 0 = (i 0).val := by
    show (BitVec.ofNat 32 (i 0).val).toNat = (i 0).val
    rw [BitVec.toNat_ofNat]; omega
  rw [e]
  unfold Pipeline.Clip.of
  rw [if_pos (by omega)]

/-- On the column axis the tiles 0..15 are whole and tile 16 keeps its first 1696 lanes. -/
theorem xsize_cols (i : grid0.Coords) : win0_1.xsize i 1 = if (i 1).val ≤ 15 then 6144 else 1696 := by
  have h1 : (i 1).val < 17 := (i 1).isLt
  show (Pipeline.Clip.of (cc0_transform_1 i 1) 6144 100000).extent 6144 = _
  have e : cc0_transform_1 i 1 = (i 1).val := by
    show (BitVec.ofNat 32 (i 1).val).toNat = (i 1).val
    rw [BitVec.toNat_ofNat]; omega
  rw [e]
  unfold Pipeline.Clip.of
  split
  · next h => rw [if_pos (by omega)]
  · next h =>
    have h16 : (i 1).val = 16 := by omega
    rw [if_neg (by omega), h16]

/-- A lane of the block is one the transfer moves exactly when its column is a column of the array. -/
theorem moved_iff_col (i : grid0.Coords) (j : S256x6144.Idx) :
    win0_1.moved i j = true ↔ 6144 * (i 1).val + (j 1).val < 100000 := by
  rw [Pipeline.Window.moved_iff]
  have h1 : (i 1).val < 17 := (i 1).isLt
  have hj0 : (j 0).val < 256 := (j 0).isLt
  have hj1 : (j 1).val < 6144 := (j 1).isLt
  constructor
  · intro h
    have h' := h 1
    rw [xsize_cols] at h'
    split at h' <;> omega
  · intro h a
    match a with
    | 0 => rw [xsize_rows]; exact hj0
    | 1 => rw [xsize_cols]; split <;> omega

/-- On a lane the transfer moves, the filled block holds the fetched word whatever the filler. -/
theorem fill_lane (i : grid0.Coords) (d d' : S256x6144.Idx → Elt F .f32) (g : (win0_1.xblock i).Idx → Elt F .f32)
    (j : S256x6144.Idx) (hm : win0_1.moved i j = true) : win0_1.fill i d g j = win0_1.fill i d' g j := by
  unfold Pipeline.Window.fill; rw [dif_pos hm, dif_pos hm]

/-! ## The column word of a lane, and the two masks read at a lane -/

/-- A lane's column word is its column in the array: 6144 · (column tile) + (lane), which does not wrap. -/
theorem pay10_apply (i : grid0.Coords) (j : S256x6144.Idx) :
    k0_pay10 i j = BitVec.ofNat 32 (6144 * (i 1).val + (j 1).val) := by
  show IntOp.addi (Scalar.muli (BitVec.ofNat 32 (i 1).val) 6144#32) (iota .tc S256x6144 32 [1] iota_S256x6144_d1_w32 j) = _
  rw [iota_single_apply]
  apply BitVec.eq_of_toNat_eq
  simp only [IntOp.addi, Scalar.muli, IntOp.muli, BitVec.toNat_add, BitVec.toNat_mul, BitVec.toNat_ofNat]
  omega

/-- The "column below 100000" mask is set at a lane exactly when the lane's column is below 100000. -/
theorem pay10_slt_iff (i : grid0.Coords) (j : S256x6144.Idx) :
    IntOp.cmpi .slt (k0_pay10 i j) 100000#32 = 1#1 ↔ 6144 * (i 1).val + (j 1).val < 100000 := by
  have h1 : (i 1).val < 17 := (i 1).isLt
  have hj1 : (j 1).val < 6144 := (j 1).isLt
  rw [pay10_apply]
  unfold IntOp.cmpi
  exact StableHlo.Predicate.slt_ofNat_iff _ 100000 (by omega) (by omega)

/-- Where the "target column" mask is set, the lane's column is the row's target word. -/
theorem pay11_col (i : grid0.Coords) (tg : Vec F S256x1 .i32) (j : S256x6144.Idx) (h : k0_pay11 i tg j = 1#1) :
    6144 * (i 1).val + (j 1).val = (tg (ValueIdx.ix2 (j 0) 0) : BitVec 32).toNat := by
  have h1 : (i 1).val < 17 := (i 1).isLt
  have hj1 : (j 1).val < 6144 := (j 1).isLt
  have e : k0_pay11 i tg j = IntOp.cmpi .eq (k0_pay10 i j)
      (broadcastTo S256x6144 (shapeCast S256x1 tg shapeCasts_S256x1_S256x1) broadcasts_S256x1_S256x6144 j) := rfl
  rw [e, shapeCast_self, broadcastTo_apply tg broadcasts_S256x1_S256x6144 j (ValueIdx.ix2 (j 0) 0) (by
    intro a
    match a with
    | 0 => rfl
    | 1 => rfl), StableHlo.Predicate.cmpi_eq_iff, pay10_apply] at h
  rw [← h, BitVec.toNat_ofNat]
  omega

/-! ## The payloads read a block lane by lane

Every operation between the block and the two selects acts lane by lane, so the value at a lane is a function of the
block's word at that lane alone: it is unchanged when the block is replaced by the constant block of that word. -/

theorem pay9_lane (x y : Vec F S256x6144 .f32) (j : S256x6144.Idx) (h : x j = y j) : k0_pay9 x j = k0_pay9 y j := by
  have e : ∀ z : Vec F S256x6144 .f32, k0_pay9 z j = k0_pay9 (fun _ => z j) j := fun _ => rfl
  rw [e x, e y, h]

theorem pay12_lane (i : grid0.Coords) (tg : Vec F S256x1 .i32) (x y : Vec F S256x6144 .f32) (j : S256x6144.Idx)
    (h : x j = y j) : k0_pay12 i x tg j = k0_pay12 i y tg j := by
  have e : ∀ z : Vec F S256x6144 .f32, k0_pay12 i z tg j = k0_pay12 i (fun _ => z j) tg j := fun _ => rfl
  rw [e x, e y, h]

/-- Where the column is not below 100000 the masked score is the fill constant, whatever the block. -/
theorem pay12_masked (i : grid0.Coords) (tg : Vec F S256x1 .i32) (x y : Vec F S256x6144 .f32) (j : S256x6144.Idx)
    (hc : ¬IntOp.cmpi .slt (k0_pay10 i j) 100000#32 = 1#1) : k0_pay12 i x tg j = k0_pay12 i y tg j := by
  have hz := ValueIdx.eq_zero_of_ne_one hc
  show Scalar.select (IntOp.cmpi .slt (k0_pay10 i j) 100000#32) _ _ = Scalar.select (IntOp.cmpi .slt (k0_pay10 i j) 100000#32) _ _
  rw [hz, ValueIdx.select_zero, ValueIdx.select_zero]

/-! ## The two facts the update needs -/

/-- The masked scores do not depend on the filler. -/
theorem pay12_fill_indep (i : grid0.Coords) (d d' : S256x6144.Idx → Elt F .f32) (g : (win0_1.xblock i).Idx → Elt F .f32)
    (tg : Vec F S256x1 .i32) : k0_pay12 i (win0_1.fill i d g) tg = k0_pay12 i (win0_1.fill i d' g) tg := by
  funext j
  by_cases hm : win0_1.moved i j = true
  · exact pay12_lane i tg _ _ j (fill_lane i d d' g j hm)
  · exact pay12_masked i tg _ _ j fun h => hm ((moved_iff_col i j).mpr ((pay10_slt_iff i j).mp h))

/-- The target's pick does not depend on the filler: a lane is kept only where its column is the row's target word,
    which is a column of the array. -/
theorem pick_fill_indep (i : grid0.Coords) (d d' : S256x6144.Idx → Elt F .f32) (g : (win0_1.xblock i).Idx → Elt F .f32)
    (tg : Vec F S256x1 .i32) (hT : ∀ j : S256x1.Idx, (tg j : BitVec 32).toNat < 100000) (c z : F .f32) :
    select (k0_pay11 i tg) (mulf (broadcast S256x6144 c) (k0_pay9 (win0_1.fill i d g))) (broadcast S256x6144 z)
      = select (k0_pay11 i tg) (mulf (broadcast S256x6144 c) (k0_pay9 (win0_1.fill i d' g))) (broadcast S256x6144 z) := by
  funext j
  by_cases hc : k0_pay11 i tg j = 1#1
  · have hm : win0_1.moved i j = true := (moved_iff_col i j).mpr (by rw [pay11_col i tg j hc]; exact hT _)
    have h9 := pay9_lane _ _ j (fill_lane i d d' g j hm)
    show Scalar.select (k0_pay11 i tg j) (FloatOps.mulf c (k0_pay9 (win0_1.fill i d g) j)) z
      = Scalar.select (k0_pay11 i tg j) (FloatOps.mulf c (k0_pay9 (win0_1.fill i d' g) j)) z
    rw [h9]
  · have hz := ValueIdx.eq_zero_of_ne_one hc
    show Scalar.select (k0_pay11 i tg j) _ _ = Scalar.select (k0_pay11 i tg j) _ _
    rw [hz, ValueIdx.select_zero, ValueIdx.select_zero]

/-- Filling a score block out with `d` or with `d'` past the array's last column gives the same update, when
    every target word of the point is below 100000. -/
theorem step_fill_indep (i : grid0.Coords) (d d' : S256x6144.Idx → Elt F .f32)
    (g : (win0_1.xblock i).Idx → Elt F .f32) (tg : Vec F S256x1 .i32)
    (hT : ∀ j : S256x1.Idx, (tg j : BitVec 32).toNat < 100000) (s : Col F × Col F × Col F) :
    step i (win0_1.fill i d g) tg s = step i (win0_1.fill i d' g) tg s := by
  have A := pay12_fill_indep i d d' g tg
  have h13 : k0_pay13 i (win0_1.fill i d g) tg = k0_pay13 i (win0_1.fill i d' g) tg := by
    unfold k0_pay13; rw [A]
  have h4 : k0_pay4 (k0_pay9 (win0_1.fill i d g)) (k0_pay11 i tg) s.2.2
      = k0_pay4 (k0_pay9 (win0_1.fill i d' g)) (k0_pay11 i tg) s.2.2 := by
    unfold k0_pay4
    dsimp only
    rw [pick_fill_indep i d d' g tg hT]
  unfold step
  rw [A, h13, h4]

end Cert.Kernel.Body

end
-- ==== Proof.KBBody.lean ====
import proofs.«427789_j12532714570064_2_alg».proof.Proof.KBRuns
import proofs.«427789_j12532714570064_2_alg».proof.Proof.KBIndep
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in, and where the two results are idle -/

/-- The first conditional holds at the first column tile of each row tile. -/
theorem hcond0 : ∀ t : Fin cfg0.N, cond0 (grid0.coords t) ↔ t.val % 17 = 0 :=
  (by decide +kernel : ∀ t : Fin grid0.N, cond0 (grid0.coords t) ↔ t.val % 17 = 0)
/-- The second conditional holds at the last column tile of each row tile. -/
theorem hcond1 : ∀ t : Fin cfg0.N, cond1 (grid0.coords t) ↔ t.val % 17 = 16 :=
  (by decide +kernel : ∀ t : Fin grid0.N, cond1 (grid0.coords t) ↔ t.val % 17 = 16)

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬cond1 (grid0.coords t) → cfg0.idle 2 (grid0.coords t) = true := by decide +kernel
theorem idle3 : ∀ t : Fin cfg0.N, ¬cond1 (grid0.coords t) → cfg0.idle 3 (grid0.coords t) = true := by decide +kernel
theorem noFlush2 : ∀ t : Fin cfg0.N, ¬cond1 (grid0.coords t) → (cfg0.win 2).flush t = false := by decide +kernel
theorem noFlush3 : ∀ t : Fin cfg0.N, ¬cond1 (grid0.coords t) → (cfg0.win 3).flush t = false := by decide +kernel
theorem live2 : ∀ t : Fin cfg0.N, cond1 (grid0.coords t) → cfg0.idle 2 (grid0.coords t) = false := by decide +kernel
theorem live3 : ∀ t : Fin cfg0.N, cond1 (grid0.coords t) → cfg0.idle 3 (grid0.coords t) = false := by decide +kernel

/-! ## The memrefs the body is called with -/

abbrev ms0 (t : Fin cfg0.N) : Memref sig .tc .vmem S256x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x6144 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1 .f32 := win0_3.stage (cfg0.slots t 3)
abbrev hs3 (t : Fin cfg0.N) : (ms3 t).IsWhole := hstage0_3 ((cfg0.slots t 3).cast nbuf0_3)
/-- The three scratch columns: the running maximum, the running sum, the running pick. -/
abbrev scM0 : Memref sig .tc .vmem S256x1 .f32 := Memref.whole cc0_scratch0
abbrev scM1 : Memref sig .tc .vmem S256x1 .f32 := Memref.whole cc0_scratch1
abbrev scM2 : Memref sig .tc .vmem S256x1 .f32 := Memref.whole cc0_scratch2

/-- What the launch hands the region: the three scratch columns at anything, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- The region's invariant before position `n`: before the first point what the launch hands over; after
    point `n` the three columns at their contents there. -/
def PhiS (c : Dev nD) : (n : ℕ) → n ≤ cfg0.N → sProp 𝕄
  | 0, _ => Pipeline.ΦA spec0 c
  | n + 1, hn => iprop(iprop(owns (c : Thread nD τ) scM0 fullShare (scAt m c n hn).1
      ∗ owns (c : Thread nD τ) scM1 fullShare (scAt m c n hn).2.1
      ∗ owns (c : Thread nD τ) scM2 fullShare (scAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (scAt m c n hn).1
      ∗ owns (c : Thread nD τ) scM1 fullShare (scAt m c n hn).2.1
      ∗ owns (c : Thread nD τ) scM2 fullShare (scAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0 fullShare (scAt m c (n - 1) (by omega)).1
      ∗ owns (c : Thread nD τ) scM1 fullShare (scAt m c (n - 1) (by omega)).2.1
      ∗ owns (c : Thread nD τ) scM2 fullShare (scAt m c (n - 1) (by omega)).2.2) ∗ (∃ r, prngReg c r)) := by
  cases n with
  | zero => exact absurd rfl hz
  | succ n => rfl

/-! ## The pipeline's proof data -/

/-- The arrays as the region finds them; after the body at point `t` the targets' buffer at its block, the
    scores' at its block filled out with the zero word, the two results' at `lseAt` and `accAt`; the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => xB m c t
    | ⟨2, _⟩ => lseAt m c t
    | ⟨3, _⟩ => accAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = xB m c t := by dsimp only [dats]
theorem after2 (c : Dev nD) (t : Fin cfg0.N) : (dats m 0 c).after 2 t = lseAt m c t := by dsimp only [dats]
theorem after3 (c : Dev nD) (t : Fin cfg0.N) : (dats m 0 c).after 3 t = accAt m c t := by dsimp only [dats]

/-- The targets' buffer holds the point's block, fetched there or not. -/
theorem before0 (c : Dev nD) (t : Fin cfg0.N) (d) : (dats m 0 c).before 0 t d = iblk m c 0 t :=
  before0_0_of m (dats m 0 c) (A_eq m c 0) (after0 m c) t d

/-- The scores' buffer is fetched at every point: the block on the lanes inside the array, `d` elsewhere. -/
theorem before1 (c : Dev nD) (t : Fin cfg0.N) (d) :
    (dats m 0 c).before 1 t d = win0_1.fill (grid0.coords t) d (iblk m c 1 t) := by
  unfold Dat.before; rw [if_pos (fetch0_1 t)]; rfl

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

theorem leaves0 (c : Dev nD) (t : Fin cfg0.N) :
    (dats m 0 c).leaves 0 t = owns (c : Thread nD τ) (ms0 t) fullShare (iblk m c 0 t) := by
  unfold Dat.leaves; rw [live0 t]; rfl

theorem leaves1 (c : Dev nD) (t : Fin cfg0.N) :
    (dats m 0 c).leaves 1 t
      = iprop(∃ d, owns (c : Thread nD τ) (ms1 t) fullShare (win0_1.fill (grid0.coords t) d (iblk m c 1 t))) := by
  unfold Dat.leaves; rw [live1 t]
  show iprop(∃ d, owns (c : Thread nD τ) (ms1 t) fullShare
    (win0_1.fill (grid0.coords t) d (win0_1.cut (grid0.coords t) (win0_1.fill (grid0.coords t) zfill (iblk m c 1 t))))) = _
  simp only [Window.cut_fill]

theorem leaves2_live (c : Dev nD) (t : Fin cfg0.N) (h : cond1 (grid0.coords t)) :
    (dats m 0 c).leaves 2 t = owns (c : Thread nD τ) (ms2 t) fullShare (lseAt m c t) := by
  unfold Dat.leaves; rw [live2 t h]; rfl
theorem leaves3_live (c : Dev nD) (t : Fin cfg0.N) (h : cond1 (grid0.coords t)) :
    (dats m 0 c).leaves 3 t = owns (c : Thread nD τ) (ms3 t) fullShare (accAt m c t) := by
  unfold Dat.leaves; rw [live3 t h]; rfl

set_option maxHeartbeats 4000000 in
/-- The body at any point.  The case is decided by the point's number; the scores' buffer arrives filled out
    past the array's end with words nothing names, which the update does not read (`step_fill_indep`), so the
    three columns end at their named contents; the two results' buffers are handed back untouched except at a
    last column tile, where they end at the results' blocks. -/
theorem sound_body (hT : ∀ (c : Dev nD) (t : Fin cfg0.N) (j : S256x1.Idx), (tgB m c t j : BitVec 32).toNat < 100000)
    (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 34 := lt_of_lt_of_eq t.isLt N_0
  by_cases h0 : t.val % 17 = 0
  · have hc0 : cond0 (grid0.coords t) := (hcond0 t).mpr h0
    have hc1 : ¬cond1 (grid0.coords t) := fun h => by have := (hcond1 t).mp h; omega
    rw [Dat.leaves_idle (dats m 0 c) 2 t (idle2 t hc1) (noFlush2 t hc1),
      Dat.leaves_idle (dats m 0 c) 3 t (idle3 t hc1) (noFlush3 t hc1)]
    rw [scAt_eq m c t.val t.isLt, show scIn m c t.val t.isLt = init from if_pos h0]
    by_cases hz : t.val = 0
    · rw [PhiS_castSucc m c t, PhiS_zero m c _ _ hz, PhiA_eq]
      iintro ⟨⟨⟨⟨%d6, HS0⟩, ⟨%d7, HS1⟩, ⟨%d8, HS2⟩⟩, Hg⟩, Ho, ⟨%d0, H0⟩, ⟨%d1, H1⟩, ⟨%d2, H2⟩, ⟨%d3, H3⟩⟩
      rw [show xB m c t = win0_1.fill (grid0.coords t) zfill (iblk m c 1 t) from rfl,
        step_fill_indep (grid0.coords t) zfill d1 (iblk m c 1 t) (tgB m c t) (hT c t)]
      iapply (runA c (grid0.coords t) (ms0 t) (hs0 t) (ms1 t) (hs1 t) (ms2 t) (hs2 t) (ms3 t) (hs3 t) scM0 (Memref.isWhole_whole _) scM1 (Memref.isWhole_whole _) scM2 (Memref.isWhole_whole _) hc0 hc1 (tgB m c t) (win0_1.fill (grid0.coords t) d1 (iblk m c 1 t)) _ _ (d6, d7, d8) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexists _; iexact H1
      isplitl [H2]; · iexists _; iexact H2
      iexists _; iexact H3
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      rw [show xB m c t = win0_1.fill (grid0.coords t) zfill (iblk m c 1 t) from rfl,
        step_fill_indep (grid0.coords t) zfill d1 (iblk m c 1 t) (tgB m c t) (hT c t)]
      iapply (runA c (grid0.coords t) (ms0 t) (hs0 t) (ms1 t) (hs1 t) (ms2 t) (hs2 t) (ms3 t) (hs3 t) scM0 (Memref.isWhole_whole _) scM1 (Memref.isWhole_whole _) scM2 (Memref.isWhole_whole _) hc0 hc1 (tgB m c t) (win0_1.fill (grid0.coords t) d1 (iblk m c 1 t)) _ _ (scAt m c (t.val - 1) (by omega)) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexists _; iexact H1
      isplitl [H2]; · iexists _; iexact H2
      iexists _; iexact H3
  · have hc0 : ¬cond0 (grid0.coords t) := fun h => h0 ((hcond0 t).mp h)
    have hz : t.val ≠ 0 := fun h => h0 (by rw [h])
    by_cases h1 : t.val % 17 = 16
    · have hc1 : cond1 (grid0.coords t) := (hcond1 t).mpr h1
      rw [leaves2_live m c t hc1, leaves3_live m c t hc1]
      unfold lseAt accAt
      rw [scAt_eq m c t.val t.isLt, show scIn m c t.val t.isLt = scAt m c (t.val - 1) (Nat.lt_of_le_of_lt (Nat.sub_le _ _) t.isLt) from if_neg h0]
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      rw [show xB m c t = win0_1.fill (grid0.coords t) zfill (iblk m c 1 t) from rfl,
        step_fill_indep (grid0.coords t) zfill d1 (iblk m c 1 t) (tgB m c t) (hT c t)]
      iapply (runC c (grid0.coords t) (ms0 t) (hs0 t) (ms1 t) (hs1 t) (ms2 t) (hs2 t) (ms3 t) (hs3 t) scM0 (Memref.isWhole_whole _) scM1 (Memref.isWhole_whole _) scM2 (Memref.isWhole_whole _) hc0 hc1 (tgB m c t) (win0_1.fill (grid0.coords t) d1 (iblk m c 1 t)) _ _ (scAt m c (t.val - 1) (by omega)) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexists _; iexact H1
      isplitl [H2]; · iexact H2
      iexact H3
    · have hc1 : ¬cond1 (grid0.coords t) := fun h => h1 ((hcond1 t).mp h)
      rw [Dat.leaves_idle (dats m 0 c) 2 t (idle2 t hc1) (noFlush2 t hc1),
        Dat.leaves_idle (dats m 0 c) 3 t (idle3 t hc1) (noFlush3 t hc1)]
      rw [scAt_eq m c t.val t.isLt, show scIn m c t.val t.isLt = scAt m c (t.val - 1) (Nat.lt_of_le_of_lt (Nat.sub_le _ _) t.isLt) from if_neg h0]
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      rw [show xB m c t = win0_1.fill (grid0.coords t) zfill (iblk m c 1 t) from rfl,
        step_fill_indep (grid0.coords t) zfill d1 (iblk m c 1 t) (tgB m c t) (hT c t)]
      iapply (runB c (grid0.coords t) (ms0 t) (hs0 t) (ms1 t) (hs1 t) (ms2 t) (hs2 t) (ms3 t) (hs3 t) scM0 (Memref.isWhole_whole _) scM1 (Memref.isWhole_whole _) scM2 (Memref.isWhole_whole _) hc0 hc1 (tgB m c t) (win0_1.fill (grid0.coords t) d1 (iblk m c 1 t)) _ _ (scAt m c (t.val - 1) (by omega)) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexists _; iexact H1
      isplitl [H2]; · iexists _; iexact H2
      iexists _; iexact H3

/-- The library's body obligation, at every point. -/
theorem body_obligation (hT : ∀ (c : Dev nD) (t : Fin cfg0.N) (j : S256x1.Idx), (tgB m c t j : BitVec 32).toNat < 100000)
    (c : Dev nD) : BodyObligationLoose (dats (F := F) m 0 c) (defs₀ (F := F)) Variants.none () Set.univ := fun t => by
  rw [bigSep_W0, bigSep_W0]
  exact sound_body m hT c t

/-! ## The run and the frame -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back: the columns' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 34 := N_0; omega)

set_option backward.isDefEq.respectTransparency.types false in
/-- For any values whose target blocks name columns, from any memory with zero counters: every weakly fair
    execution of the program terminates, every array of the pipeline ends at what the proof data computes, and
    every other buffer as the host operations after the region leave it. -/
theorem run_main (hT : ∀ (c : Dev nD) (t : Fin cfg0.N) (j : S256x1.Idx), (tgB m c t j : BitVec 32).toNat < 100000) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hT c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its two argument arrays end unchanged. -/
theorem frame (hT : ∀ (c : Dev nD) (t : Fin cfg0.N) (j : S256x1.Idx), (tgB m c t j : BitVec 32).toNat < 100000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hT)

end Cert.Kernel.Body

end
-- ==== Proof.KBBlocks.lean ====
/-
  A point's two input blocks, entry by entry, in terms of the argument arrays.

  Point `t` of the 2 x 17 grid is row tile `t / 17`, column tile `t % 17`.  Its block of target words is rows
  `256 (t / 17) + p` of the target array (which the program first reshapes from 512 words to a 512 x 1
  column — the same words), and its block of scores is those rows at columns `6144 (t % 17) + q`, for the
  lanes `q` whose column lies inside the array.  In particular a bound on every target word is a bound on
  every word of every point's block.
-/
import proofs.«427789_j12532714570064_2_alg».proof.Proof.KBContents
import Idealize.ShloMosaic.Lib.ValueIdx
import Idealize.ShloMosaic.Lib.Pipeline.Value
import Idealize.ShloMosaic.Lib.StableHlo.Run

noncomputable section

namespace Cert.Kernel.Body

open Cert.Kernel Cert.Kernel.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- A point's column tile and row tile, from its number. -/
theorem coords_col : ∀ t : Fin cfg0.N, ((grid0.coords t) 1).val = t.val % 17 :=
  (by decide +kernel : ∀ t : Fin grid0.N, ((grid0.coords t) 1).val = t.val % 17)
theorem coords_row : ∀ t : Fin cfg0.N, ((grid0.coords t) 0).val = t.val / 17 :=
  (by decide +kernel : ∀ t : Fin grid0.N, ((grid0.coords t) 0).val = t.val / 17)

/-- Row `p` of point `t` is row `256 (t / 17) + p` of the arrays. -/
def rowIx (t : Fin cfg0.N) (p : Fin 256) : Fin 512 :=
  ⟨256 * (t.val / 17) + p.val, by have h1 : t.val < 34 := lt_of_lt_of_eq t.isLt N_0; have := p.isLt; omega⟩

/-- The block indices of the two input windows at point `t`: (row tile, 0) for the target words and
    (row tile, column tile) for the scores. -/
theorem index_tg : ∀ t : Fin cfg0.N, win0_0.index t (0 : Fin 2) = t.val / 17 ∧ win0_0.index t (1 : Fin 2) = 0 :=
  (by decide +kernel : ∀ t : Fin grid0.N, win0_0.index t (0 : Fin 2) = t.val / 17 ∧ win0_0.index t (1 : Fin 2) = 0)
theorem index_x : ∀ t : Fin cfg0.N, win0_1.index t (0 : Fin 2) = t.val / 17 ∧ win0_1.index t (1 : Fin 2) = t.val % 17 :=
  (by decide +kernel : ∀ t : Fin grid0.N, win0_1.index t (0 : Fin 2) = t.val / 17 ∧ win0_1.index t (1 : Fin 2) = t.val % 17)

/-- The 512 x 1 column the region finds holds the target array's words, row by row: the reshape keeps the
    row-major position, and position `r` of the 512 words is position `r · 1 + 0` of the column. -/
theorem column_apply (c : Dev nD) (r : Fin 512) :
    (V m c main_v0 : S512x1.Idx → Elt F .i32) (ix2 r (0 : Fin 1))
      = (m ((c.tc : Thread nD τ).loc main_arg1) : S512.Idx → Elt F .i32) (ix1 r) := by
  have e : (V m c main_v0 : S512x1.Idx → Elt F .i32)
      = shapeCast S512x1 (m ((c.tc : Thread nD τ).loc main_arg1)) shapeCasts_S512_S512x1 := by
    show StableHlo.after hostOps0 (fun b => m (c, b)) (Proc.devRef .tc main_v0) = _
    after_results; rfl
  rw [e]
  refine shapeCast_apply _ _ _ _ ?_
  have a1 : ((S512 : Shape).rowMajor (ix1 r)).val = r.val := Shape.rowMajor_val_one (d := ![512]) (ix1 r)
  have a2 : ((S512x1 : Shape).rowMajor (ix2 r (0 : Fin 1))).val = r.val * 1 + 0 :=
    Shape.rowMajor_val_two (d := ![512, 1]) (ix2 r (0 : Fin 1))
  exact a1.trans (by rw [a2]; omega)

/-- The target word of row `p` of point `t`. -/
theorem tgB_apply (c : Dev nD) (t : Fin cfg0.N) (p : Fin 256) :
    (tgB m c t (ix2 p (0 : Fin 1)) : BitVec 32)
      = (m ((c.tc : Thread nD τ).loc main_arg1) : S512.Idx → BitVec 32) (ix1 (rowIx t p)) := by
  obtain ⟨h0, h1⟩ := index_tg t
  rw [← column_apply m c (rowIx t p)]
  unfold tgB iblk
  rw [View.read_apply]
  show V m c main_v0 _ = V m c main_v0 _
  -- the block's entry (p, 0) sits at (block index · block size + coordinate) on each axis
  congr 1
  funext a
  apply Fin.ext
  match a with
  | ⟨0, _⟩ => show win0_0.index t 0 * 256 + 1 * p.val = 256 * (t.val / 17) + p.val; rw [h0]; omega
  | ⟨1, _⟩ => show win0_0.index t 1 * 1 + 1 * 0 = 0; rw [h1]

/-- How many coordinates of a block the transfer moves on an axis: all of them if the block ends inside the
    array, else those up to the array's end. -/
theorem extent_of (ix k d : Nat) :
    (Pipeline.Clip.of ix k d).extent k = if (ix + 1) * k ≤ d then k else d - ix * k := by
  unfold Pipeline.Clip.of; split <;> rfl

/-- The block index of the score window is the grid point's pair of coordinates. -/
theorem transform_x (i : grid0.Coords) : cc0_transform_1 i 0 = (i 0).val ∧ cc0_transform_1 i 1 = (i 1).val := by
  have h0 : (i 0).val < 2 := (i 0).isLt
  have h1 : (i 1).val < 17 := (i 1).isLt
  constructor
  · show (BitVec.ofNat 32 (i 0).val).toNat = (i 0).val
    rw [BitVec.toNat_ofNat]; omega
  · show (BitVec.ofNat 32 (i 1).val).toNat = (i 1).val
    rw [BitVec.toNat_ofNat]; omega

/-- A lane whose column lies inside the array is one the transfer moves: the two row tiles tile the 512 rows,
    so no row is cut, and on the columns a block keeps the lanes up to the array's last column. -/
theorem lane_moved (i : grid0.Coords) (p : Fin 256) (q : Fin 6144) (h : 6144 * (i 1).val + q.val < 100000) :
    win0_1.moved i (ix2 p q) = true := by
  have h0 : (i 0).val < 2 := (i 0).isLt
  have hp := p.isLt
  have hq := q.isLt
  obtain ⟨e0, e1⟩ := transform_x i
  rw [Pipeline.Window.moved_iff]
  intro a
  match a with
  | ⟨0, _⟩ =>
    show p.val < (Pipeline.Clip.of (cc0_transform_1 i 0) 256 512).extent 256
    rw [extent_of, e0]; split <;> omega
  | ⟨1, _⟩ =>
    show q.val < (Pipeline.Clip.of (cc0_transform_1 i 1) 6144 100000).extent 6144
    rw [extent_of, e1]; split <;> omega

/-- The score at row `p`, lane `q` of point `t`, for a lane whose column lies inside the array. -/
theorem xB_apply (c : Dev nD) (t : Fin cfg0.N) (p : Fin 256) (q : Fin 6144)
    (h : 6144 * (t.val % 17) + q.val < 100000) :
    xB m c t (ix2 p q)
      = (m ((c.tc : Thread nD τ).loc main_arg0) : S512x100000.Idx → Elt F .f32)
          (ix2 (rowIx t p) (⟨6144 * (t.val % 17) + q.val, h⟩ : Fin 100000)) := by
  obtain ⟨h0, h1⟩ := index_x t
  have hm : win0_1.moved (grid0.coords t) (ix2 p q) = true :=
    lane_moved (grid0.coords t) p q (by rw [coords_col]; exact h)
  -- on a moved lane the filled block is the fetched part of the array, read through the cut block
  unfold xB Pipeline.Window.fill
  rw [dif_pos hm]
  unfold iblk
  rw [View.read_apply]
  show V m c main_arg0 _ = _
  rw [V_main_arg0]
  congr 1
  funext a
  apply Fin.ext
  match a with
  | ⟨0, _⟩ => show win0_1.index t 0 * 256 + 1 * p.val = 256 * (t.val / 17) + p.val; rw [h0]; omega
  | ⟨1, _⟩ => show win0_1.index t 1 * 6144 + 1 * q.val = 6144 * (t.val % 17) + q.val; rw [h1]; omega

/-- A bound on every target word bounds every word of every point's block. -/
theorem tgB_range (c : Dev nD)
    (hr : ∀ i : S512.Idx, ((m ((c.tc : Thread nD τ).loc main_arg1) : S512.Idx → BitVec 32) i).toNat < 100000)
    (t : Fin cfg0.N) (j : S256x1.Idx) : (tgB m c t j : BitVec 32).toNat < 100000 := by
  -- an index of a 256 x 1 block is (row, 0)
  have hj : j = ix2 (⟨(j 0).val, idx2_lt0 j⟩ : Fin 256) (0 : Fin 1) := by
    funext a
    match a with
    | ⟨0, _⟩ => rfl
    | ⟨1, _⟩ => exact Fin.ext (by have h1 := idx2_lt1 j; show (j 1).val = 0; omega)
  rw [hj, tgB_apply]
  exact hr _

end Cert.Kernel.Body

end
-- ==== Proof.KIContents.lean ====
/-
  What the kernel's three scratch columns hold after each grid point, as pure functions of the argument arrays.

  The grid is 2 row tiles by 17 column tiles, swept row tile by row tile: point `t` is row tile `t / 17`,
  column tile `t % 17`.  Each point reads its 256 target indices (`tgB`) and its 256 x 6144 block of scores
  (`xB`: the part of the block inside the array, filled out past the array's last column with the zero word —
  the body masks those lanes, so the filler is never read into a result), and updates a running maximum, a
  running sum of shifted exponentials and a running pick of the target's score (`step`).  The three columns
  are reset at the first column tile of each row tile (`init`), and at the last one the two results are
  the running maximum plus the logarithm of the running sum (`lseAt`) and the running pick (`accAt`).
-/
import proofs.«427789_j12532714570064_2_alg».proof.Proof.Gen.KernelIdeal.Frame
import proofs.«427789_j12532714570064_2_alg».proof.Proof.Gen.KernelIdeal.Skeleton

noncomputable section

namespace Cert.KernelIdeal.Body

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ)

/-- A column of 256 floats: what one scratch buffer, or one result block, holds. -/
abbrev Col (F : FTy → Type) : Type := Vec F S256x1 .f32

/-- The filler for the lanes of a score block past the array's last column. -/
def zfill : S256x6144.Idx → Elt F .f32 := fun _ => Scalar.ofBits .f32 0#32

/-- The target indices of point `t`'s 256 rows. -/
def tgB (c : Dev nD) (t : Fin cfg0.N) : Vec F S256x1 .i32 := iblk m c 0 t

/-- The score block of point `t`, filled out with the zero word past the array's last column. -/
def xB (c : Dev nD) (t : Fin cfg0.N) : Vec F S256x6144 .f32 :=
  win0_1.fill (grid0.coords t) zfill (iblk m c 1 t)

/-- One point's update of (running maximum, running shifted sum, running pick) from the point's blocks. -/
def step (i : grid0.Coords) (x : Vec F S256x6144 .f32) (tg : Vec F S256x1 .i32) (s : Col F × Col F × Col F) :
    Col F × Col F × Col F :=
  (k0_pay3 (k0_pay13 i x tg) s.1,
   k0_pay2 (k0_pay12 i x tg) (k0_pay13 i x tg) s.1 s.1 s.2.1,
   k0_pay4 (k0_pay9 x) (k0_pay11 i tg) s.2.2)

/-- The reset at a row tile's first column tile. -/
def init : Col F × Col F × Col F := (k0_pay6, k0_pay7, k0_pay8)

/-- The three columns after point `n`. -/
def scAt (c : Dev nD) : (n : ℕ) → n < cfg0.N → Col F × Col F × Col F
  | 0, h => step (grid0.coords ⟨0, h⟩) (xB m c ⟨0, h⟩) (tgB m c ⟨0, h⟩) init
  | n + 1, h => step (grid0.coords ⟨n + 1, h⟩) (xB m c ⟨n + 1, h⟩) (tgB m c ⟨n + 1, h⟩)
      (if (n + 1) % 17 = 0 then init else scAt c n (Nat.lt_of_succ_lt h))

/-- What the columns hold when point `n`'s update starts: the reset at a first column tile, else what the
    point before left. -/
def scIn (c : Dev nD) (n : ℕ) (h : n < cfg0.N) : Col F × Col F × Col F :=
  if n % 17 = 0 then init else scAt m c (n - 1) (Nat.lt_of_le_of_lt (Nat.sub_le _ _) h)

theorem scAt_eq (c : Dev nD) (n : ℕ) (h : n < cfg0.N) :
    scAt m c n h = step (grid0.coords ⟨n, h⟩) (xB m c ⟨n, h⟩) (tgB m c ⟨n, h⟩) (scIn m c n h) := by
  cases n with
  | zero => rfl
  | succ n => rfl

/-- The first result's block after point `t`: the running maximum plus the logarithm of the running sum. -/
def lseAt (c : Dev nD) (t : Fin cfg0.N) : Col F := k0_pay5 (scAt m c t.val t.isLt).1 (scAt m c t.val t.isLt).2.1

/-- The second result's block after point `t`: the running pick. -/
def accAt (c : Dev nD) (t : Fin cfg0.N) : Col F := (scAt m c t.val t.isLt).2.2

end Cert.KernelIdeal.Body

end
-- ==== Proof.KIRuns.lean ====
import proofs.«427789_j12532714570064_2_alg».proof.Proof.KIContents
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! The body's two conditionals, as propositions over the grid coordinates. -/

/-- The column tile is the first: the three columns are reset before the update. -/
abbrev cond0 (i : grid0.Coords) : Prop :=
  (Scalar.cmpi .ne (Scalar.extui (Scalar.cmpi .eq (BitVec.ofNat 32 (i 1).val) 0#32)) 0#32) = 1#1
/-- The column tile is the last: the two results are stored after the update. -/
abbrev cond1 (i : grid0.Coords) : Prop := k0_cond2 i = 1#1

set_option maxHeartbeats 4000000 in
/-- A first column tile: whatever the three columns held, they end at the update of the reset; nothing else changes. -/
theorem runA (c : Dev nD) (i : grid0.Coords)
    (arg2 : Memref sig .tc .vmem S256x1 .i32) (harg2 : arg2.IsWhole) (arg3 : Memref sig .tc .vmem S256x6144 .f32) (harg3 : arg3.IsWhole)
    (arg4 : Memref sig .tc .vmem S256x1 .f32) (harg4 : arg4.IsWhole) (arg5 : Memref sig .tc .vmem S256x1 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x1 .f32) (harg8 : arg8.IsWhole)
    (hc0 : cond0 i) (hc1 : ¬cond1 i)
    (tg : Vec F S256x1 .i32) (x : Vec F S256x6144 .f32) (y4 y5 : Col F) (d : Col F × Col F × Col F)
    (E : Set ℕ) (K : PUnit → sProp 𝕄) :
    iprop(owns (c : Thread nD τ) arg2 fullShare tg ∗ owns (c : Thread nD τ) arg3 fullShare x
        ∗ owns (c : Thread nD τ) arg4 fullShare y4 ∗ owns (c : Thread nD τ) arg5 fullShare y5
        ∗ owns (c : Thread nD τ) arg6 fullShare d.1 ∗ owns (c : Thread nD τ) arg7 fullShare d.2.1 ∗ owns (c : Thread nD τ) arg8 fullShare d.2.2
        ∗ (iprop(owns (c : Thread nD τ) arg2 fullShare tg ∗ owns (c : Thread nD τ) arg3 fullShare x
            ∗ owns (c : Thread nD τ) arg4 fullShare y4 ∗ owns (c : Thread nD τ) arg5 fullShare y5
            ∗ owns (c : Thread nD τ) arg6 fullShare (step i x tg init).1 ∗ owns (c : Thread nD τ) arg7 fullShare (step i x tg init).2.1 ∗ owns (c : Thread nD τ) arg8 fullShare (step i x tg init).2.2) -∗ K ⟨⟩))
      ⊢ wp frame (wpE (defs₀ (F := F)) Variants.none c none) E (cc0__kernel i arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3
  obtain rfl := harg4.eq_unread hf4; obtain rfl := harg5.eq_unread hf5
  obtain rfl := harg6.eq_unread hf6; obtain rfl := harg7.eq_unread hf7; obtain rfl := harg8.eq_unread hf8
  have hz : (![0, 0] : Fin 2 → Nat) = fun _ => 0 := funext fun a => by fin_cases a <;> rfl
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  isplitl [H7]
  · iexists _; isplitr; swap; · iexact H7
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  · iexists _; isplitr; swap; · iexact H8
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl

set_option maxHeartbeats 4000000 in
/-- A middle column tile: the three columns go from `s` to their update; nothing else changes. -/
theorem runB (c : Dev nD) (i : grid0.Coords)
    (arg2 : Memref sig .tc .vmem S256x1 .i32) (harg2 : arg2.IsWhole) (arg3 : Memref sig .tc .vmem S256x6144 .f32) (harg3 : arg3.IsWhole)
    (arg4 : Memref sig .tc .vmem S256x1 .f32) (harg4 : arg4.IsWhole) (arg5 : Memref sig .tc .vmem S256x1 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x1 .f32) (harg8 : arg8.IsWhole)
    (hc0 : ¬cond0 i) (hc1 : ¬cond1 i)
    (tg : Vec F S256x1 .i32) (x : Vec F S256x6144 .f32) (y4 y5 : Col F) (s : Col F × Col F × Col F)
    (E : Set ℕ) (K : PUnit → sProp 𝕄) :
    iprop(owns (c : Thread nD τ) arg2 fullShare tg ∗ owns (c : Thread nD τ) arg3 fullShare x
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare tg ∗ owns (c : Thread nD τ) arg3 fullShare x
            ∗ owns (c : Thread nD τ) arg4 fullShare y4 ∗ owns (c : Thread nD τ) arg5 fullShare y5
            ∗ owns (c : Thread nD τ) arg6 fullShare (step i x tg s).1 ∗ owns (c : Thread nD τ) arg7 fullShare (step i x tg s).2.1 ∗ owns (c : Thread nD τ) arg8 fullShare (step i x tg s).2.2) -∗ K ⟨⟩))
      ⊢ wp frame (wpE (defs₀ (F := F)) Variants.none c none) E (cc0__kernel i arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3
  obtain rfl := harg4.eq_unread hf4; obtain rfl := harg5.eq_unread hf5
  obtain rfl := harg6.eq_unread hf6; obtain rfl := harg7.eq_unread hf7; obtain rfl := harg8.eq_unread hf8
  have hz : (![0, 0] : Fin 2 → Nat) = fun _ => 0 := funext fun a => by fin_cases a <;> rfl
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  isplitl [H7]
  · iexists _; isplitr; swap; · iexact H7
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  · iexists _; isplitr; swap; · iexact H8
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl

set_option maxHeartbeats 4000000 in
/-- A last column tile: the three columns go from `s` to their update, and the two result blocks end at the running maximum plus the logarithm of the running sum, and at the running pick. -/
theorem runC (c : Dev nD) (i : grid0.Coords)
    (arg2 : Memref sig .tc .vmem S256x1 .i32) (harg2 : arg2.IsWhole) (arg3 : Memref sig .tc .vmem S256x6144 .f32) (harg3 : arg3.IsWhole)
    (arg4 : Memref sig .tc .vmem S256x1 .f32) (harg4 : arg4.IsWhole) (arg5 : Memref sig .tc .vmem S256x1 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x1 .f32) (harg8 : arg8.IsWhole)
    (hc0 : ¬cond0 i) (hc1 : cond1 i)
    (tg : Vec F S256x1 .i32) (x : Vec F S256x6144 .f32) (y4 y5 : Col F) (s : Col F × Col F × Col F)
    (E : Set ℕ) (K : PUnit → sProp 𝕄) :
    iprop(owns (c : Thread nD τ) arg2 fullShare tg ∗ owns (c : Thread nD τ) arg3 fullShare x
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare tg ∗ owns (c : Thread nD τ) arg3 fullShare x
            ∗ owns (c : Thread nD τ) arg4 fullShare (k0_pay5 (step i x tg s).1 (step i x tg s).2.1) ∗ owns (c : Thread nD τ) arg5 fullShare (step i x tg s).2.2
            ∗ owns (c : Thread nD τ) arg6 fullShare (step i x tg s).1 ∗ owns (c : Thread nD τ) arg7 fullShare (step i x tg s).2.1 ∗ owns (c : Thread nD τ) arg8 fullShare (step i x tg s).2.2) -∗ K ⟨⟩))
      ⊢ wp frame (wpE (defs₀ (F := F)) Variants.none c none) E (cc0__kernel i arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3
  obtain rfl := harg4.eq_unread hf4; obtain rfl := harg5.eq_unread hf5
  obtain rfl := harg6.eq_unread hf6; obtain rfl := harg7.eq_unread hf7; obtain rfl := harg8.eq_unread hf8
  have hz : (![0, 0] : Fin 2 → Nat) = fun _ => 0 := funext fun a => by fin_cases a <;> rfl
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  isplitl [H5]
  · iexists _; isplitr; swap; · iexact H5
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  isplitl [H6]
  · iexists _; isplitr; swap; · iexact H6
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  isplitl [H7]
  · iexists _; isplitr; swap; · iexact H7
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl
  · iexists _; isplitr; swap; · iexact H8
    ipureintro
    try sl_unfold_words
    rw [View.read_writes_eq_canon _ _ _ (fun y => ⟨_, List.Mem.head _, View.mem_set_unit_zero hz inb_S256x1_S256x1_0_0 y⟩), View.canon_cons_unit_zero hz]
    try simp only [View.readAt_eq_ld, harg2.read_unread, harg3.read_unread, harg4.read_unread, harg5.read_unread, harg6.read_unread, harg7.read_unread, harg8.read_unread, View.ld_unit_zero (S := S256x1) hz, View.ld_unit_zero (S := S256x6144) hz, View.readCov_unit_zero (S := S256x1) _ hz, View.canon_cons_unit_zero (S := S256x1) hz]
    try rfl

end Cert.KernelIdeal.Body

end
-- ==== Proof.KIIndep.lean ====
/-
  The update of the three columns does not read the lanes past the array's last column.

  A score block is 256 x 6144; in the last column tile only the first 1696 lanes lie inside the array
  (100000 = 16 · 6144 + 1696) and the rest of the staging buffer holds words nothing names.  The update masks
  them: a lane's score is replaced by the fill constant unless its column is below 100000, and the target's
  pick keeps a lane only where the column equals the row's target word — which, for a target word below
  100000, is never a lane past the array's end.  So two blocks that agree on the lanes inside the array give
  the same update.
-/
import proofs.«427789_j12532714570064_2_alg».proof.Proof.KIContents
import Idealize.ShloMosaic.Lib.ValueIdx
import Idealize.ShloMosaic.Lib.Pipeline.Value
import Idealize.ShloMosaic.Lib.StableHlo.Predicate

noncomputable section

namespace Cert.KernelIdeal.Body

open Cert.KernelIdeal Cert.KernelIdeal.Gen
open Idealize.ShloMosaic Idealize.ShloMosaic.TcCoe Idealize.SL.Sem

variable {F : FTy → Type} [FloatOps F] [Named F]

/-! ## Which lanes of a block lie inside the array

The array is 512 x 100000 and a block 256 x 6144, at block index (row tile, column tile).  Two row tiles tile
the 512 rows exactly, so no block is cut on the rows; on the columns the tiles 0..15 end inside the array
(16 · 6144 = 98304 ≤ 100000) and tile 16 is cut to its first 100000 - 98304 = 1696 lanes. -/

/-- No block is cut on the row axis. -/
theorem xsize_rows (i : grid0.Coords) : win0_1.xsize i 0 = 256 := by
  have h0 : (i 0).val < 2 := (i 0).isLt
  show (Pipeline.Clip.of (cc0_transform_1 i 0) 256 512).extent 256 = 256
  have e : cc0_transform_1 i 0 = (i 0).val := by
    show (BitVec.ofNat 32 (i 0).val).toNat = (i 0).val
    rw [BitVec.toNat_ofNat]; omega
  rw [e]
  unfold Pipeline.Clip.of
  rw [if_pos (by omega)]

/-- On the column axis the tiles 0..15 are whole and tile 16 keeps its first 1696 lanes. -/
theorem xsize_cols (i : grid0.Coords) : win0_1.xsize i 1 = if (i 1).val ≤ 15 then 6144 else 1696 := by
  have h1 : (i 1).val < 17 := (i 1).isLt
  show (Pipeline.Clip.of (cc0_transform_1 i 1) 6144 100000).extent 6144 = _
  have e : cc0_transform_1 i 1 = (i 1).val := by
    show (BitVec.ofNat 32 (i 1).val).toNat = (i 1).val
    rw [BitVec.toNat_ofNat]; omega
  rw [e]
  unfold Pipeline.Clip.of
  split
  · next h => rw [if_pos (by omega)]
  · next h =>
    have h16 : (i 1).val = 16 := by omega
    rw [if_neg (by omega), h16]

/-- A lane of the block is one the transfer moves exactly when its column is a column of the array. -/
theorem moved_iff_col (i : grid0.Coords) (j : S256x6144.Idx) :
    win0_1.moved i j = true ↔ 6144 * (i 1).val + (j 1).val < 100000 := by
  rw [Pipeline.Window.moved_iff]
  have h1 : (i 1).val < 17 := (i 1).isLt
  have hj0 : (j 0).val < 256 := (j 0).isLt
  have hj1 : (j 1).val < 6144 := (j 1).isLt
  constructor
  · intro h
    have h' := h 1
    rw [xsize_cols] at h'
    split at h' <;> omega
  · intro h a
    match a with
    | 0 => rw [xsize_rows]; exact hj0
    | 1 => rw [xsize_cols]; split <;> omega

/-- On a lane the transfer moves, the filled block holds the fetched word whatever the filler. -/
theorem fill_lane (i : grid0.Coords) (d d' : S256x6144.Idx → Elt F .f32) (g : (win0_1.xblock i).Idx → Elt F .f32)
    (j : S256x6144.Idx) (hm : win0_1.moved i j = true) : win0_1.fill i d g j = win0_1.fill i d' g j := by
  unfold Pipeline.Window.fill; rw [dif_pos hm, dif_pos hm]

/-! ## The column word of a lane, and the two masks read at a lane -/

/-- A lane's column word is its column in the array: 6144 · (column tile) + (lane), which does not wrap. -/
theorem pay10_apply (i : grid0.Coords) (j : S256x6144.Idx) :
    k0_pay10 i j = BitVec.ofNat 32 (6144 * (i 1).val + (j 1).val) := by
  show IntOp.addi (Scalar.muli (BitVec.ofNat 32 (i 1).val) 6144#32) (iota .tc S256x6144 32 [1] iota_S256x6144_d1_w32 j) = _
  rw [iota_single_apply]
  apply BitVec.eq_of_toNat_eq
  simp only [IntOp.addi, Scalar.muli, IntOp.muli, BitVec.toNat_add, BitVec.toNat_mul, BitVec.toNat_ofNat]
  omega

/-- The "column below 100000" mask is set at a lane exactly when the lane's column is below 100000. -/
theorem pay10_slt_iff (i : grid0.Coords) (j : S256x6144.Idx) :
    IntOp.cmpi .slt (k0_pay10 i j) 100000#32 = 1#1 ↔ 6144 * (i 1).val + (j 1).val < 100000 := by
  have h1 : (i 1).val < 17 := (i 1).isLt
  have hj1 : (j 1).val < 6144 := (j 1).isLt
  rw [pay10_apply]
  unfold IntOp.cmpi
  exact StableHlo.Predicate.slt_ofNat_iff _ 100000 (by omega) (by omega)

/-- Where the "target column" mask is set, the lane's column is the row's target word. -/
theorem pay11_col (i : grid0.Coords) (tg : Vec F S256x1 .i32) (j : S256x6144.Idx) (h : k0_pay11 i tg j = 1#1) :
    6144 * (i 1).val + (j 1).val = (tg (ValueIdx.ix2 (j 0) 0) : BitVec 32).toNat := by
  have h1 : (i 1).val < 17 := (i 1).isLt
  have hj1 : (j 1).val < 6144 := (j 1).isLt
  have e : k0_pay11 i tg j = IntOp.cmpi .eq (k0_pay10 i j)
      (broadcastTo S256x6144 (shapeCast S256x1 tg shapeCasts_S256x1_S256x1) broadcasts_S256x1_S256x6144 j) := rfl
  rw [e, shapeCast_self, broadcastTo_apply tg broadcasts_S256x1_S256x6144 j (ValueIdx.ix2 (j 0) 0) (by
    intro a
    match a with
    | 0 => rfl
    | 1 => rfl), StableHlo.Predicate.cmpi_eq_iff, pay10_apply] at h
  rw [← h, BitVec.toNat_ofNat]
  omega

/-! ## The payloads read a block lane by lane

Every operation between the block and the two selects acts lane by lane, so the value at a lane is a function of the
block's word at that lane alone: it is unchanged when the block is replaced by the constant block of that word. -/

theorem pay9_lane (x y : Vec F S256x6144 .f32) (j : S256x6144.Idx) (h : x j = y j) : k0_pay9 x j = k0_pay9 y j := by
  have e : ∀ z : Vec F S256x6144 .f32, k0_pay9 z j = k0_pay9 (fun _ => z j) j := fun _ => rfl
  rw [e x, e y, h]

theorem pay12_lane (i : grid0.Coords) (tg : Vec F S256x1 .i32) (x y : Vec F S256x6144 .f32) (j : S256x6144.Idx)
    (h : x j = y j) : k0_pay12 i x tg j = k0_pay12 i y tg j := by
  have e : ∀ z : Vec F S256x6144 .f32, k0_pay12 i z tg j = k0_pay12 i (fun _ => z j) tg j := fun _ => rfl
  rw [e x, e y, h]

/-- Where the column is not below 100000 the masked score is the fill constant, whatever the block. -/
theorem pay12_masked (i : grid0.Coords) (tg : Vec F S256x1 .i32) (x y : Vec F S256x6144 .f32) (j : S256x6144.Idx)
    (hc : ¬IntOp.cmpi .slt (k0_pay10 i j) 100000#32 = 1#1) : k0_pay12 i x tg j = k0_pay12 i y tg j := by
  have hz := ValueIdx.eq_zero_of_ne_one hc
  show Scalar.select (IntOp.cmpi .slt (k0_pay10 i j) 100000#32) _ _ = Scalar.select (IntOp.cmpi .slt (k0_pay10 i j) 100000#32) _ _
  rw [hz, ValueIdx.select_zero, ValueIdx.select_zero]

/-! ## The two facts the update needs -/

/-- The masked scores do not depend on the filler. -/
theorem pay12_fill_indep (i : grid0.Coords) (d d' : S256x6144.Idx → Elt F .f32) (g : (win0_1.xblock i).Idx → Elt F .f32)
    (tg : Vec F S256x1 .i32) : k0_pay12 i (win0_1.fill i d g) tg = k0_pay12 i (win0_1.fill i d' g) tg := by
  funext j
  by_cases hm : win0_1.moved i j = true
  · exact pay12_lane i tg _ _ j (fill_lane i d d' g j hm)
  · exact pay12_masked i tg _ _ j fun h => hm ((moved_iff_col i j).mpr ((pay10_slt_iff i j).mp h))

/-- The target's pick does not depend on the filler: a lane is kept only where its column is the row's target word,
    which is a column of the array. -/
theorem pick_fill_indep (i : grid0.Coords) (d d' : S256x6144.Idx → Elt F .f32) (g : (win0_1.xblock i).Idx → Elt F .f32)
    (tg : Vec F S256x1 .i32) (hT : ∀ j : S256x1.Idx, (tg j : BitVec 32).toNat < 100000) (c z : F .f32) :
    select (k0_pay11 i tg) (mulf (broadcast S256x6144 c) (k0_pay9 (win0_1.fill i d g))) (broadcast S256x6144 z)
      = select (k0_pay11 i tg) (mulf (broadcast S256x6144 c) (k0_pay9 (win0_1.fill i d' g))) (broadcast S256x6144 z) := by
  funext j
  by_cases hc : k0_pay11 i tg j = 1#1
  · have hm : win0_1.moved i j = true := (moved_iff_col i j).mpr (by rw [pay11_col i tg j hc]; exact hT _)
    have h9 := pay9_lane _ _ j (fill_lane i d d' g j hm)
    show Scalar.select (k0_pay11 i tg j) (FloatOps.mulf c (k0_pay9 (win0_1.fill i d g) j)) z
      = Scalar.select (k0_pay11 i tg j) (FloatOps.mulf c (k0_pay9 (win0_1.fill i d' g) j)) z
    rw [h9]
  · have hz := ValueIdx.eq_zero_of_ne_one hc
    show Scalar.select (k0_pay11 i tg j) _ _ = Scalar.select (k0_pay11 i tg j) _ _
    rw [hz, ValueIdx.select_zero, ValueIdx.select_zero]

/-- Filling a score block out with `d` or with `d'` past the array's last column gives the same update, when
    every target word of the point is below 100000. -/
theorem step_fill_indep (i : grid0.Coords) (d d' : S256x6144.Idx → Elt F .f32)
    (g : (win0_1.xblock i).Idx → Elt F .f32) (tg : Vec F S256x1 .i32)
    (hT : ∀ j : S256x1.Idx, (tg j : BitVec 32).toNat < 100000) (s : Col F × Col F × Col F) :
    step i (win0_1.fill i d g) tg s = step i (win0_1.fill i d' g) tg s := by
  have A := pay12_fill_indep i d d' g tg
  have h13 : k0_pay13 i (win0_1.fill i d g) tg = k0_pay13 i (win0_1.fill i d' g) tg := by
    unfold k0_pay13; rw [A]
  have h4 : k0_pay4 (k0_pay9 (win0_1.fill i d g)) (k0_pay11 i tg) s.2.2
      = k0_pay4 (k0_pay9 (win0_1.fill i d' g)) (k0_pay11 i tg) s.2.2 := by
    unfold k0_pay4
    dsimp only
    rw [pick_fill_indep i d d' g tg hT]
  unfold step
  rw [A, h13, h4]

end Cert.KernelIdeal.Body

end
-- ==== Proof.KIBody.lean ====
import proofs.«427789_j12532714570064_2_alg».proof.Proof.KIRuns
import proofs.«427789_j12532714570064_2_alg».proof.Proof.KIIndep
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which case a point is in, and where the two results are idle -/

/-- The first conditional holds at the first column tile of each row tile. -/
theorem hcond0 : ∀ t : Fin cfg0.N, cond0 (grid0.coords t) ↔ t.val % 17 = 0 :=
  (by decide +kernel : ∀ t : Fin grid0.N, cond0 (grid0.coords t) ↔ t.val % 17 = 0)
/-- The second conditional holds at the last column tile of each row tile. -/
theorem hcond1 : ∀ t : Fin cfg0.N, cond1 (grid0.coords t) ↔ t.val % 17 = 16 :=
  (by decide +kernel : ∀ t : Fin grid0.N, cond1 (grid0.coords t) ↔ t.val % 17 = 16)

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬cond1 (grid0.coords t) → cfg0.idle 2 (grid0.coords t) = true := by decide +kernel
theorem idle3 : ∀ t : Fin cfg0.N, ¬cond1 (grid0.coords t) → cfg0.idle 3 (grid0.coords t) = true := by decide +kernel
theorem noFlush2 : ∀ t : Fin cfg0.N, ¬cond1 (grid0.coords t) → (cfg0.win 2).flush t = false := by decide +kernel
theorem noFlush3 : ∀ t : Fin cfg0.N, ¬cond1 (grid0.coords t) → (cfg0.win 3).flush t = false := by decide +kernel
theorem live2 : ∀ t : Fin cfg0.N, cond1 (grid0.coords t) → cfg0.idle 2 (grid0.coords t) = false := by decide +kernel
theorem live3 : ∀ t : Fin cfg0.N, cond1 (grid0.coords t) → cfg0.idle 3 (grid0.coords t) = false := by decide +kernel

/-! ## The memrefs the body is called with -/

abbrev ms0 (t : Fin cfg0.N) : Memref sig .tc .vmem S256x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x6144 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1 .f32 := win0_3.stage (cfg0.slots t 3)
abbrev hs3 (t : Fin cfg0.N) : (ms3 t).IsWhole := hstage0_3 ((cfg0.slots t 3).cast nbuf0_3)
/-- The three scratch columns: the running maximum, the running sum, the running pick. -/
abbrev scM0 : Memref sig .tc .vmem S256x1 .f32 := Memref.whole cc0_scratch0
abbrev scM1 : Memref sig .tc .vmem S256x1 .f32 := Memref.whole cc0_scratch1
abbrev scM2 : Memref sig .tc .vmem S256x1 .f32 := Memref.whole cc0_scratch2

/-- What the launch hands the region: the three scratch columns at anything, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- The region's invariant before position `n`: before the first point what the launch hands over; after
    point `n` the three columns at their contents there. -/
def PhiS (c : Dev nD) : (n : ℕ) → n ≤ cfg0.N → sProp 𝕄
  | 0, _ => Pipeline.ΦA spec0 c
  | n + 1, hn => iprop(iprop(owns (c : Thread nD τ) scM0 fullShare (scAt m c n hn).1
      ∗ owns (c : Thread nD τ) scM1 fullShare (scAt m c n hn).2.1
      ∗ owns (c : Thread nD τ) scM2 fullShare (scAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (scAt m c n hn).1
      ∗ owns (c : Thread nD τ) scM1 fullShare (scAt m c n hn).2.1
      ∗ owns (c : Thread nD τ) scM2 fullShare (scAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0 fullShare (scAt m c (n - 1) (by omega)).1
      ∗ owns (c : Thread nD τ) scM1 fullShare (scAt m c (n - 1) (by omega)).2.1
      ∗ owns (c : Thread nD τ) scM2 fullShare (scAt m c (n - 1) (by omega)).2.2) ∗ (∃ r, prngReg c r)) := by
  cases n with
  | zero => exact absurd rfl hz
  | succ n => rfl

/-! ## The pipeline's proof data -/

/-- The arrays as the region finds them; after the body at point `t` the targets' buffer at its block, the
    scores' at its block filled out with the zero word, the two results' at `lseAt` and `accAt`; the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => xB m c t
    | ⟨2, _⟩ => lseAt m c t
    | ⟨3, _⟩ => accAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = xB m c t := by dsimp only [dats]
theorem after2 (c : Dev nD) (t : Fin cfg0.N) : (dats m 0 c).after 2 t = lseAt m c t := by dsimp only [dats]
theorem after3 (c : Dev nD) (t : Fin cfg0.N) : (dats m 0 c).after 3 t = accAt m c t := by dsimp only [dats]

/-- The targets' buffer holds the point's block, fetched there or not. -/
theorem before0 (c : Dev nD) (t : Fin cfg0.N) (d) : (dats m 0 c).before 0 t d = iblk m c 0 t :=
  before0_0_of m (dats m 0 c) (A_eq m c 0) (after0 m c) t d

/-- The scores' buffer is fetched at every point: the block on the lanes inside the array, `d` elsewhere. -/
theorem before1 (c : Dev nD) (t : Fin cfg0.N) (d) :
    (dats m 0 c).before 1 t d = win0_1.fill (grid0.coords t) d (iblk m c 1 t) := by
  unfold Dat.before; rw [if_pos (fetch0_1 t)]; rfl

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

theorem leaves0 (c : Dev nD) (t : Fin cfg0.N) :
    (dats m 0 c).leaves 0 t = owns (c : Thread nD τ) (ms0 t) fullShare (iblk m c 0 t) := by
  unfold Dat.leaves; rw [live0 t]; rfl

theorem leaves1 (c : Dev nD) (t : Fin cfg0.N) :
    (dats m 0 c).leaves 1 t
      = iprop(∃ d, owns (c : Thread nD τ) (ms1 t) fullShare (win0_1.fill (grid0.coords t) d (iblk m c 1 t))) := by
  unfold Dat.leaves; rw [live1 t]
  show iprop(∃ d, owns (c : Thread nD τ) (ms1 t) fullShare
    (win0_1.fill (grid0.coords t) d (win0_1.cut (grid0.coords t) (win0_1.fill (grid0.coords t) zfill (iblk m c 1 t))))) = _
  simp only [Window.cut_fill]

theorem leaves2_live (c : Dev nD) (t : Fin cfg0.N) (h : cond1 (grid0.coords t)) :
    (dats m 0 c).leaves 2 t = owns (c : Thread nD τ) (ms2 t) fullShare (lseAt m c t) := by
  unfold Dat.leaves; rw [live2 t h]; rfl
theorem leaves3_live (c : Dev nD) (t : Fin cfg0.N) (h : cond1 (grid0.coords t)) :
    (dats m 0 c).leaves 3 t = owns (c : Thread nD τ) (ms3 t) fullShare (accAt m c t) := by
  unfold Dat.leaves; rw [live3 t h]; rfl

set_option maxHeartbeats 4000000 in
/-- The body at any point.  The case is decided by the point's number; the scores' buffer arrives filled out
    past the array's end with words nothing names, which the update does not read (`step_fill_indep`), so the
    three columns end at their named contents; the two results' buffers are handed back untouched except at a
    last column tile, where they end at the results' blocks. -/
theorem sound_body (hT : ∀ (c : Dev nD) (t : Fin cfg0.N) (j : S256x1.Idx), (tgB m c t j : BitVec 32).toNat < 100000)
    (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 34 := lt_of_lt_of_eq t.isLt N_0
  by_cases h0 : t.val % 17 = 0
  · have hc0 : cond0 (grid0.coords t) := (hcond0 t).mpr h0
    have hc1 : ¬cond1 (grid0.coords t) := fun h => by have := (hcond1 t).mp h; omega
    rw [Dat.leaves_idle (dats m 0 c) 2 t (idle2 t hc1) (noFlush2 t hc1),
      Dat.leaves_idle (dats m 0 c) 3 t (idle3 t hc1) (noFlush3 t hc1)]
    rw [scAt_eq m c t.val t.isLt, show scIn m c t.val t.isLt = init from if_pos h0]
    by_cases hz : t.val = 0
    · rw [PhiS_castSucc m c t, PhiS_zero m c _ _ hz, PhiA_eq]
      iintro ⟨⟨⟨⟨%d6, HS0⟩, ⟨%d7, HS1⟩, ⟨%d8, HS2⟩⟩, Hg⟩, Ho, ⟨%d0, H0⟩, ⟨%d1, H1⟩, ⟨%d2, H2⟩, ⟨%d3, H3⟩⟩
      rw [show xB m c t = win0_1.fill (grid0.coords t) zfill (iblk m c 1 t) from rfl,
        step_fill_indep (grid0.coords t) zfill d1 (iblk m c 1 t) (tgB m c t) (hT c t)]
      iapply (runA c (grid0.coords t) (ms0 t) (hs0 t) (ms1 t) (hs1 t) (ms2 t) (hs2 t) (ms3 t) (hs3 t) scM0 (Memref.isWhole_whole _) scM1 (Memref.isWhole_whole _) scM2 (Memref.isWhole_whole _) hc0 hc1 (tgB m c t) (win0_1.fill (grid0.coords t) d1 (iblk m c 1 t)) _ _ (d6, d7, d8) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexists _; iexact H1
      isplitl [H2]; · iexists _; iexact H2
      iexists _; iexact H3
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      rw [show xB m c t = win0_1.fill (grid0.coords t) zfill (iblk m c 1 t) from rfl,
        step_fill_indep (grid0.coords t) zfill d1 (iblk m c 1 t) (tgB m c t) (hT c t)]
      iapply (runA c (grid0.coords t) (ms0 t) (hs0 t) (ms1 t) (hs1 t) (ms2 t) (hs2 t) (ms3 t) (hs3 t) scM0 (Memref.isWhole_whole _) scM1 (Memref.isWhole_whole _) scM2 (Memref.isWhole_whole _) hc0 hc1 (tgB m c t) (win0_1.fill (grid0.coords t) d1 (iblk m c 1 t)) _ _ (scAt m c (t.val - 1) (by omega)) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexists _; iexact H1
      isplitl [H2]; · iexists _; iexact H2
      iexists _; iexact H3
  · have hc0 : ¬cond0 (grid0.coords t) := fun h => h0 ((hcond0 t).mp h)
    have hz : t.val ≠ 0 := fun h => h0 (by rw [h])
    by_cases h1 : t.val % 17 = 16
    · have hc1 : cond1 (grid0.coords t) := (hcond1 t).mpr h1
      rw [leaves2_live m c t hc1, leaves3_live m c t hc1]
      unfold lseAt accAt
      rw [scAt_eq m c t.val t.isLt, show scIn m c t.val t.isLt = scAt m c (t.val - 1) (Nat.lt_of_le_of_lt (Nat.sub_le _ _) t.isLt) from if_neg h0]
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      rw [show xB m c t = win0_1.fill (grid0.coords t) zfill (iblk m c 1 t) from rfl,
        step_fill_indep (grid0.coords t) zfill d1 (iblk m c 1 t) (tgB m c t) (hT c t)]
      iapply (runC c (grid0.coords t) (ms0 t) (hs0 t) (ms1 t) (hs1 t) (ms2 t) (hs2 t) (ms3 t) (hs3 t) scM0 (Memref.isWhole_whole _) scM1 (Memref.isWhole_whole _) scM2 (Memref.isWhole_whole _) hc0 hc1 (tgB m c t) (win0_1.fill (grid0.coords t) d1 (iblk m c 1 t)) _ _ (scAt m c (t.val - 1) (by omega)) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexists _; iexact H1
      isplitl [H2]; · iexact H2
      iexact H3
    · have hc1 : ¬cond1 (grid0.coords t) := fun h => h1 ((hcond1 t).mp h)
      rw [Dat.leaves_idle (dats m 0 c) 2 t (idle2 t hc1) (noFlush2 t hc1),
        Dat.leaves_idle (dats m 0 c) 3 t (idle3 t hc1) (noFlush3 t hc1)]
      rw [scAt_eq m c t.val t.isLt, show scIn m c t.val t.isLt = scAt m c (t.val - 1) (Nat.lt_of_le_of_lt (Nat.sub_le _ _) t.isLt) from if_neg h0]
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      rw [show xB m c t = win0_1.fill (grid0.coords t) zfill (iblk m c 1 t) from rfl,
        step_fill_indep (grid0.coords t) zfill d1 (iblk m c 1 t) (tgB m c t) (hT c t)]
      iapply (runB c (grid0.coords t) (ms0 t) (hs0 t) (ms1 t) (hs1 t) (ms2 t) (hs2 t) (ms3 t) (hs3 t) scM0 (Memref.isWhole_whole _) scM1 (Memref.isWhole_whole _) scM2 (Memref.isWhole_whole _) hc0 hc1 (tgB m c t) (win0_1.fill (grid0.coords t) d1 (iblk m c 1 t)) _ _ (scAt m c (t.val - 1) (by omega)) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexists _; iexact H1
      isplitl [H2]; · iexists _; iexact H2
      iexists _; iexact H3

/-- The library's body obligation, at every point. -/
theorem body_obligation (hT : ∀ (c : Dev nD) (t : Fin cfg0.N) (j : S256x1.Idx), (tgB m c t j : BitVec 32).toNat < 100000)
    (c : Dev nD) : BodyObligationLoose (dats (F := F) m 0 c) (defs₀ (F := F)) Variants.none () Set.univ := fun t => by
  rw [bigSep_W0, bigSep_W0]
  exact sound_body m hT c t

/-! ## The run and the frame -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back: the columns' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 34 := N_0; omega)

set_option backward.isDefEq.respectTransparency.types false in
/-- For any values whose target blocks name columns, from any memory with zero counters: every weakly fair
    execution of the program terminates, every array of the pipeline ends at what the proof data computes, and
    every other buffer as the host operations after the region leave it. -/
theorem run_main (hT : ∀ (c : Dev nD) (t : Fin cfg0.N) (j : S256x1.Idx), (tgB m c t j : BitVec 32).toNat < 100000) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hT c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its two argument arrays end unchanged. -/
theorem frame (hT : ∀ (c : Dev nD) (t : Fin cfg0.N) (j : S256x1.Idx), (tgB m c t j : BitVec 32).toNat < 100000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hT)

end Cert.KernelIdeal.Body

end
-- ==== Proof.KIBlocks.lean ====
/-
  A point's two input blocks, entry by entry, in terms of the argument arrays.

  Point `t` of the 2 x 17 grid is row tile `t / 17`, column tile `t % 17`.  Its block of target words is rows
  `256 (t / 17) + p` of the target array (which the program first reshapes from 512 words to a 512 x 1
  column — the same words), and its block of scores is those rows at columns `6144 (t % 17) + q`, for the
  lanes `q` whose column lies inside the array.  In particular a bound on every target word is a bound on
  every word of every point's block.
-/
import proofs.«427789_j12532714570064_2_alg».proof.Proof.KIContents
import Idealize.ShloMosaic.Lib.ValueIdx
import Idealize.ShloMosaic.Lib.Pipeline.Value
import Idealize.ShloMosaic.Lib.StableHlo.Run

noncomputable section

namespace Cert.KernelIdeal.Body

open Cert.KernelIdeal Cert.KernelIdeal.Gen
open Idealize.ShloMosaic Idealize.ShloMosaic.TcCoe Idealize.ShloMosaic.ValueIdx Idealize.SL.Sem

variable {F : FTy → Type} [FloatOps F] [Named F]
variable (m : (ℓ : Loc nD τ sig) → Buf (Elt F) ℓ)

/-- A point's column tile and row tile, from its number. -/
theorem coords_col : ∀ t : Fin cfg0.N, ((grid0.coords t) 1).val = t.val % 17 :=
  (by decide +kernel : ∀ t : Fin grid0.N, ((grid0.coords t) 1).val = t.val % 17)
theorem coords_row : ∀ t : Fin cfg0.N, ((grid0.coords t) 0).val = t.val / 17 :=
  (by decide +kernel : ∀ t : Fin grid0.N, ((grid0.coords t) 0).val = t.val / 17)

/-- Row `p` of point `t` is row `256 (t / 17) + p` of the arrays. -/
def rowIx (t : Fin cfg0.N) (p : Fin 256) : Fin 512 :=
  ⟨256 * (t.val / 17) + p.val, by have h1 : t.val < 34 := lt_of_lt_of_eq t.isLt N_0; have := p.isLt; omega⟩

/-- The block indices of the two input windows at point `t`: (row tile, 0) for the target words and
    (row tile, column tile) for the scores. -/
theorem index_tg : ∀ t : Fin cfg0.N, win0_0.index t (0 : Fin 2) = t.val / 17 ∧ win0_0.index t (1 : Fin 2) = 0 :=
  (by decide +kernel : ∀ t : Fin grid0.N, win0_0.index t (0 : Fin 2) = t.val / 17 ∧ win0_0.index t (1 : Fin 2) = 0)
theorem index_x : ∀ t : Fin cfg0.N, win0_1.index t (0 : Fin 2) = t.val / 17 ∧ win0_1.index t (1 : Fin 2) = t.val % 17 :=
  (by decide +kernel : ∀ t : Fin grid0.N, win0_1.index t (0 : Fin 2) = t.val / 17 ∧ win0_1.index t (1 : Fin 2) = t.val % 17)

/-- The 512 x 1 column the region finds holds the target array's words, row by row: the reshape keeps the
    row-major position, and position `r` of the 512 words is position `r · 1 + 0` of the column. -/
theorem column_apply (c : Dev nD) (r : Fin 512) :
    (V m c main_v0 : S512x1.Idx → Elt F .i32) (ix2 r (0 : Fin 1))
      = (m ((c.tc : Thread nD τ).loc main_arg1) : S512.Idx → Elt F .i32) (ix1 r) := by
  have e : (V m c main_v0 : S512x1.Idx → Elt F .i32)
      = shapeCast S512x1 (m ((c.tc : Thread nD τ).loc main_arg1)) shapeCasts_S512_S512x1 := by
    show StableHlo.after hostOps0 (fun b => m (c, b)) (Proc.devRef .tc main_v0) = _
    after_results; rfl
  rw [e]
  refine shapeCast_apply _ _ _ _ ?_
  have a1 : ((S512 : Shape).rowMajor (ix1 r)).val = r.val := Shape.rowMajor_val_one (d := ![512]) (ix1 r)
  have a2 : ((S512x1 : Shape).rowMajor (ix2 r (0 : Fin 1))).val = r.val * 1 + 0 :=
    Shape.rowMajor_val_two (d := ![512, 1]) (ix2 r (0 : Fin 1))
  exact a1.trans (by rw [a2]; omega)

/-- The target word of row `p` of point `t`. -/
theorem tgB_apply (c : Dev nD) (t : Fin cfg0.N) (p : Fin 256) :
    (tgB m c t (ix2 p (0 : Fin 1)) : BitVec 32)
      = (m ((c.tc : Thread nD τ).loc main_arg1) : S512.Idx → BitVec 32) (ix1 (rowIx t p)) := by
  obtain ⟨h0, h1⟩ := index_tg t
  rw [← column_apply m c (rowIx t p)]
  unfold tgB iblk
  rw [View.read_apply]
  show V m c main_v0 _ = V m c main_v0 _
  -- the block's entry (p, 0) sits at (block index · block size + coordinate) on each axis
  congr 1
  funext a
  apply Fin.ext
  match a with
  | ⟨0, _⟩ => show win0_0.index t 0 * 256 + 1 * p.val = 256 * (t.val / 17) + p.val; rw [h0]; omega
  | ⟨1, _⟩ => show win0_0.index t 1 * 1 + 1 * 0 = 0; rw [h1]

/-- How many coordinates of a block the transfer moves on an axis: all of them if the block ends inside the
    array, else those up to the array's end. -/
theorem extent_of (ix k d : Nat) :
    (Pipeline.Clip.of ix k d).extent k = if (ix + 1) * k ≤ d then k else d - ix * k := by
  unfold Pipeline.Clip.of; split <;> rfl

/-- The block index of the score window is the grid point's pair of coordinates. -/
theorem transform_x (i : grid0.Coords) : cc0_transform_1 i 0 = (i 0).val ∧ cc0_transform_1 i 1 = (i 1).val := by
  have h0 : (i 0).val < 2 := (i 0).isLt
  have h1 : (i 1).val < 17 := (i 1).isLt
  constructor
  · show (BitVec.ofNat 32 (i 0).val).toNat = (i 0).val
    rw [BitVec.toNat_ofNat]; omega
  · show (BitVec.ofNat 32 (i 1).val).toNat = (i 1).val
    rw [BitVec.toNat_ofNat]; omega

/-- A lane whose column lies inside the array is one the transfer moves: the two row tiles tile the 512 rows,
    so no row is cut, and on the columns a block keeps the lanes up to the array's last column. -/
theorem lane_moved (i : grid0.Coords) (p : Fin 256) (q : Fin 6144) (h : 6144 * (i 1).val + q.val < 100000) :
    win0_1.moved i (ix2 p q) = true := by
  have h0 : (i 0).val < 2 := (i 0).isLt
  have hp := p.isLt
  have hq := q.isLt
  obtain ⟨e0, e1⟩ := transform_x i
  rw [Pipeline.Window.moved_iff]
  intro a
  match a with
  | ⟨0, _⟩ =>
    show p.val < (Pipeline.Clip.of (cc0_transform_1 i 0) 256 512).extent 256
    rw [extent_of, e0]; split <;> omega
  | ⟨1, _⟩ =>
    show q.val < (Pipeline.Clip.of (cc0_transform_1 i 1) 6144 100000).extent 6144
    rw [extent_of, e1]; split <;> omega

/-- The score at row `p`, lane `q` of point `t`, for a lane whose column lies inside the array. -/
theorem xB_apply (c : Dev nD) (t : Fin cfg0.N) (p : Fin 256) (q : Fin 6144)
    (h : 6144 * (t.val % 17) + q.val < 100000) :
    xB m c t (ix2 p q)
      = (m ((c.tc : Thread nD τ).loc main_arg0) : S512x100000.Idx → Elt F .f32)
          (ix2 (rowIx t p) (⟨6144 * (t.val % 17) + q.val, h⟩ : Fin 100000)) := by
  obtain ⟨h0, h1⟩ := index_x t
  have hm : win0_1.moved (grid0.coords t) (ix2 p q) = true :=
    lane_moved (grid0.coords t) p q (by rw [coords_col]; exact h)
  -- on a moved lane the filled block is the fetched part of the array, read through the cut block
  unfold xB Pipeline.Window.fill
  rw [dif_pos hm]
  unfold iblk
  rw [View.read_apply]
  show V m c main_arg0 _ = _
  rw [V_main_arg0]
  congr 1
  funext a
  apply Fin.ext
  match a with
  | ⟨0, _⟩ => show win0_1.index t 0 * 256 + 1 * p.val = 256 * (t.val / 17) + p.val; rw [h0]; omega
  | ⟨1, _⟩ => show win0_1.index t 1 * 6144 + 1 * q.val = 6144 * (t.val % 17) + q.val; rw [h1]; omega

/-- A bound on every target word bounds every word of every point's block. -/
theorem tgB_range (c : Dev nD)
    (hr : ∀ i : S512.Idx, ((m ((c.tc : Thread nD τ).loc main_arg1) : S512.Idx → BitVec 32) i).toNat < 100000)
    (t : Fin cfg0.N) (j : S256x1.Idx) : (tgB m c t j : BitVec 32).toNat < 100000 := by
  -- an index of a 256 x 1 block is (row, 0)
  have hj : j = ix2 (⟨(j 0).val, idx2_lt0 j⟩ : Fin 256) (0 : Fin 1) := by
    funext a
    match a with
    | ⟨0, _⟩ => rfl
    | ⟨1, _⟩ => exact Fin.ext (by have h1 := idx2_lt1 j; show (j 1).val = 0; omega)
  rw [hj, tgB_apply]
  exact hr _

end Cert.KernelIdeal.Body

end
-- ==== Proof.ArcSpec.lean ====
/-
  The loss both programs compute, as functions of the two argument arrays at the extended reals.

  `x` is the 512 x 100000 array of cosines, `tg` the 512 target columns (32-bit words).  A cosine `v` in the
  target's column gets the additive angular margin `phi v` — `v cos m − sqrt (clip (1 − v²)) sin m` while
  `v` is above the threshold, else `v − mm` —, every score is scaled by 30 (`score`), and a row's logit is
  its target's score minus the row's log-sum-exp, taken the two-pass way: subtract the row maximum,
  exponentiate, sum from zero, take the logarithm (`logit`).  The loss is the mean over the 512 rows of
  minus the logit, written with the very operations both programs end with (`lossTail`), so that two
  programs that agree on every row's logit agree on the loss by congruence.
-/
import Idealize.ShloMosaic.PureOps
import Idealize.ShloMosaic.PureOps.Ideal
import Idealize.ShloMosaic.Lib.ValueIdx

noncomputable section

namespace ArcSpec

open Idealize.ShloMosaic Idealize.ShloMosaic.ValueIdx

abbrev S512x100000 : Shape := ⟨2, ![512, 100000]⟩
abbrev S512 : Shape := ⟨1, ![512]⟩
abbrev S_ : Shape := ⟨0, ![]⟩

/-- cos m, sin m, the threshold cos (π − m), sin (π − m) · m and the scale 30, as the floats both programs carry. -/
def cosM : EReal := Ideal.ofBits .f32 0x3F60A940#32
def sinM : EReal := Ideal.ofBits .f32 0x3EF57744#32
def thr : EReal := Ideal.ofBits .f32 0xBF60A940#32
def mm : EReal := Ideal.ofBits .f32 0x3E757744#32
def scl : EReal := Ideal.ofBits .f32 0x41F00000#32
def one : EReal := Ideal.ofBits .f32 0x3F800000#32
def zero : EReal := Ideal.ofBits .f32 0x00000000#32

/-- The margin applied to a cosine. -/
def phi (v : EReal) : EReal :=
  Scalar.select (Ideal.cmp .ogt v thr) (v * cosM - Ideal.sqrt (min one (max zero (one - v * v))) * sinM) (v - mm)

/-- The scaled score of the cosine `v` standing in column `col` of a row whose target word is `tgr`. -/
def score (tgr : BitVec 32) (col : ℕ) (v : EReal) : EReal :=
  scl * Scalar.select (IntOp.cmpi .eq (BitVec.ofNat 32 col) tgr) (phi v) v

/-- Row `r`'s scores. -/
def rowScore (x : S512x100000.Idx → EReal) (tg : S512.Idx → BitVec 32) (r : Fin 512) (c : Fin 100000) : EReal :=
  score (tg (ix1 r)) c.val (x (ix2 r c))

/-- Row `r`'s maximum, as the two-pass form takes it (a fold of `max` from `⊥`, then once more against `⊥`). -/
def rowMaxE (x : S512x100000.Idx → EReal) (tg : S512.Idx → BitVec 32) (r : Fin 512) : EReal :=
  max ⊥ ((Finset.univ : Finset (Fin 100000)).fold max ⊥ (rowScore x tg r))

/-- Row `r`'s score at its target column (`⊥` when the target word names no column). -/
def pick (x : S512x100000.Idx → EReal) (tg : S512.Idx → BitVec 32) (r : Fin 512) : EReal :=
  if h : (tg (ix1 r)).toNat < 100000 then rowScore x tg r ⟨(tg (ix1 r)).toNat, h⟩ else ⊥

/-- Row `r`'s logit: the target's score less the row's log-sum-exp, the two-pass way. -/
def logit (x : S512x100000.Idx → EReal) (tg : S512.Idx → BitVec 32) (r : Fin 512) : EReal :=
  (pick x tg r - rowMaxE x tg r)
    - Ideal.log (0 + ∑ c : Fin 100000, Ideal.exp (rowScore x tg r c - rowMaxE x tg r))

/-- From the 512 logits to the loss: minus one times each, summed from zero, over 512 — the host operations
    both programs end with, over any float family. -/
def lossTail {F : FTy → Type} [FloatOps F]
    (hb : S_.BroadcastsInDim S512 (![] : Fin 0 → Fin S512.rank)) (hr : S512.ReducesTo [0] S_) (h0 : 0 < S_.numel)
    (lg : FVec F S512 .f32) : FVec F S_ .f32 :=
  Host.divf (Host.reduceAdd (mulf (Host.negf (broadcastInDim S512 ![] hb (constant S_ .f32 0x3F800000#32))) lg)
    (constant S_ .f32 0x00000000#32) hr h0) (constant S_ .f32 0x44000000#32)

/-- The loss. -/
def loss (hb : S_.BroadcastsInDim S512 (![] : Fin 0 → Fin S512.rank)) (hr : S512.ReducesTo [0] S_) (h0 : 0 < S_.numel)
    (x : S512x100000.Idx → EReal) (tg : S512.Idx → BitVec 32) : FVec Ideal S_ .f32 :=
  lossTail (F := Ideal) hb hr h0 (fun i => logit x tg (i 0))

end ArcSpec

end
-- ==== Proof.LseMath.lean ====
/-
  A streaming log-sum-exp over column tiles against the two-pass one, for one row.

  A row of 100000 real scores `o` is swept in 17 tiles of 6144 lanes; the last tile overhangs the row by
  4448 lanes, which hold `⊥` (minus infinity) in the score tile `vTile` and `0` in the tile `wTile` that
  picks out the score at the target column `t`.  One step keeps a running maximum `m`, a running sum `l`
  of exponentials shifted by the running maximum (rescaled by `exp (m - m')` when the maximum moves), and a
  running pick `a`.  After the sweep, `a - (m + log l)` is the target's score minus the row's log-sum-exp,
  which is what the two-pass form — subtract the row maximum `M`, exponentiate, sum, take the logarithm —
  computes: `(o t - M) - log (0 + ∑ exp (o c - M))`.
-/
import Idealize.ShloMosaic.PureOps.Ideal
import Mathlib.Analysis.SpecialFunctions.Log.Basic
import Mathlib.Algebra.BigOperators.Fin
import Mathlib.Algebra.BigOperators.Intervals
import Mathlib.Data.Finset.Lattice.Fold
import Mathlib.Data.EReal.Operations

noncomputable section

namespace ArcLse

open Idealize.ShloMosaic

/-- Tile `j` of the row's scores: lane `q` holds column `6144 j + q` when that is a column, else `⊥`. -/
def vTile (o : Fin 100000 → ℝ) (j : Fin 17) (q : Fin 6144) : EReal :=
  if h : 6144 * j.val + q.val < 100000 then ((o ⟨6144 * j.val + q.val, h⟩ : ℝ) : EReal) else ⊥

/-- Tile `j` of the target pick: the target's score in the target's lane, zero elsewhere. -/
def wTile (o : Fin 100000 → ℝ) (t : Fin 100000) (j : Fin 17) (q : Fin 6144) : EReal :=
  if 6144 * j.val + q.val = t.val then ((o t : ℝ) : EReal) else 0

/-- One tile's update of the running maximum, the running shifted sum and the running pick. -/
def stepRow (v w : Fin 6144 → EReal) (s : EReal × EReal × EReal) : EReal × EReal × EReal :=
  (max s.1 ((Finset.univ : Finset (Fin 6144)).fold max ⊥ v),
   Ideal.exp (s.1 - max s.1 ((Finset.univ : Finset (Fin 6144)).fold max ⊥ v)) * s.2.1
     + ∑ q : Fin 6144, Ideal.exp (v q - max s.1 ((Finset.univ : Finset (Fin 6144)).fold max ⊥ v)),
   s.2.2 + ∑ q : Fin 6144, w q)

/-- The state after the first `n` tiles, from `(⊥, 0, 0)`. -/
def stRow (o : Fin 100000 → ℝ) (t : Fin 100000) : ℕ → EReal × EReal × EReal
  | 0 => (⊥, 0, 0)
  | n + 1 => if h : n < 17 then stepRow (vTile o ⟨n, h⟩) (wTile o t ⟨n, h⟩) (stRow o t n) else stRow o t n

/-- The row's maximum as the two-pass form takes it. -/
def rowMax (o : Fin 100000 → ℝ) : EReal :=
  max ⊥ ((Finset.univ : Finset (Fin 100000)).fold max ⊥ fun c => ((o c : ℝ) : EReal))

/-!
  The proof continues the row to a sequence on the naturals (`⊥` past the row's end, where the exponential
  of any shift is `0`), so that the state after `n` tiles is described by a maximum and two sums over the
  initial segment `range (6144 n)`; one tile appends `6144` further indices to that segment.  When the
  maximum moves from `M` to `M'` the old sum is rescaled termwise by
  `exp (M - M') * exp (x - M) = exp (x - M')`; while the old maximum is still `⊥` every old term is `0`.
-/

/-! ### The row as a sequence on the naturals -/

/-- The scores continued by `⊥` past the row's end. -/
def fN (o : Fin 100000 → ℝ) (k : ℕ) : EReal :=
  if h : k < 100000 then ((o ⟨k, h⟩ : ℝ) : EReal) else ⊥

/-- The target pick as a sequence: the target's score at the target's index, zero elsewhere. -/
def gN (o : Fin 100000 → ℝ) (t : Fin 100000) (k : ℕ) : EReal :=
  if k = t.val then ((o t : ℝ) : EReal) else 0

/-- The real exponentials of the scores shifted by `M`, continued by `0` past the row's end. -/
def eN (o : Fin 100000 → ℝ) (M : ℝ) (k : ℕ) : ℝ :=
  if h : k < 100000 then Real.exp (o ⟨k, h⟩ - M) else 0

theorem fN_of_lt (o : Fin 100000 → ℝ) {k : ℕ} (h : k < 100000) :
    fN o k = ((o ⟨k, h⟩ : ℝ) : EReal) := dif_pos h

theorem fN_of_not_lt (o : Fin 100000 → ℝ) {k : ℕ} (h : ¬ k < 100000) : fN o k = ⊥ := dif_neg h

theorem fN_lt_top (o : Fin 100000 → ℝ) (k : ℕ) : fN o k < ⊤ := by
  by_cases h : k < 100000
  · rw [fN_of_lt o h]; exact EReal.coe_lt_top _
  · rw [fN_of_not_lt o h]; exact bot_lt_top

/-- A shifted exponential of the continued row is a real: the real exponential in the row, `0` past it. -/
theorem exp_fN_sub_coe (o : Fin 100000 → ℝ) (k : ℕ) (M : ℝ) :
    Ideal.exp (fN o k - (M : EReal)) = ((eN o M k : ℝ) : EReal) := by
  by_cases h : k < 100000
  · rw [fN_of_lt o h, eN, dif_pos h, ← EReal.coe_sub, Ideal.exp_coe]
  · rw [fN_of_not_lt o h, eN, dif_neg h, EReal.bot_sub, Ideal.exp_bot, EReal.coe_zero]

/-- Moving the shift from `M` to `M'` multiplies every term by `exp (M - M')`. -/
theorem eN_rescale (o : Fin 100000 → ℝ) (M M' : ℝ) (k : ℕ) :
    Real.exp (M - M') * eN o M k = eN o M' k := by
  by_cases h : k < 100000
  · rw [eN, eN, dif_pos h, dif_pos h, ← Real.exp_add]; congr 1; ring
  · rw [eN, eN, dif_neg h, dif_neg h, mul_zero]

/-- The coercion of a finite sum of reals is the sum of the coercions. -/
theorem coe_sum (S : Finset ℕ) (f : ℕ → ℝ) :
    ((∑ k ∈ S, f k : ℝ) : EReal) = ∑ k ∈ S, ((f k : ℝ) : EReal) := by
  classical
  induction S using Finset.induction_on with
  | empty => simp
  | insert a s ha ih => rw [Finset.sum_insert ha, Finset.sum_insert ha, EReal.coe_add, ih]

/-- The maximum of the continued row over a set that meets the row is a real. -/
theorem sup_real (o : Fin 100000 → ℝ) (S : Finset ℕ) (k0 : ℕ) (hk0 : k0 ∈ S) (h : k0 < 100000) :
    ∃ M : ℝ, S.sup (fN o) = (M : EReal) := by
  have h1 : S.sup (fN o) ≠ ⊤ := ((Finset.sup_lt_iff bot_lt_top).2 fun k _ => fN_lt_top o k).ne
  have h2 : S.sup (fN o) ≠ ⊥ := by
    intro hb
    have hle := Finset.le_sup (f := fN o) hk0
    rw [hb, fN_of_lt o h, le_bot_iff] at hle
    exact EReal.coe_ne_bot _ hle
  exact ⟨_, (EReal.coe_toReal h1 h2).symm⟩

/-- Rescaling the sum shifted by the set's own maximum to a real shift `M'`: termwise when the maximum is
    a real; when it is `⊥` every term on either side is `0`. -/
theorem rescale (o : Fin 100000 → ℝ) (S : Finset ℕ) (M' : ℝ) :
    Ideal.exp (S.sup (fN o) - (M' : EReal)) * ∑ k ∈ S, Ideal.exp (fN o k - S.sup (fN o))
      = ∑ k ∈ S, Ideal.exp (fN o k - (M' : EReal)) := by
  have hlt : S.sup (fN o) < ⊤ := (Finset.sup_lt_iff bot_lt_top).2 fun k _ => fN_lt_top o k
  induction h : S.sup (fN o) using EReal.rec with
  | bot =>
    have hall : ∀ k ∈ S, fN o k = ⊥ := (Finset.sup_eq_bot_iff _ _).1 h
    rw [EReal.bot_sub, Ideal.exp_bot, zero_mul]
    symm
    apply Finset.sum_eq_zero
    intro k hk
    rw [hall k hk, EReal.bot_sub, Ideal.exp_bot]
  | coe M =>
    rw [← EReal.coe_sub, Ideal.exp_coe]
    simp only [exp_fN_sub_coe]
    rw [← coe_sum, ← coe_sum, ← EReal.coe_mul, Finset.mul_sum]
    congr 1
    exact Finset.sum_congr rfl fun k _ => eN_rescale o M M' k
  | top => rw [h] at hlt; exact absurd hlt (lt_irrefl _)

/-- The maximum over a segment lengthened by one tile. -/
theorem sup_range_add (o : Fin 100000 → ℝ) (a : ℕ) :
    (Finset.range (a + 6144)).sup (fN o)
      = max ((Finset.range a).sup (fN o))
          ((Finset.univ : Finset (Fin 6144)).sup fun q => fN o (a + q.val)) := by
  apply le_antisymm
  · apply Finset.sup_le
    intro k hk
    rw [Finset.mem_range] at hk
    by_cases hka : k < a
    · exact le_max_of_le_left (Finset.le_sup (f := fN o) (Finset.mem_range.2 hka))
    · have hq : k - a < 6144 := by omega
      have hk' : fN o k = (fun q : Fin 6144 => fN o (a + q.val)) ⟨k - a, hq⟩ := by
        show fN o k = fN o (a + (k - a))
        congr 1; omega
      rw [hk']
      exact le_max_of_le_right
        (Finset.le_sup (f := fun q : Fin 6144 => fN o (a + q.val)) (Finset.mem_univ _))
  · apply max_le
    · exact Finset.sup_mono (Finset.range_mono (Nat.le_add_right _ _))
    · apply Finset.sup_le
      intro q _
      have hq := q.isLt
      exact Finset.le_sup (f := fN o) (Finset.mem_range.2 (by omega))

/-! ### The state after `n` tiles -/

/-- The state that describes the initial segment `range a`: its maximum, its sum of exponentials shifted by
    that maximum, and its pick. -/
def Inv (o : Fin 100000 → ℝ) (t : Fin 100000) (a : ℕ) (s : EReal × EReal × EReal) : Prop :=
  s.1 = (Finset.range a).sup (fN o)
    ∧ s.2.1 = ∑ k ∈ Finset.range a, Ideal.exp (fN o k - s.1)
    ∧ s.2.2 = ∑ k ∈ Finset.range a, gN o t k

/-- One tile that starts inside the row carries the description from `range a` to `range (a + 6144)`. -/
theorem inv_step (o : Fin 100000 → ℝ) (t : Fin 100000) (a : ℕ) (ha : a < 100000)
    (s : EReal × EReal × EReal) (hs : Inv o t a s) :
    Inv o t (a + 6144)
      (stepRow (fun q : Fin 6144 => fN o (a + q.val)) (fun q : Fin 6144 => gN o t (a + q.val)) s) := by
  obtain ⟨h1, h2, h3⟩ := hs
  have hm : max s.1 ((Finset.univ : Finset (Fin 6144)).fold max ⊥ (fun q : Fin 6144 => fN o (a + q.val)))
      = (Finset.range (a + 6144)).sup (fN o) := by
    rw [h1, sup_range_add]; rfl
  obtain ⟨M', hM'⟩ := sup_real o (Finset.range (a + 6144)) a (Finset.mem_range.2 (by omega)) ha
  unfold Inv stepRow
  dsimp only
  refine ⟨hm, ?_, ?_⟩
  · rw [hm, hM', h2, h1, rescale, Finset.sum_range_add,
      Finset.sum_range (fun x => Ideal.exp (fN o (a + x) - (M' : EReal)))]
  · rw [h3, Finset.sum_range_add, Finset.sum_range (fun x => gN o t (a + x))]

theorem inv_stRow (o : Fin 100000 → ℝ) (t : Fin 100000) :
    ∀ n : ℕ, n ≤ 17 → Inv o t (6144 * n) (stRow o t n)
  | 0, _ => by simp [Inv, stRow]
  | n + 1, hn => by
    have hn' : n < 17 := by omega
    have ih := inv_stRow o t n (by omega)
    have hst : stRow o t (n + 1)
        = stepRow (vTile o ⟨n, hn'⟩) (wTile o t ⟨n, hn'⟩) (stRow o t n) := by
      rw [stRow, dif_pos hn']
    rw [hst, Nat.mul_succ]
    exact inv_step o t (6144 * n) (by omega) _ ih

/-! ### The two forms agree -/

/-- For real `a` and `m`, subtracting `m + y` is subtracting `m` and then `y`, whatever `y` is. -/
theorem coe_sub_coe_add (a m : ℝ) (y : EReal) :
    (a : EReal) - ((m : EReal) + y) = ((a : EReal) - (m : EReal)) - y := by
  induction y using EReal.rec with
  | bot => rw [EReal.add_bot, ← EReal.coe_sub, EReal.coe_sub_bot, EReal.coe_sub_bot]
  | coe r =>
    rw [← EReal.coe_add, ← EReal.coe_sub, ← EReal.coe_sub, ← EReal.coe_sub]
    congr 1; ring
  | top => rw [EReal.coe_add_top, EReal.sub_top, EReal.sub_top]

/-- The streaming form's result is the two-pass form's. -/
theorem online_eq (o : Fin 100000 → ℝ) (t : Fin 100000) :
    (stRow o t 17).2.2 - ((stRow o t 17).1 + Ideal.log (stRow o t 17).2.1)
      = (((o t : ℝ) : EReal) - rowMax o)
        - Ideal.log (0 + ∑ c : Fin 100000, Ideal.exp (((o c : ℝ) : EReal) - rowMax o)) := by
  obtain ⟨h1, h2, h3⟩ := inv_stRow o t 17 le_rfl
  -- the row's maximum is the maximum of the continued row over the 17 tiles
  have hR : rowMax o = (stRow o t 17).1 := by
    rw [h1]
    unfold rowMax
    rw [max_bot_left]
    show (Finset.univ : Finset (Fin 100000)).sup (fun c : Fin 100000 => ((o c : ℝ) : EReal)) = _
    apply le_antisymm
    · apply Finset.sup_le
      intro c _
      have hc := c.isLt
      have hfc : ((o c : ℝ) : EReal) = fN o c.val := (fN_of_lt o c.isLt).symm
      rw [hfc]
      exact Finset.le_sup (f := fN o) (Finset.mem_range.2 (by omega))
    · apply Finset.sup_le
      intro k _
      by_cases h : k < 100000
      · rw [fN_of_lt o h]
        exact Finset.le_sup (f := fun c : Fin 100000 => ((o c : ℝ) : EReal)) (Finset.mem_univ _)
      · rw [fN_of_not_lt o h]; exact bot_le
  -- the 4448 lanes past the row's end add nothing to the sum
  have hL : ∑ c : Fin 100000, Ideal.exp (((o c : ℝ) : EReal) - (stRow o t 17).1) = (stRow o t 17).2.1 := by
    rw [h2, show 6144 * 17 = 100000 + 4448 from rfl, Finset.sum_range_add,
      Finset.sum_eq_zero (s := Finset.range 4448), add_zero, Finset.sum_range]
    · exact Finset.sum_congr rfl fun c _ => by rw [fN_of_lt o c.isLt]
    · intro x _
      rw [fN_of_not_lt o (by omega), EReal.bot_sub, Ideal.exp_bot]
  have hA : (stRow o t 17).2.2 = ((o t : ℝ) : EReal) := by
    have ht := t.isLt
    rw [h3]
    unfold gN
    rw [Finset.sum_ite_eq', if_pos (Finset.mem_range.2 (by omega))]
  obtain ⟨M, hM⟩ := sup_real o (Finset.range (6144 * 17)) 0 (Finset.mem_range.2 (by norm_num)) (by norm_num)
  rw [hR, hL, zero_add, hA, h1, hM]
  exact coe_sub_coe_add (o t) M _

end ArcLse

end
-- ==== Proof.KIStepRow.lean ====
/-
  One point's update, read at one row at the extended reals.

  At row `p` of a point with column tile `j`, lane `q` stands for column `6144 j + q`.  Its masked score
  (`laneScore`) is the specification's score of the block's entry when that column is below 100000 and
  `⊥` otherwise (the fill constant is named minus infinity); its contribution to the pick (`lanePick`) is the
  scaled margin of the entry where the column is the row's target word, zero elsewhere.  The update of the
  row's (maximum, shifted sum, pick) is then the streaming step `ArcLse.stepRow` on those two lane vectors:
  the new maximum is the old against the lanes' maximum, the sum is rescaled by the exponential of the old
  maximum less the new and increased by the lanes' shifted exponentials, the pick is increased by the lanes'
  contributions.  The reset is (⊥, 0, 0), and the first result is the maximum plus the logarithm of the sum.
-/
import proofs.«427789_j12532714570064_2_alg».proof.Proof.KIContents
import proofs.«427789_j12532714570064_2_alg».proof.Proof.ArcSpec
import proofs.«427789_j12532714570064_2_alg».proof.Proof.LseMath
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem

/-- Lane `q` of row `p`: the entry's score when its column is a column of the array, else `⊥`. -/
def laneScore (i : grid0.Coords) (x : Vec Ideal S256x6144 .f32) (tg : Vec Ideal S256x1 .i32) (p : Fin 256) (q : Fin 6144) : EReal :=
  if 6144 * (i 1).val + q.val < 100000 then
    ArcSpec.score (tg (ix2 p (0 : Fin 1))) (6144 * (i 1).val + q.val) (x (ix2 p q))
  else ⊥

/-- Lane `q` of row `p`: the scaled margin of the entry when its column is the row's target word, else zero. -/
def lanePick (i : grid0.Coords) (x : Vec Ideal S256x6144 .f32) (tg : Vec Ideal S256x1 .i32) (p : Fin 256) (q : Fin 6144) : EReal :=
  Scalar.select (IntOp.cmpi .eq (BitVec.ofNat 32 (6144 * (i 1).val + q.val)) (tg (ix2 p (0 : Fin 1))))
    (ArcSpec.scl * ArcSpec.phi (x (ix2 p q))) 0

/-- A triple of columns read at row `p`. -/
def rowOf (s : Col Ideal × Col Ideal × Col Ideal) (p : Fin 256) : EReal × EReal × EReal :=
  (s.1 (ix2 p (0 : Fin 1)), s.2.1 (ix2 p (0 : Fin 1)), s.2.2 (ix2 p (0 : Fin 1)))

/-! ### Layout operations of a column, read at an index -/

section Layout
variable {α : Type}

/-- An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ### The lane reductions of a row -/

/-- The index of lane `q` over row `p`. -/
theorem lift_ix (p : Fin 256) (q : Fin 6144) : reduces_S256x6144_S256.lift (ix1 p) q = ix2 p q := by
  funext a
  match a with
  | ⟨0, _⟩ => rfl
  | ⟨1, _⟩ => rfl

/-- The lane sum at row `p` is the sum over the row's 6144 lanes. -/
theorem laneSum_apply (v : FVec Ideal S256x6144 .f32) (p : Fin 256) :
    multiReduction (F := Ideal) .add [1] S256 v 0x00000000#32 reduces_S256x6144_S256 (.inl rfl) rfl (ix1 p)
      = ∑ q : Fin 6144, v (ix2 p q) :=
  (Ideal.multiReduction_add_single v 0x00000000#32 reduces_S256x6144_S256 (.inl rfl) rfl (ix1 p)).trans
    (Finset.sum_congr rfl fun q _ => congrArg v (lift_ix p q))

/-- The word the lane maximum starts from is minus infinity. -/
theorem ofBits_neg_inf : Ideal.ofBits .f32 0xFF800000#32 = (⊥ : EReal) := by simp [Ideal.ofBits, Ideal.ieee]

/-- The lane maximum at row `p` is the fold of `max` from `⊥` over the row's 6144 lanes. -/
theorem laneMax_apply (v : FVec Ideal S256x6144 .f32) (p : Fin 256) :
    multiReduction (F := Ideal) .maximumf [1] S256 v 0xFF800000#32 reduces_S256x6144_S256 (.inl rfl) rfl (ix1 p)
      = (Finset.univ : Finset (Fin 6144)).fold max ⊥ (fun q => v (ix2 p q)) := by
  refine (Ideal.multiReduction_maximumf_single v 0xFF800000#32 reduces_S256x6144_S256 (.inl rfl) rfl (ix1 p)).trans ?_
  have hf : (v ∘ reduces_S256x6144_S256.lift (ix1 p)) = fun q : Fin 6144 => v (ix2 p q) :=
    funext fun q => congrArg v (lift_ix p q)
  exact congrArg₂ (fun b f => (Finset.univ : Finset (Fin 6144)).fold max b f) ofBits_neg_inf hf

/-! ### The constants -/

/-- The fill constant is named minus infinity. -/
theorem neg_big_eq :
    Named.named (F := Ideal) Cert.KernelIdeal.κ "neg_big" (φ := .f32) 0xF149F2CA#32 = (⊥ : EReal) :=
  IdealRules.named_const.ideal_named_scalar _ _ _ _ rfl

/-- A signed comparison of two small words compares their values. -/
theorem slt_iff (a b : ℕ) (ha : a < 2 ^ 31) (hb : b < 2 ^ 31) :
    IntOp.cmpi .slt (BitVec.ofNat 32 a) (BitVec.ofNat 32 b) = 1#1 ↔ a < b := by
  unfold IntOp.cmpi
  exact StableHlo.Predicate.slt_ofNat_iff a b ha hb

/-! ### The payloads at an index -/

/-- The margin of an entry. -/
theorem pay9_at (x : Vec Ideal S256x6144 .f32) (j : S256x6144.Idx) :
    k0_pay9 (F := Ideal) x j = ArcSpec.phi (x j) := rfl

/-- The column word of lane `q` at column tile `i 1`. -/
theorem pay10_at (i : grid0.Coords) (p : Fin 256) (q : Fin 6144) :
    k0_pay10 i (ix2 p q) = BitVec.ofNat 32 (6144 * (i 1).val + q.val) := by
  unfold k0_pay10
  show BitVec.ofNat 32 (i 1).val * 6144#32 + iota .tc S256x6144 32 [1] iota_S256x6144_d1_w32 (ix2 p q) = _
  rw [iota_single_apply]
  show BitVec.ofNat 32 (i 1).val * BitVec.ofNat 32 6144 + BitVec.ofNat 32 q.val = _
  rw [BitVec.ofNat_add, BitVec.ofNat_mul, BitVec.mul_comm]

/-- Whether lane `q`'s column is the row's target word. -/
theorem pay11_at (i : grid0.Coords) (tg : Vec Ideal S256x1 .i32) (p : Fin 256) (q : Fin 6144) :
    k0_pay11 (F := Ideal) i tg (ix2 p q)
      = IntOp.cmpi .eq (BitVec.ofNat 32 (6144 * (i 1).val + q.val)) (tg (ix2 p (0 : Fin 1))) := by
  unfold k0_pay11
  exact congrArg₂ (IntOp.cmpi .eq) (pay10_at i p q)
    ((broadcastTo_a1_ab_apply _ broadcasts_S256x1_S256x6144 p q).trans
      (congrFun (shapeCast_self tg shapeCasts_S256x1_S256x1) _))

/-- The masked score of lane `q`. -/
theorem pay12_at (i : grid0.Coords) (x : Vec Ideal S256x6144 .f32) (tg : Vec Ideal S256x1 .i32)
    (p : Fin 256) (q : Fin 6144) : k0_pay12 (F := Ideal) i x tg (ix2 p q) = laneScore i x tg p q := by
  have hi : (i 1).val < 17 := (i 1).isLt
  have e : k0_pay12 (F := Ideal) i x tg (ix2 p q)
      = Scalar.select (IntOp.cmpi .slt (k0_pay10 i (ix2 p q)) (BitVec.ofNat 32 100000))
          (ArcSpec.scl * Scalar.select (k0_pay11 (F := Ideal) i tg (ix2 p q)) (k0_pay9 (F := Ideal) x (ix2 p q)) (x (ix2 p q)))
          (Named.named (F := Ideal) Cert.KernelIdeal.κ "neg_big" (φ := .f32) 0xF149F2CA#32) := rfl
  rw [e, pay10_at, pay11_at, pay9_at, neg_big_eq]
  unfold laneScore ArcSpec.score
  by_cases h : 6144 * (i 1).val + q.val < 100000
  · rw [(slt_iff _ _ (by omega) (by norm_num)).2 h, select_one, if_pos h]
  · rw [eq_zero_of_ne_one (mt (slt_iff _ _ (by omega) (by norm_num)).1 h), select_zero, if_neg h]

/-- The lanes' maximum at row `p`. -/
theorem pay13_at (i : grid0.Coords) (x : Vec Ideal S256x6144 .f32) (tg : Vec Ideal S256x1 .i32) (p : Fin 256) :
    k0_pay13 (F := Ideal) i x tg (ix2 p (0 : Fin 1))
      = (Finset.univ : Finset (Fin 6144)).fold max ⊥ (laneScore i x tg p) := by
  unfold k0_pay13
  refine (shapeCast_a_a1_apply _ shapeCasts_S256_S256x1 p 0).trans ((laneMax_apply _ p).trans ?_)
  exact congrArg (fun f => (Finset.univ : Finset (Fin 6144)).fold max ⊥ f) (funext fun q => pay12_at i x tg p q)

/-- The new maximum: the old against the lanes'. -/
theorem pay3_at (v38 : FVec Ideal S256x1 .f32) (v39 : Vec Ideal S256x1 .f32) (j : S256x1.Idx) :
    k0_pay3 (F := Ideal) v38 v39 j = max (v39 j) (v38 j) := by
  unfold k0_pay3
  exact congrFun (shapeCast_self (k0_pay1 (F := Ideal) v38 v39) shapeCasts_S256x1_S256x1) j

/-- The new sum: the old rescaled, plus the lanes' shifted exponentials. -/
theorem pay2_at (v36 : FVec Ideal S256x6144 .f32) (v38 : FVec Ideal S256x1 .f32) (v39 v41 v49 : Vec Ideal S256x1 .f32)
    (p : Fin 256) :
    k0_pay2 (F := Ideal) v36 v38 v39 v41 v49 (ix2 p (0 : Fin 1))
      = Ideal.exp (v41 (ix2 p (0 : Fin 1)) - max (v39 (ix2 p (0 : Fin 1))) (v38 (ix2 p (0 : Fin 1)))) * v49 (ix2 p (0 : Fin 1))
        + ∑ q : Fin 6144, Ideal.exp (v36 (ix2 p q) - max (v39 (ix2 p (0 : Fin 1))) (v38 (ix2 p (0 : Fin 1)))) := by
  unfold k0_pay2
  refine (congrFun (shapeCast_self _ shapeCasts_S256x1_S256x1) _).trans ?_
  show Ideal.exp (v41 (ix2 p (0 : Fin 1)) - max (v39 (ix2 p (0 : Fin 1))) (v38 (ix2 p (0 : Fin 1)))) * v49 (ix2 p (0 : Fin 1))
      + shapeCast S256x1 _ shapeCasts_S256_S256x1 (ix2 p (0 : Fin 1)) = _
  refine congrArg₂ (· + ·) rfl ?_
  refine (shapeCast_a_a1_apply _ shapeCasts_S256_S256x1 p 0).trans ((laneSum_apply _ p).trans ?_)
  refine Finset.sum_congr rfl fun q _ => ?_
  show Ideal.exp (v36 (ix2 p q) - broadcastTo S256x6144 (k0_pay1 (F := Ideal) v38 v39) broadcasts_S256x1_S256x6144 (ix2 p q)) = _
  exact congrArg (fun m => Ideal.exp (v36 (ix2 p q) - m)) (broadcastTo_a1_ab_apply _ broadcasts_S256x1_S256x6144 p q)

/-- The new pick: the old plus the lanes' contributions. -/
theorem pay4_at (v21 : FVec Ideal S256x6144 .f32) (v29 : IVec S256x6144 1) (v62 : Vec Ideal S256x1 .f32) (p : Fin 256) :
    k0_pay4 (F := Ideal) v21 v29 v62 (ix2 p (0 : Fin 1))
      = v62 (ix2 p (0 : Fin 1)) + ∑ q : Fin 6144, Scalar.select (v29 (ix2 p q)) (ArcSpec.scl * v21 (ix2 p q)) 0 := by
  unfold k0_pay4
  refine (congrFun (shapeCast_self _ shapeCasts_S256x1_S256x1) _).trans ?_
  show v62 (ix2 p (0 : Fin 1)) + shapeCast S256x1 _ shapeCasts_S256_S256x1 (ix2 p (0 : Fin 1)) = _
  refine congrArg₂ (· + ·) rfl ?_
  refine (shapeCast_a_a1_apply _ shapeCasts_S256_S256x1 p 0).trans ((laneSum_apply _ p).trans ?_)
  refine Finset.sum_congr rfl fun q _ => ?_
  show Scalar.select (v29 (ix2 p q)) (ArcSpec.scl * v21 (ix2 p q)) (Ideal.ofBits .f32 0x00000000#32) = _
  rw [Ideal.ofBits_zero_f32]

/-- One point's update at row `p` is the streaming step on the row's lanes. -/
theorem step_row (i : grid0.Coords) (x : Vec Ideal S256x6144 .f32) (tg : Vec Ideal S256x1 .i32)
    (s : Col Ideal × Col Ideal × Col Ideal) (p : Fin 256) :
    rowOf (step (F := Ideal) i x tg s) p
      = ArcLse.stepRow (laneScore i x tg p) (lanePick i x tg p) (rowOf s p) := by
  unfold rowOf step ArcLse.stepRow
  dsimp only
  refine Prod.ext ?_ (Prod.ext ?_ ?_)
  · dsimp only
    rw [pay3_at, pay13_at]
  · dsimp only
    rw [pay2_at, pay13_at]
    simp only [pay12_at]
  · dsimp only
    rw [pay4_at]
    refine congrArg₂ (· + ·) rfl (Finset.sum_congr rfl fun q _ => ?_)
    rw [pay11_at, pay9_at]
    rfl

/-- The reset at row `p`: maximum `⊥`, sum zero, pick zero. -/
theorem init_row (p : Fin 256) : rowOf (init (F := Ideal)) p = (⊥, 0, 0) := by
  unfold rowOf init
  refine Prod.ext ?_ (Prod.ext ?_ ?_)
  · show k0_pay6 (F := Ideal) (ix2 p (0 : Fin 1)) = ⊥
    unfold k0_pay6
    exact (congrFun (shapeCast_self _ shapeCasts_S256x1_S256x1) _).trans neg_big_eq
  · show k0_pay7 (F := Ideal) (ix2 p (0 : Fin 1)) = 0
    unfold k0_pay7
    exact (congrFun (shapeCast_self _ shapeCasts_S256x1_S256x1) _).trans Ideal.ofBits_zero_f32
  · show k0_pay8 (F := Ideal) (ix2 p (0 : Fin 1)) = 0
    unfold k0_pay8
    exact (congrFun (shapeCast_self _ shapeCasts_S256x1_S256x1) _).trans Ideal.ofBits_zero_f32

/-- The first result at row `p`: the maximum plus the logarithm of the sum. -/
theorem pay5_row (a b : Col Ideal) (p : Fin 256) :
    k0_pay5 (F := Ideal) a b (ix2 p (0 : Fin 1)) = a (ix2 p (0 : Fin 1)) + Ideal.log (b (ix2 p (0 : Fin 1))) := by
  rfl

end Cert.KernelIdeal.KValue

end
-- ==== Proof.KIValue.lean ====
/-
  Each row's logit, as the kernel leaves it, is the specification's.

  Fix a row tile and a row `p` in it.  Sweeping the 17 column tiles, the row's (maximum, shifted sum, pick)
  after column tile `j` is the streaming recurrence's state after `j + 1` tiles over the row's scores: the
  point's lane scores are the recurrence's score tile (the block's entries are the array's, the lanes past the
  last column are `⊥`), its lane picks are the recurrence's pick tile (the column equals the target word only
  at the target's column, where the scaled margin is the row's score there), the reset is the recurrence's
  start, and each update is the recurrence's step.  After the last tile the second result less the first is the
  pick less (maximum plus logarithm of the sum), which the streaming-against-two-pass identity turns into the
  specification's logit of that row.
-/
import proofs.«427789_j12532714570064_2_alg».proof.Proof.KIStepRow
import proofs.«427789_j12532714570064_2_alg».proof.Proof.KIBlocks
import Idealize.ShloMosaic.Lib.StableHlo.Predicate

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ)

/-- The last point of row tile `i`. -/
def lastPt (i : Fin 2) : Fin cfg0.N :=
  ⟨17 * i.val + 16, lt_of_lt_of_eq (by have := i.isLt; omega : 17 * i.val + 16 < 34) N_0.symm⟩

/-! ## Every score of a row of finite cosines is a real

The margin and the scaling are built from products, differences, `min`, `max`, a square root of a clipped — hence
non-negative — argument, and selects, all between reals: the constants are finite patterns. -/

/-- An extended real that is a real. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

/-- The square root of a non-negative real is a real. -/
theorem IsR.sqrt {x : EReal} (hx : IsR x) (h0 : 0 ≤ x) : IsR (Ideal.sqrt x) := by
  obtain ⟨a, rfl⟩ := hx
  have ha : ¬a < 0 := not_lt.mpr (EReal.coe_nonneg.mp h0)
  exact ⟨Real.sqrt a, by rw [Ideal.sqrt_coe, if_neg ha]⟩

theorem IsR.select {x y : EReal} (c : BitVec 1) (hx : IsR x) (hy : IsR y) : IsR (Scalar.select c x y) := by
  unfold Scalar.select; split <;> assumption

/-- A pattern whose exponent field is not all ones denotes a real. -/
theorem ieee_isR (e m : Nat) {w : Nat} (b : BitVec w) (h : (b.extractLsb' m e).toNat ≠ 2 ^ e - 1) :
    IsR (Ideal.ieee e m b) := by
  unfold Ideal.ieee
  simp only []
  rw [if_neg h]
  split <;> exact ⟨_, rfl⟩

theorem cosM_isR : IsR ArcSpec.cosM := ieee_isR 8 23 (0x3F60A940#32) (by decide)
theorem sinM_isR : IsR ArcSpec.sinM := ieee_isR 8 23 (0x3EF57744#32) (by decide)
theorem mm_isR : IsR ArcSpec.mm := ieee_isR 8 23 (0x3E757744#32) (by decide)
theorem scl_isR : IsR ArcSpec.scl := ieee_isR 8 23 (0x41F00000#32) (by decide)
theorem one_isR : IsR ArcSpec.one := ieee_isR 8 23 (0x3F800000#32) (by decide)
theorem zero_isR : IsR ArcSpec.zero := ieee_isR 8 23 (0x00000000#32) (by decide)

theorem zero_eq : ArcSpec.zero = 0 := Ideal.ofBits_zero_f32

theorem one_nonneg : (0 : EReal) ≤ ArcSpec.one := by
  unfold ArcSpec.one Ideal.ofBits Ideal.ieee
  simp only []
  rw [if_neg (by decide), if_neg (by decide), if_neg (by decide)]
  apply EReal.coe_nonneg.mpr
  positivity

theorem phi_isR {v : EReal} (hv : IsR v) : IsR (ArcSpec.phi v) := by
  unfold ArcSpec.phi
  refine IsR.select _ (IsR.sub (hv.mul cosM_isR) (IsR.mul (IsR.sqrt ?_ ?_) sinM_isR)) (hv.sub mm_isR)
  · exact one_isR.min (zero_isR.max (one_isR.sub (hv.mul hv)))
  · exact le_min one_nonneg (le_max_of_le_left (le_of_eq zero_eq.symm))

theorem score_isR (tgr : BitVec 32) (col : ℕ) {v : EReal} (hv : IsR v) : IsR (ArcSpec.score tgr col v) := by
  unfold ArcSpec.score
  exact scl_isR.mul (IsR.select _ (phi_isR hv) hv)

/-! ## A point's lanes are the recurrence's tiles

Row `p` of a point in column tile `j` holds row `r` of the arrays: its target word is the row's, and its entry at
a lane whose column is a column of the array is the row's entry at that column.  `o` names the row's scores. -/

/-- The lane scores are the score tile. -/
theorem laneScore_eq_vTile (i' : grid0.Coords) (x : Vec Ideal S256x6144 .f32) (tg : Vec Ideal S256x1 .i32) (p : Fin 256)
    (X : ArcSpec.S512x100000.Idx → EReal) (TG : ArcSpec.S512.Idx → BitVec 32) (r : Fin 512) (j : Fin 17)
    (o : Fin 100000 → ℝ) (ho : ∀ cc, ArcSpec.rowScore X TG r cc = ((o cc : ℝ) : EReal))
    (hj : (i' 1).val = j.val)
    (htg : (tg (ix2 p (0 : Fin 1)) : BitVec 32) = TG (ix1 r))
    (hx : ∀ (q : Fin 6144) (h : 6144 * j.val + q.val < 100000),
      x (ix2 p q) = X (ix2 r (⟨6144 * j.val + q.val, h⟩ : Fin 100000))) :
    laneScore i' x tg p = ArcLse.vTile o j := by
  funext q
  unfold laneScore ArcLse.vTile
  rw [hj]
  by_cases h : 6144 * j.val + q.val < 100000
  · rw [if_pos h, dif_pos h, htg, hx q h]
    exact ho ⟨_, h⟩
  · rw [if_neg h, dif_neg h]

/-- The lane picks are the pick tile: the column word equals the target word only in the target's lane, and there the
    scaled margin is the row's score at the target column. -/
theorem lanePick_eq_wTile (i' : grid0.Coords) (x : Vec Ideal S256x6144 .f32) (tg : Vec Ideal S256x1 .i32) (p : Fin 256)
    (X : ArcSpec.S512x100000.Idx → EReal) (TG : ArcSpec.S512.Idx → BitVec 32) (r : Fin 512) (j : Fin 17)
    (o : Fin 100000 → ℝ) (ho : ∀ cc, ArcSpec.rowScore X TG r cc = ((o cc : ℝ) : EReal))
    (hj : (i' 1).val = j.val)
    (htg : (tg (ix2 p (0 : Fin 1)) : BitVec 32) = TG (ix1 r))
    (hx : ∀ (q : Fin 6144) (h : 6144 * j.val + q.val < 100000),
      x (ix2 p q) = X (ix2 r (⟨6144 * j.val + q.val, h⟩ : Fin 100000)))
    (tc : Fin 100000) (htc : tc.val = (TG (ix1 r)).toNat) :
    lanePick i' x tg p = ArcLse.wTile o tc j := by
  funext q
  have hq := q.isLt
  have hjlt := j.isLt
  unfold lanePick ArcLse.wTile
  rw [hj, htg]
  by_cases h : 6144 * j.val + q.val = tc.val
  · have hlt : 6144 * j.val + q.val < 100000 := by rw [h]; exact tc.isLt
    have hc : IntOp.cmpi .eq (BitVec.ofNat 32 (6144 * j.val + q.val)) (TG (ix1 r)) = 1#1 := by
      rw [StableHlo.Predicate.cmpi_eq_iff]
      apply BitVec.eq_of_toNat_eq
      rw [BitVec.toNat_ofNat, ← htc, ← h]
      omega
    have e := ho ⟨_, hlt⟩
    unfold ArcSpec.rowScore ArcSpec.score at e
    dsimp only at e
    rw [hc, ValueIdx.select_one] at e
    rw [hc, ValueIdx.select_one, if_pos h, hx q hlt, e]
    exact congrArg (fun cc => ((o cc : ℝ) : EReal)) (Fin.ext h)
  · have hc : ¬IntOp.cmpi .eq (BitVec.ofNat 32 (6144 * j.val + q.val)) (TG (ix1 r)) = 1#1 := by
      intro hc
      rw [StableHlo.Predicate.cmpi_eq_iff] at hc
      apply h
      rw [htc, ← hc, BitVec.toNat_ofNat]
      omega
    rw [ValueIdx.eq_zero_of_ne_one hc, ValueIdx.select_zero, if_neg h]

/-! ## The sweep over a row tile's 17 points -/

theorem scAt_congr (c : Dev nD) {n n' : ℕ} (e : n = n') (h : n < cfg0.N) (h' : n' < cfg0.N) :
    scAt m c n h = scAt m c n' h' := by
  subst e; rfl

/-- Every point of a row tile reads the same rows of the arrays. -/
theorem rowIx_tile (i : Fin 2) (j : ℕ) (hj : j < 17) (h : 17 * i.val + j < cfg0.N) (p : Fin 256) :
    rowIx ⟨17 * i.val + j, h⟩ p = rowIx (lastPt i) p := by
  apply Fin.ext
  show 256 * ((17 * i.val + j) / 17) + p.val = 256 * ((17 * i.val + 16) / 17) + p.val
  have := i.isLt
  omega

/-- One point's update at row `p` is the recurrence's step on tile `j`. -/
theorem point_row (c : Dev nD) (i : Fin 2) (p : Fin 256) (o : Fin 100000 → ℝ) (tc : Fin 100000)
    (ho : ∀ cc, ArcSpec.rowScore (m ((c.tc : Thread nD τ).loc main_arg0)) (m ((c.tc : Thread nD τ).loc main_arg1))
      (rowIx (lastPt i) p) cc = ((o cc : ℝ) : EReal))
    (htc : tc.val = ((m ((c.tc : Thread nD τ).loc main_arg1) : S512.Idx → BitVec 32) (ix1 (rowIx (lastPt i) p))).toNat)
    (j : ℕ) (hj : j < 17) (h : 17 * i.val + j < cfg0.N) :
    rowOf (scAt m c (17 * i.val + j) h) p
      = ArcLse.stepRow (ArcLse.vTile o ⟨j, hj⟩) (ArcLse.wTile o tc ⟨j, hj⟩) (rowOf (scIn m c (17 * i.val + j) h) p) := by
  have hi := i.isLt
  have hmod : (17 * i.val + j) % 17 = j := by omega
  have hcol : ((grid0.coords ⟨17 * i.val + j, h⟩) 1).val = j := by rw [coords_col]; exact hmod
  have hr := rowIx_tile i j hj h p
  have htg : (tgB m c ⟨17 * i.val + j, h⟩ (ix2 p (0 : Fin 1)) : BitVec 32)
      = (m ((c.tc : Thread nD τ).loc main_arg1) : S512.Idx → BitVec 32) (ix1 (rowIx (lastPt i) p)) := by
    rw [tgB_apply, hr]
  have hx : ∀ (q : Fin 6144) (hq : 6144 * j + q.val < 100000),
      xB m c ⟨17 * i.val + j, h⟩ (ix2 p q)
        = (m ((c.tc : Thread nD τ).loc main_arg0) : S512x100000.Idx → EReal)
            (ix2 (rowIx (lastPt i) p) (⟨6144 * j + q.val, hq⟩ : Fin 100000)) := by
    intro q hq
    have hq' : 6144 * ((17 * i.val + j) % 17) + q.val < 100000 := by rw [hmod]; exact hq
    rw [xB_apply m c ⟨17 * i.val + j, h⟩ p q hq', hr]
    have e : (⟨6144 * ((17 * i.val + j) % 17) + q.val, hq'⟩ : Fin 100000) = ⟨6144 * j + q.val, hq⟩ :=
      Fin.ext (by show 6144 * ((17 * i.val + j) % 17) + q.val = 6144 * j + q.val; rw [hmod])
    rw [e]
  rw [scAt_eq, step_row,
    laneScore_eq_vTile _ _ _ p _ _ (rowIx (lastPt i) p) ⟨j, hj⟩ o ho hcol htg hx,
    lanePick_eq_wTile _ _ _ p _ _ (rowIx (lastPt i) p) ⟨j, hj⟩ o ho hcol htg hx tc htc]

/-- The recurrence's state after one more tile. -/
theorem stRow_succ (o : Fin 100000 → ℝ) (tc : Fin 100000) (n : ℕ) (hn : n < 17) :
    ArcLse.stRow o tc (n + 1)
      = ArcLse.stepRow (ArcLse.vTile o ⟨n, hn⟩) (ArcLse.wTile o tc ⟨n, hn⟩) (ArcLse.stRow o tc n) := by
  rw [ArcLse.stRow, dif_pos hn]

/-- After column tile `j` the row's three words are the recurrence's state after `j + 1` tiles. -/
theorem sweep (c : Dev nD) (i : Fin 2) (p : Fin 256) (o : Fin 100000 → ℝ) (tc : Fin 100000)
    (ho : ∀ cc, ArcSpec.rowScore (m ((c.tc : Thread nD τ).loc main_arg0)) (m ((c.tc : Thread nD τ).loc main_arg1))
      (rowIx (lastPt i) p) cc = ((o cc : ℝ) : EReal))
    (htc : tc.val = ((m ((c.tc : Thread nD τ).loc main_arg1) : S512.Idx → BitVec 32) (ix1 (rowIx (lastPt i) p))).toNat) :
    ∀ (j : ℕ) (hj : j < 17) (h : 17 * i.val + j < cfg0.N),
      rowOf (scAt m c (17 * i.val + j) h) p = ArcLse.stRow o tc (j + 1) := by
  intro j
  induction j with
  | zero =>
    intro hj h
    rw [point_row m c i p o tc ho htc 0 hj h]
    have hin : rowOf (scIn m c (17 * i.val + 0) h) p = ArcLse.stRow o tc 0 := by
      unfold scIn
      rw [if_pos (by omega)]
      exact init_row p
    rw [hin, stRow_succ o tc 0 hj]
  | succ k ih =>
    intro hj h
    have hk : k < 17 := by omega
    have h' : 17 * i.val + k < cfg0.N := by omega
    rw [point_row m c i p o tc ho htc (k + 1) hj h]
    have hin : scIn m c (17 * i.val + (k + 1)) h = scAt m c (17 * i.val + k) h' := by
      unfold scIn
      rw [if_neg (by omega)]
      exact scAt_congr m c (by omega) _ _
    rw [hin, ih hk h', stRow_succ o tc (k + 1) hj]

/-- With finite cosines and target words below 100000: at the last column tile of row tile `i`, row `p`'s
    second result less its first is the specification's logit of row `256 i + p`. -/
theorem logit_row (c : Dev nD)
    (hfin : ∀ j : S512x100000.Idx, ∃ r : ℝ,
      (m ((c.tc : Thread nD τ).loc main_arg0) : S512x100000.Idx → EReal) j = ((r : ℝ) : EReal))
    (hrng : ∀ j : S512.Idx, ((m ((c.tc : Thread nD τ).loc main_arg1) : S512.Idx → BitVec 32) j).toNat < 100000)
    (i : Fin 2) (p : Fin 256) :
    accAt m c (lastPt i) (ix2 p (0 : Fin 1)) - lseAt m c (lastPt i) (ix2 p (0 : Fin 1))
      = ArcSpec.logit (m ((c.tc : Thread nD τ).loc main_arg0)) (m ((c.tc : Thread nD τ).loc main_arg1))
          (rowIx (lastPt i) p) := by
  -- the row's scores are reals
  have hreal : ∀ cc : Fin 100000, ∃ v : ℝ,
      ArcSpec.rowScore (m ((c.tc : Thread nD τ).loc main_arg0)) (m ((c.tc : Thread nD τ).loc main_arg1))
        (rowIx (lastPt i) p) cc = ((v : ℝ) : EReal) := fun cc =>
    score_isR _ _ (hfin (ix2 (rowIx (lastPt i) p) cc))
  choose o ho using hreal
  -- the row's target column
  have htcl := hrng (ix1 (rowIx (lastPt i) p))
  -- the sweep, at the last tile
  have hs := sweep m c i p o ⟨_, htcl⟩ ho rfl 16 (by norm_num) (lastPt i).isLt
  have h1 : (scAt m c (lastPt i).val (lastPt i).isLt).1 (ix2 p (0 : Fin 1)) = (ArcLse.stRow o ⟨_, htcl⟩ 17).1 :=
    congrArg Prod.fst hs
  have h2 : (scAt m c (lastPt i).val (lastPt i).isLt).2.1 (ix2 p (0 : Fin 1)) = (ArcLse.stRow o ⟨_, htcl⟩ 17).2.1 :=
    congrArg (fun s => s.2.1) hs
  have h3 : (scAt m c (lastPt i).val (lastPt i).isLt).2.2 (ix2 p (0 : Fin 1)) = (ArcLse.stRow o ⟨_, htcl⟩ 17).2.2 :=
    congrArg (fun s => s.2.2) hs
  unfold accAt lseAt
  rw [pay5_row, h1, h2, h3, ArcLse.online_eq]
  -- the specification's logit over the same reals
  have hrs : ArcSpec.rowScore (m ((c.tc : Thread nD τ).loc main_arg0)) (m ((c.tc : Thread nD τ).loc main_arg1))
      (rowIx (lastPt i) p) = fun cc => ((o cc : ℝ) : EReal) := funext ho
  unfold ArcSpec.logit ArcSpec.rowMaxE ArcSpec.pick ArcLse.rowMax
  rw [dif_pos htcl, hrs]

end Cert.KernelIdeal.KValue

end
-- ==== Proof.KIFinal.lean ====
/-
  The kernel program's result is the loss of the specification.

  The two result arrays are written back only at the last column tile of each row tile, in blocks of 256 rows
  that together cover the 512 rows: row `r` of the first holds the running maximum plus the logarithm of the
  running sum, and of the second the running pick, as row tile `r / 256` left them for its row `r % 256`.
  The host operations after the region reshape both to 512 entries, subtract the first from the second — each
  row's logit, which is the specification's — and end with minus one times each, summed from zero, over 512.
-/
import proofs.«427789_j12532714570064_2_alg».proof.Proof.KIBody
import proofs.«427789_j12532714570064_2_alg».proof.Proof.KIValue
import Idealize.ShloMosaic.Lib.StableHlo.Run

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ)

/-- The two result arrays as the region leaves them. -/
abbrev lseArr (c : Dev nD) : S512x1.Idx → EReal := (dats m 0 c).arrAt 2 cfg0.N
abbrev accArr (c : Dev nD) : S512x1.Idx → EReal := (dats m 0 c).arrAt 3 cfg0.N

/-- The host operations after the region: both result arrays reshaped to 512 entries, the first subtracted from
    the second, and the loss's closing operations on the difference. -/
theorem tail_eq (c : Dev nD) :
    Pipeline.afterTail₀ cfgs (dats m) 0 (V0 m) [hostOps1] c main_v12
      = ArcSpec.lossTail (F := Ideal) bcast_S_S512 reducesTo_S512_S_d0 h_S_
          (subf (shapeCast S512 (accArr m c) shapeCasts_S512x1_S512) (shapeCast S512 (lseArr m c) shapeCasts_S512x1_S512)) := by
  unfold Pipeline.afterTail₀
  show StableHlo.after hostOps1 _ (Proc.devRef .tc main_v12) = _
  after_results
  have e3 : Pipeline.withArrays (cfgs 0).spec c (V0 m c) (fun w => (dats m 0 c).arrAt w (cfgs 0).N)
      (Proc.devRef .tc main_v1_1) = accArr m c := Pipeline.withArrays_arr spec0 launch0.win.arr_inj c _ _ 3
  have e2 : Pipeline.withArrays (cfgs 0).spec c (V0 m c) (fun w => (dats m 0 c).arrAt w (cfgs 0).N)
      (Proc.devRef .tc main_v1_0) = lseArr m c := Pipeline.withArrays_arr spec0 launch0.win.arr_inj c _ _ 2
  rw [e3, e2]
  rfl

/-! ## The two result arrays, row by row -/

/-- The row tile of an array row, and the row's place inside the tile. -/
def tileOf (r : ℕ) (h : r < 512) : Fin 2 := ⟨r / 256, by omega⟩
def laneOf (r : ℕ) : Fin 256 := ⟨r % 256, Nat.mod_lt _ (by norm_num)⟩

theorem tileOf_eq (r : ℕ) (h : r < 512) (i : Fin 2) (p : Fin 256) (e : r = 256 * i.val + p.val) : tileOf r h = i :=
  Fin.ext (by show r / 256 = i.val; have := p.isLt; omega)
theorem laneOf_eq (r : ℕ) (i : Fin 2) (p : Fin 256) (e : r = 256 * i.val + p.val) : laneOf r = p :=
  Fin.ext (by show r % 256 = p.val; have := p.isLt; omega)

/-- What the result arrays end holding: row `r` is row `r % 256` of what the last point of row tile `r / 256` left. -/
def lseFin (c : Dev nD) : S512x1.Idx → EReal := fun j =>
  lseAt m c (lastPt (tileOf (j 0).val (idx2_lt0 j))) (ix2 (laneOf (j 0).val) (0 : Fin 1))
def accFin (c : Dev nD) : S512x1.Idx → EReal := fun j =>
  accAt m c (lastPt (tileOf (j 0).val (idx2_lt0 j))) (ix2 (laneOf (j 0).val) (0 : Fin 1))

theorem lseFin_at (c : Dev nD) (i : Fin 2) (p : Fin 256) (j : S512x1.Idx) (hj : (j 0).val = 256 * i.val + p.val) :
    lseFin m c j = lseAt m c (lastPt i) (ix2 p (0 : Fin 1)) := by
  unfold lseFin
  rw [tileOf_eq (j 0).val (idx2_lt0 j) i p hj, laneOf_eq (j 0).val i p hj]
theorem accFin_at (c : Dev nD) (i : Fin 2) (p : Fin 256) (j : S512x1.Idx) (hj : (j 0).val = 256 * i.val + p.val) :
    accFin m c j = accAt m c (lastPt i) (ix2 p (0 : Fin 1)) := by
  unfold accFin
  rw [tileOf_eq (j 0).val (idx2_lt0 j) i p hj, laneOf_eq (j 0).val i p hj]

/-- The block indices of the two result windows at point `t`: (row tile, 0). -/
theorem index_out : ∀ t : Fin cfg0.N, win0_2.index t (0 : Fin 2) = t.val / 17 ∧ win0_2.index t (1 : Fin 2) = 0
    ∧ win0_3.index t (0 : Fin 2) = t.val / 17 ∧ win0_3.index t (1 : Fin 2) = 0 :=
  (by decide +kernel : ∀ t : Fin grid0.N, win0_2.index t (0 : Fin 2) = t.val / 17 ∧ win0_2.index t (1 : Fin 2) = 0
    ∧ win0_3.index t (0 : Fin 2) = t.val / 17 ∧ win0_3.index t (1 : Fin 2) = 0)

/-- A point that writes back is the last point of its row tile. -/
theorem eq_lastPt (t : Fin cfg0.N) (h16 : t.val % 17 = 16) (hi : t.val / 17 < 2) : t = lastPt ⟨t.val / 17, hi⟩ :=
  Fin.ext (by show t.val = 17 * (t.val / 17) + 16; omega)

/-- What a writing point writes back of the first result is its block of `lseFin`. -/
theorem flushed_lse (c : Dev nD) (t : Fin cfg0.N) (hf : (cfg0.win 2).flush t = true) :
    (dats m 0 c).flushed 2 t = ((cfg0.win 2).blk t).view.read (Elt Ideal) (lseFin m c) := by
  have h16 : t.val % 17 = 16 := (flush0_2 t).mp hf
  have hN : t.val < 34 := lt_of_lt_of_eq t.isLt N_0
  have hi : t.val / 17 < 2 := by omega
  obtain ⟨h0, h1, -, -⟩ := index_out t
  show (cfg0.win 2).cut (grid0.coords t) ((dats m 0 c).after 2 t) = _
  rw [after2]
  funext y
  rw [View.read_apply]
  have hy0 : (y 0).val < 256 := (y 0).isLt
  have hy1 : (y 1).val < 1 := (y 1).isLt
  refine Eq.trans ?_ (lseFin_at m c ⟨t.val / 17, hi⟩ ⟨(y 0).val, hy0⟩ _ ?_).symm
  · show lseAt m c t _ = lseAt m c (lastPt ⟨t.val / 17, hi⟩) _
    rw [← eq_lastPt t h16 hi]
    congr 1
    funext a
    match a with
    | ⟨0, _⟩ => rfl
    | ⟨1, _⟩ => exact Fin.ext (by show (y 1).val = 0; omega)
  · show win0_2.index t 0 * 256 + 1 * (y 0).val = 256 * (t.val / 17) + (y 0).val
    rw [h0]; omega

/-- What a writing point writes back of the second result is its block of `accFin`. -/
theorem flushed_acc (c : Dev nD) (t : Fin cfg0.N) (hf : (cfg0.win 3).flush t = true) :
    (dats m 0 c).flushed 3 t = ((cfg0.win 3).blk t).view.read (Elt Ideal) (accFin m c) := by
  have h16 : t.val % 17 = 16 := (flush0_3 t).mp hf
  have hN : t.val < 34 := lt_of_lt_of_eq t.isLt N_0
  have hi : t.val / 17 < 2 := by omega
  obtain ⟨-, -, h0, h1⟩ := index_out t
  show (cfg0.win 3).cut (grid0.coords t) ((dats m 0 c).after 3 t) = _
  rw [after3]
  funext y
  rw [View.read_apply]
  have hy0 : (y 0).val < 256 := (y 0).isLt
  have hy1 : (y 1).val < 1 := (y 1).isLt
  refine Eq.trans ?_ (accFin_at m c ⟨t.val / 17, hi⟩ ⟨(y 0).val, hy0⟩ _ ?_).symm
  · show accAt m c t _ = accAt m c (lastPt ⟨t.val / 17, hi⟩) _
    rw [← eq_lastPt t h16 hi]
    congr 1
    funext a
    match a with
    | ⟨0, _⟩ => rfl
    | ⟨1, _⟩ => exact Fin.ext (by show (y 1).val = 0; omega)
  · show win0_3.index t 0 * 256 + 1 * (y 0).val = 256 * (t.val / 17) + (y 0).val
    rw [h0]; omega

/-- The last point of a row's tile, as a number. -/
theorem lastPt_tile_val (r : ℕ) (h : r < 512) : (lastPt (tileOf r h)).val = 17 * (r / 256) + 16 := rfl

/-- Every row of the first result array is in the block of the last point of its row tile, which writes back. -/
theorem cover_lse (j : S512x1.Idx) :
    ∃ t : Fin cfg0.N, (cfg0.win 2).flush t = true ∧ j ∈ ((cfg0.win 2).blk t).view.set := by
  have hj0 : (j 0).val < 512 := idx2_lt0 j
  have hj1 : (j 1).val < 1 := idx2_lt1 j
  have e := lastPt_tile_val (j 0).val hj0
  obtain ⟨h0, h1, -, -⟩ := index_out (lastPt (tileOf (j 0).val hj0))
  refine ⟨lastPt (tileOf (j 0).val hj0), (flush0_2 _).mpr (by rw [e]; omega), ?_⟩
  show j ∈ ((View.whole main_v1_0).slice (win0_2.rect (lastPt (tileOf (j 0).val hj0)))).set
  rw [View.set_slice_whole, Rect.mem_set_unit]
  intro a
  match a with
  | ⟨0, _⟩ =>
    show win0_2.index (lastPt (tileOf (j 0).val hj0)) 0 * 256 ≤ (j 0).val
      ∧ (j 0).val < win0_2.index (lastPt (tileOf (j 0).val hj0)) 0 * 256 + 256
    rw [h0, e]; omega
  | ⟨1, _⟩ =>
    show win0_2.index (lastPt (tileOf (j 0).val hj0)) 1 * 1 ≤ (j 1).val
      ∧ (j 1).val < win0_2.index (lastPt (tileOf (j 0).val hj0)) 1 * 1 + 1
    rw [h1]; omega

/-- Likewise for the second result array. -/
theorem cover_acc (j : S512x1.Idx) :
    ∃ t : Fin cfg0.N, (cfg0.win 3).flush t = true ∧ j ∈ ((cfg0.win 3).blk t).view.set := by
  have hj0 : (j 0).val < 512 := idx2_lt0 j
  have hj1 : (j 1).val < 1 := idx2_lt1 j
  have e := lastPt_tile_val (j 0).val hj0
  obtain ⟨-, -, h0, h1⟩ := index_out (lastPt (tileOf (j 0).val hj0))
  refine ⟨lastPt (tileOf (j 0).val hj0), (flush0_3 _).mpr (by rw [e]; omega), ?_⟩
  show j ∈ ((View.whole main_v1_1).slice (win0_3.rect (lastPt (tileOf (j 0).val hj0)))).set
  rw [View.set_slice_whole, Rect.mem_set_unit]
  intro a
  match a with
  | ⟨0, _⟩ =>
    show win0_3.index (lastPt (tileOf (j 0).val hj0)) 0 * 256 ≤ (j 0).val
      ∧ (j 0).val < win0_3.index (lastPt (tileOf (j 0).val hj0)) 0 * 256 + 256
    rw [h0, e]; omega
  | ⟨1, _⟩ =>
    show win0_3.index (lastPt (tileOf (j 0).val hj0)) 1 * 1 ≤ (j 1).val
      ∧ (j 1).val < win0_3.index (lastPt (tileOf (j 0).val hj0)) 1 * 1 + 1
    rw [h1]; omega

/-- So the two result arrays end holding `lseFin` and `accFin`. -/
theorem lseArr_eq (c : Dev nD) : lseArr m c = lseFin m c :=
  (dats m 0 c).arrAt_eq_of_cover 2 (lseFin m c) (fun t hf => flushed_lse m c t hf) cover_lse
theorem accArr_eq (c : Dev nD) : accArr m c = accFin m c :=
  (dats m 0 c).arrAt_eq_of_cover 3 (accFin m c) (fun t hf => flushed_acc m c t hf) cover_acc

/-- Row `i` of the second array reshaped less the first reshaped is the specification's logit of row `i`. -/
theorem row_eq (c : Dev nD)
    (hfin : ∀ j : S512x100000.Idx, ∃ r : ℝ,
      (m ((c.tc : Thread nD τ).loc main_arg0) : S512x100000.Idx → EReal) j = ((r : ℝ) : EReal))
    (hrng : ∀ j : S512.Idx, ((m ((c.tc : Thread nD τ).loc main_arg1) : S512.Idx → BitVec 32) j).toNat < 100000)
    (i : S512.Idx) :
    (subf (shapeCast S512 (accFin m c) shapeCasts_S512x1_S512) (shapeCast S512 (lseFin m c) shapeCasts_S512x1_S512)
        : FVec Ideal S512 .f32) i
      = ArcSpec.logit (m ((c.tc : Thread nD τ).loc main_arg0)) (m ((c.tc : Thread nD τ).loc main_arg1)) (i 0) := by
  have hi : (i 0).val < 512 := (i 0).isLt
  -- the reshape keeps the row-major position: entry r of the 512 is entry (r, 0) of the column
  have hk : ((S512x1 : Shape).rowMajor (ix2 (⟨(i 0).val, hi⟩ : Fin 512) (0 : Fin 1))).val = ((S512 : Shape).rowMajor i).val := by
    have a1 : ((S512 : Shape).rowMajor i).val = (i 0).val := Shape.rowMajor_val_one (d := ![512]) i
    have a2 : ((S512x1 : Shape).rowMajor (ix2 (⟨(i 0).val, hi⟩ : Fin 512) (0 : Fin 1))).val = (i 0).val * 1 + 0 :=
      Shape.rowMajor_val_two (d := ![512, 1]) (ix2 (⟨(i 0).val, hi⟩ : Fin 512) (0 : Fin 1))
    rw [a1, a2]; omega
  have hr : (i 0).val = 256 * (tileOf (i 0).val hi).val + (laneOf (i 0).val).val := by
    show (i 0).val = 256 * ((i 0).val / 256) + (i 0).val % 256; omega
  show shapeCast S512 (accFin m c) shapeCasts_S512x1_S512 i - shapeCast S512 (lseFin m c) shapeCasts_S512x1_S512 i = _
  rw [shapeCast_apply (accFin m c) shapeCasts_S512x1_S512 i _ hk, shapeCast_apply (lseFin m c) shapeCasts_S512x1_S512 i _ hk,
    accFin_at m c (tileOf (i 0).val hi) (laneOf (i 0).val) _ hr, lseFin_at m c (tileOf (i 0).val hi) (laneOf (i 0).val) _ hr,
    logit_row m c hfin hrng]
  congr 1
  exact Fin.ext (by show 256 * ((17 * ((i 0).val / 256) + 16) / 17) + (i 0).val % 256 = (i 0).val; omega)

/-- With finite cosines and target words below 100000, what the host operations after the region leave in the
    program's result buffer is the specification's loss of the two argument arrays. -/
theorem kernel_result (c : Dev nD)
    (hfin : ∀ j : S512x100000.Idx, ∃ r : ℝ,
      (m ((c.tc : Thread nD τ).loc main_arg0) : S512x100000.Idx → EReal) j = ((r : ℝ) : EReal))
    (hrng : ∀ j : S512.Idx, ((m ((c.tc : Thread nD τ).loc main_arg1) : S512.Idx → BitVec 32) j).toNat < 100000) :
    Pipeline.afterTail₀ cfgs (dats m) 0 (V0 m) [hostOps1] c main_v12
      = ArcSpec.loss bcast_S_S512 reducesTo_S512_S_d0 h_S_
          (m ((c.tc : Thread nD τ).loc main_arg0)) (m ((c.tc : Thread nD τ).loc main_arg1)) := by
  rw [tail_eq, lseArr_eq, accArr_eq]
  unfold ArcSpec.loss
  exact congrArg (ArcSpec.lossTail (F := Ideal) bcast_S_S512 reducesTo_S512_S_d0 h_S_)
    (funext fun i => row_eq m c hfin hrng i)

end Cert.KernelIdeal.KValue

end
-- ==== Proof.RefValue.lean ====
/-
  The reference's result is the loss of the specification.

  Read one operation at a time, the reference computes for each entry the scaled score (the margin on the
  entry whose column is the row's target), per row the maximum, the shifted exponentials' sum from zero and
  its logarithm, the log-softmax entries, gathers each row's entry at its target column (a target word below
  100000 is neither wrapped nor out of range, so the gather reads that column and the mask keeps it), and
  ends with minus one times each row's value, summed from zero, over 512.
-/
import proofs.«427789_j12532714570064_2_alg».proof.Proof.RefRead
import proofs.«427789_j12532714570064_2_alg».proof.Proof.ArcSpec
import Idealize.ShloMosaic.Lib.ValueIdx
import Idealize.ShloMosaic.Lib.Pipeline.Value
import Idealize.ShloMosaic.PureOps.Ideal.Laws
import Idealize.ShloMosaic.PureOps.Reduce
import Idealize.ShloMosaic.Lib.StableHlo.Predicate

noncomputable section

namespace Cert.ReferenceIdeal.RefValue

open Cert.ReferenceIdeal Cert.ReferenceIdeal.Gen Idealize.ShloMosaic Idealize.ShloMosaic.TcCoe Idealize.SL.Sem
open Cert.ReferenceIdeal.Read Idealize.ShloMosaic.ValueIdx

/-! ## The log-softmax, read at an index -/

/-- The margin stage at an entry is the specification's margin of that entry. -/
theorem phi_at (x : (⟨S512x100000, .f32⟩ : BufTy).Contents (Elt Ideal)) (i : S512x100000.Idx) :
    val_main_v14 (F := Ideal) x i = ArcSpec.phi (x i) := by
  simp only [val_main_v14_apply, val_main_v11_apply, val_main_v9_apply, val_main_v13_apply, val_main_v6_apply,
    val_main_v8_apply, val_main_v4_apply, val_main_v3_apply, val_main_call0_v2_apply, val_main_v2_apply,
    val_main_v0_apply, val_main_v1_apply, val_main_v5_apply, val_main_v7_apply, val_main_v10_apply,
    val_main_v12_apply, val_main_call0_v1_apply, val_main_call0_v4_apply, val_main_call0_v0_apply,
    val_main_call0_v3_apply, val_main_cst_apply, val_main_cst_0_apply, val_main_cst_1_apply, val_main_cst_2_apply,
    val_main_cst_3_apply, val_main_cst_4_apply, val_main_cst_5_apply]
  simp only [Ideal.ofBits_def, Ideal.subf_def, Ideal.mulf_def, Ideal.maximumf_def, Ideal.minimumf_def,
    Ideal.hostUnary_sqrt_def, Ideal.cmpf_def]
  rfl

/-- The scaled score stage at row `r`, column `c` is the specification's score there: the column's word is
    compared with the row's target word, the margin applies where they agree, and the scale multiplies. -/
theorem score_at (x : (⟨S512x100000, .f32⟩ : BufTy).Contents (Elt Ideal)) (tg : (⟨S512, .i32⟩ : BufTy).Contents (Elt Ideal))
    (r : Fin 512) (c : Fin 100000) :
    val_main_v23 (F := Ideal) x tg (ix2 r c) = ArcSpec.rowScore x tg r c := by
  have h19 : idx_main_v17 (idx_main_v19 (ix2 r c)) = ix1 r :=
    funext fun a => Fin.ext (by match a with | ⟨0, _⟩ => rfl)
  simp only [val_main_v23_apply, val_main_v22_apply, val_main_cst_6_apply, val_main_v21_apply, val_main_v20_apply,
    val_main_v18_apply, val_main_v16_apply, val_main_v15_apply, val_main_v19_apply, val_main_v17_apply, phi_at, h19]
  simp only [Ideal.ofBits_def, Ideal.mulf_def]
  rfl

/-- The shape fact the row reductions are read through. -/
theorem red_cols : S512x100000.Reduces [1] S512 := by decide

/-- Row `r` with the column `k` put back on the reduced axis is the entry `(r, k)`. -/
theorem lift_row (r : Fin 512) (k : Fin 100000) : red_cols.lift (ix1 r) k = ix2 r k :=
  funext fun a => Fin.ext (by match a with | ⟨0, _⟩ => rfl | ⟨1, _⟩ => rfl)

/-- The word of minus infinity is the bottom of the extended reals. -/
theorem ofBits_neg_inf : Ideal.ofBits .f32 0xFF800000#32 = (⊥ : EReal) := by simp [Ideal.ofBits, Ideal.ieee]

/-- The maximum-reduce over the columns, at row `r`, is the fold of `max` from the bottom over the row's scores. -/
theorem rowmax0_at (x : (⟨S512x100000, .f32⟩ : BufTy).Contents (Elt Ideal)) (tg : (⟨S512, .i32⟩ : BufTy).Contents (Elt Ideal))
    (r : Fin 512) :
    val_main_call3_v0 (F := Ideal) x tg (ix1 r)
      = (Finset.univ : Finset (Fin 100000)).fold max ⊥ (ArcSpec.rowScore x tg r) := by
  unfold val_main_call3_v0
  rw [Host.reduce_eq_fold_single FloatOps.maximumf _ _ reducesTo_S512x100000_S512_d1 red_cols h_S_ (ix1 r)]
  have hf : (val_main_v23 (F := Ideal) x tg ∘ red_cols.lift (ix1 r)) = ArcSpec.rowScore x tg r :=
    funext fun (k : Fin 100000) =>
      (congrArg (val_main_v23 (F := Ideal) x tg) (lift_row r k)).trans (score_at x tg r k)
  rw [hf, val_main_call3_cst_apply, Ideal.ofBits_def, ofBits_neg_inf]
  rfl

/-- The row maximum stage (the reduce's result once more against minus infinity) is the specification's. -/
theorem rowmax_at (x : (⟨S512x100000, .f32⟩ : BufTy).Contents (Elt Ideal)) (tg : (⟨S512, .i32⟩ : BufTy).Contents (Elt Ideal))
    (r : Fin 512) :
    val_main_call3_v2 (F := Ideal) x tg (ix1 r) = ArcSpec.rowMaxE x tg r := by
  rw [val_main_call3_v2_apply, val_main_call3_v1_apply, val_main_call3_cst_0_apply, rowmax0_at, Ideal.maximumf_def,
    Ideal.ofBits_def, ofBits_neg_inf]
  rfl

/-- The shifted score at `(r, c)`: the score less the row's maximum. -/
theorem shift_at (x : (⟨S512x100000, .f32⟩ : BufTy).Contents (Elt Ideal)) (tg : (⟨S512, .i32⟩ : BufTy).Contents (Elt Ideal))
    (r : Fin 512) (c : Fin 100000) :
    val_main_call3_v5 (F := Ideal) x tg (ix2 r c) = ArcSpec.rowScore x tg r c - ArcSpec.rowMaxE x tg r := by
  have h : idx_main_call3_v3 (idx_main_call3_v4 (ix2 r c)) = ix1 r :=
    funext fun a => Fin.ext (by match a with | ⟨0, _⟩ => rfl)
  rw [val_main_call3_v5_apply, val_main_call3_v4_apply, val_main_call3_v3_apply, h, rowmax_at, score_at, Ideal.subf_def]

/-- The logarithm of the row's sum of shifted exponentials, broadcast back over the row. -/
theorem lse_at (x : (⟨S512x100000, .f32⟩ : BufTy).Contents (Elt Ideal)) (tg : (⟨S512, .i32⟩ : BufTy).Contents (Elt Ideal))
    (r : Fin 512) (c : Fin 100000) :
    val_main_call3_v10 (F := Ideal) x tg (ix2 r c)
      = Ideal.log (0 + ∑ k : Fin 100000, Ideal.exp (ArcSpec.rowScore x tg r k - ArcSpec.rowMaxE x tg r)) := by
  have h : idx_main_call3_v8 (idx_main_call3_v10 (ix2 r c)) = ix1 r :=
    funext fun a => Fin.ext (by match a with | ⟨0, _⟩ => rfl)
  have hk : ∀ k : Fin 100000, idx_main_call3_v7 (ix1 r) k = ix2 r k := fun k =>
    funext fun a => Fin.ext (by match a with | ⟨0, _⟩ => rfl | ⟨1, _⟩ => rfl)
  rw [val_main_call3_v10_apply, val_main_call3_v9_apply, val_main_call3_v8_apply, h, val_main_call3_v7_apply,
    val_main_call3_cst_1_apply, Ideal.ofBits_def, Ideal.ofBits_zero_f32, Ideal.hostUnary_log_def]
  refine congrArg (fun s => Ideal.log (0 + s)) (Finset.sum_congr rfl fun k _ => ?_)
  rw [hk, val_main_call3_v6_apply, shift_at, Ideal.hostUnary_exp_def]

/-- The log-softmax entry at `(r, c)`. -/
theorem lsm_at (x : (⟨S512x100000, .f32⟩ : BufTy).Contents (Elt Ideal)) (tg : (⟨S512, .i32⟩ : BufTy).Contents (Elt Ideal))
    (r : Fin 512) (c : Fin 100000) :
    val_main_v24 (F := Ideal) x tg (ix2 r c)
      = (ArcSpec.rowScore x tg r c - ArcSpec.rowMaxE x tg r)
        - Ideal.log (0 + ∑ k : Fin 100000, Ideal.exp (ArcSpec.rowScore x tg r k - ArcSpec.rowMaxE x tg r)) := by
  rw [val_main_v24_apply, shift_at, lse_at, Ideal.subf_def]

/-! ## The gather of each row's entry at its target column -/

open Idealize.ShloMosaic.StableHlo.Predicate

/-- The gather's start index for row `r` is the row's target word when that word is below 100000 (it is then not
    negative as a signed word, so 100000 is not added to it). -/
theorem start_at (tg : (⟨S512, .i32⟩ : BufTy).Contents (Elt Ideal)) (r : Fin 512)
    (hr : (tg (ix1 r)).toNat < 100000) :
    val_main_call4_v5 (F := Ideal) tg (ix3 r 0 0) = tg (ix1 r) := by
  have h5 : idx_main_call4_v5 (ix3 r (0 : Fin 1) (0 : Fin 1)) = ix2 r (0 : Fin 1) :=
    funext fun a => Fin.ext (by
      match a with
      | ⟨0, _⟩ => show ((r.val * 1 + 0) * 1 + 0) / 1 = r.val; simp
      | ⟨1, _⟩ => rfl)
  have h25 : idx_main_v25 (ix2 r (0 : Fin 1)) = ix1 r :=
    funext fun a => Fin.ext (by match a with | ⟨0, _⟩ => rfl)
  have hneg : IntOp.cmpi .slt (tg (ix1 r)) 0#32 = 0#1 :=
    eq_zero_of_ne_one fun h => by
      have := (slt_iff_toNat (a := tg (ix1 r)) (b := 0#32) (by omega) (by decide)).mp h
      simp at this
  rw [val_main_call4_v5_apply, h5, val_main_call4_v4_apply, val_main_call4_v1_apply, val_main_v25_apply, h25,
    val_main_call4_v0_apply, val_main_call4_c_apply, hneg, select_zero]

/-- The shape fact the range mask's reduction is read through. -/
theorem red_unit : S512x1x1.Reduces [2] S512x1 := by decide

instance : Std.Commutative (IntOp.andi (w := 1)) := ⟨fun a b => BitVec.and_comm a b⟩
instance : Std.Associative (IntOp.andi (w := 1)) := ⟨fun a b c => BitVec.and_assoc a b c⟩

/-- A fold over a unit axis is one application of the operation, to the one element and the initial value. -/
theorem fold_unit {α : Type} (op : α → α → α) [Std.Commutative op] [Std.Associative op] (b : α) (f : Fin 1 → α) :
    (Finset.univ : Finset (Fin 1)).fold op b f = op (f 0) b := by
  rw [Finset.univ_unique, Finset.fold_singleton]; rfl

/-- The range mask of row `r` is 1 when the row's target word is below 100000. -/
theorem mask_at (tg : (⟨S512, .i32⟩ : BufTy).Contents (Elt Ideal)) (r : Fin 512)
    (hr : (tg (ix1 r)).toNat < 100000) :
    val_main_call4_v12 (F := Ideal) tg (ix2 r 0) = 1#1 := by
  have hl : red_unit.lift (ix2 r (0 : Fin 1)) (0 : Fin 1) = ix3 r (0 : Fin 1) (0 : Fin 1) :=
    funext fun a => Fin.ext (by match a with | ⟨0, _⟩ => rfl | ⟨1, _⟩ => rfl | ⟨2, _⟩ => rfl)
  have hge : IntOp.cmpi .sge (tg (ix1 r)) 0#32 = 1#1 :=
    (sge_iff_toNat (a := tg (ix1 r)) (b := 0#32) (by omega) (by decide)).mpr (Nat.zero_le _)
  have hle : IntOp.cmpi .sle (tg (ix1 r)) 99999#32 = 1#1 :=
    (sle_iff_toNat (a := tg (ix1 r)) (b := 99999#32) (by omega) (by decide)).mpr (by
      show (tg (ix1 r)).toNat ≤ 99999; omega)
  unfold val_main_call4_v12
  rw [Host.reduce_eq_fold_single IntOp.andi _ _ reducesTo_S512x1x1_S512x1_d2 red_unit h_S_ (ix2 r 0)]
  refine (fold_unit IntOp.andi _ (val_main_call4_v11 (F := Ideal) tg ∘ red_unit.lift (ix2 r (0 : Fin 1)))).trans ?_
  show IntOp.andi (val_main_call4_v11 (F := Ideal) tg (red_unit.lift (ix2 r (0 : Fin 1)) (0 : Fin 1))) _ = _
  rw [hl, val_main_call4_v11_apply, val_main_call4_v7_apply, val_main_call4_v10_apply, start_at tg r hr,
    val_main_call4_v6_apply, val_main_call4_c_2_apply, val_main_call4_v9_apply, val_main_call4_v8_apply,
    val_main_call4_c_1_apply, val_main_call4_c_3_apply, hge, hle]
  rfl

/-- The gather's dimension numbers: operand [512, 100000], start indices [512, 1, 1], result [512, 1]; axis 0 is the
    batching axis of both, axis 1 of the operand is collapsed and is the one the start index names. -/
abbrev gd : GatherDims S512x100000 S512x1x1 S512x1 := gather_S512x100000_S512x1x1_S512x1_n_1_0_0_1_2_11

/-- On the batching axis the gather reads the result's row. -/
theorem gd_axis0 (idx : IVec S512x1x1 32) (r : Fin 512) : (gd.operandIdx (ix2 r (0 : Fin 1)) idx 0).val = r.val := by
  show gd.start (ix2 r (0 : Fin 1)) idx 0 + gd.batchCoord (ix2 r (0 : Fin 1)) 0 + gd.offCoord (ix2 r (0 : Fin 1)) 0 = _
  have hb : (0 : Fin 2) ∈ gd.operandBatchingDims := List.mem_singleton.mpr rfl
  rw [GatherDims.start_batching _ _ _ _ hb,
    GatherDims.offCoord_eq_zero _ _ _ (fun h => ((GatherDims.mem_sKept _ _).mp h).2 hb)]
  simp only [Nat.zero_add, Nat.add_zero]
  unfold GatherDims.batchCoord
  rw [dif_pos hb]
  rfl

/-- On the collapsed axis the gather reads the column the row's start index names, read signed and clamped. -/
theorem gd_axis1 (idx : IVec S512x1x1 32) (r : Fin 512) :
    (gd.operandIdx (ix2 r (0 : Fin 1)) idx 1).val = min (idx (ix3 r 0 0)).toInt.toNat (100000 - 1) := by
  show gd.start (ix2 r (0 : Fin 1)) idx 1 + gd.batchCoord (ix2 r (0 : Fin 1)) 1 + gd.offCoord (ix2 r (0 : Fin 1)) 1 = _
  have hnb : (1 : Fin 2) ∉ gd.operandBatchingDims := by decide
  have hc : (1 : Fin 2) ∈ gd.collapsedSliceDims := List.mem_singleton.mpr rfl
  have hm : (1 : Fin 2) ∈ gd.startIndexMap := List.mem_singleton.mpr rfl
  rw [GatherDims.batchCoord_eq_zero _ _ _ hnb,
    GatherDims.offCoord_eq_zero _ _ _ (fun h => ((GatherDims.mem_sKept _ _).mp h).1 hc)]
  simp only [Nat.add_zero]
  unfold GatherDims.start
  rw [dif_pos hm]
  have hsi : gd.siIdx (ix2 r (0 : Fin 1)) ⟨List.idxOf (1 : Fin 2) gd.startIndexMap, List.idxOf_lt_length_iff.2 hm⟩
      = ix3 r (0 : Fin 1) (0 : Fin 1) := by
    funext b; refine Fin.ext ?_
    match b with
    | ⟨0, _⟩ => rfl
    | ⟨1, _⟩ => rfl
    | ⟨2, _⟩ => rfl
  rw [hsi]
  rfl

/-- The gather at row `r`: the operand's row `r` at the column its start index names, read signed and clamped into
    the row. -/
theorem gather_at {α : Type} (y : S512x100000.Idx → α) (idx : IVec S512x1x1 32) (r : Fin 512) :
    Host.gather gd y idx (ix2 r (0 : Fin 1))
      = y (ix2 r ⟨min (idx (ix3 r 0 0)).toInt.toNat (100000 - 1), by omega⟩) := by
  unfold Host.gather
  congr 1
  funext a
  refine Fin.ext ?_
  match a with
  | ⟨0, _⟩ => exact gd_axis0 idx r
  | ⟨1, _⟩ => exact gd_axis1 idx r

/-- With the row's target word below 100000 the gathered value is the log-softmax entry at the target column. -/
theorem pick_at (x : (⟨S512x100000, .f32⟩ : BufTy).Contents (Elt Ideal)) (tg : (⟨S512, .i32⟩ : BufTy).Contents (Elt Ideal))
    (r : Fin 512) (hr : (tg (ix1 r)).toNat < 100000) :
    val_main_call4_v13 (F := Ideal) x tg (ix2 r 0)
      = val_main_v24 (F := Ideal) x tg (ix2 r ⟨(tg (ix1 r)).toNat, hr⟩) := by
  unfold val_main_call4_v13
  show Host.gather gd _ _ _ = _
  rw [gather_at]
  refine congrArg (val_main_v24 (F := Ideal) x tg) (congrArg (ix2 r) (Fin.ext ?_))
  show min (val_main_call4_v5 (F := Ideal) tg (ix3 r 0 0)).toInt.toNat (100000 - 1) = (tg (ix1 r)).toNat
  rw [start_at tg r hr, toInt_eq_toNat_of_lt (by omega), Int.toNat_natCast]
  omega

/-! ## A row's logit, and the loss -/

/-- Row `r`'s gathered log-softmax entry is the specification's logit of the row. -/
theorem logit_at (x : (⟨S512x100000, .f32⟩ : BufTy).Contents (Elt Ideal)) (tg : (⟨S512, .i32⟩ : BufTy).Contents (Elt Ideal))
    (r : Fin 512) (hr : (tg (ix1 r)).toNat < 100000) :
    val_main_v27 (F := Ideal) x tg (ix1 r) = ArcSpec.logit x tg r := by
  have h27 : idx_main_v27 (ix1 r) = ix2 r (0 : Fin 1) :=
    funext fun a => Fin.ext (by
      match a with
      | ⟨0, _⟩ => show r.val / 1 = r.val; simp
      | ⟨1, _⟩ => rfl)
  rw [val_main_v27_apply, h27, val_main_v26_apply, mask_at tg r hr, select_one, pick_at x tg r hr, lsm_at]
  unfold ArcSpec.logit ArcSpec.pick
  rw [dif_pos hr]

/-- With every target word below 100000, the reference's result is the specification's loss of the two
    argument arrays. -/
theorem ref_value (m : (ℓ : Loc nD τ sig) → Buf (Elt Ideal) ℓ) (c : Dev nD)
    (hrng : ∀ i : S512.Idx, ((m ((c.tc : Thread nD τ).loc main_arg1) : S512.Idx → BitVec 32) i).toNat < 100000) :
    Cert.ReferenceIdeal.Value.res_out0 (F := Ideal) m c
      = ArcSpec.loss bcast_S_S512 reducesTo_S512_S_d0 h_S_
          (m ((c.tc : Thread nD τ).loc main_arg0)) (m ((c.tc : Thread nD τ).loc main_arg1)) := by
  show Cert.ReferenceIdeal.Value.res_main_v35 m c = _
  rw [Cert.ReferenceIdeal.Read.val_main_v35_eq]
  have hrow : val_main_v27 (F := Ideal) (m ((c.tc : Thread nD τ).loc main_arg0)) (m ((c.tc : Thread nD τ).loc main_arg1))
      = fun i => ArcSpec.logit (m ((c.tc : Thread nD τ).loc main_arg0)) (m ((c.tc : Thread nD τ).loc main_arg1)) (i 0) :=
    funext fun i => by
      obtain ⟨r, rfl⟩ : ∃ r : Fin 512, i = ix1 r := ⟨i 0, eq_ix1 i⟩
      exact logit_at _ _ r (hrng (ix1 r))
  unfold ArcSpec.loss ArcSpec.lossTail val_main_v35 val_main_v34 val_main_v33 val_main_v32 val_main_v31 val_main_cst_8
    val_main_cst_9 val_main_cst_10
  rw [hrow]

end Cert.ReferenceIdeal.RefValue

end
-- ==== Proof.LibPreDecode.lean ====
/-
  Reading a printed precondition back. The predicate is a conjunction of one-bit scalars, each the "all" of an array
  of comparison bits. A conjunction that is one has both conjuncts one; an "all" that is one has every bit one; the
  bit of `|x| < +∞` being one says that the extended real `x` is a real number; the bit of a signed comparison of a
  word with a constant being one is the inequality between their signed values.
-/
import Idealize.ShloMosaic.Lib.ReduceAll
import Idealize.ShloMosaic.PureOps.Ideal

namespace Cert.PreDecode

open Idealize.ShloMosaic

variable {s u : Shape} {ax : List (Fin s.rank)}

/-- The shape of a scalar has exactly one index. -/
instance scalarIdxSubsingleton : Subsingleton (⟨0, ![]⟩ : Shape).Idx := ⟨fun _ _ => funext fun d => d.elim0⟩

/-- If the elementwise `and` of two one-bit arrays is one everywhere, the first array is one everywhere. -/
theorem andi_left {a b : IVec s 1} (h : andi a b = fun _ => 1#1) : a = fun _ => 1#1 :=
  funext fun i => (IntOp.andi_eq_one.1 (congrFun h i)).1

/-- If the elementwise `and` of two one-bit arrays is one everywhere, the second array is one everywhere. -/
theorem andi_right {a b : IVec s 1} (h : andi a b = fun _ => 1#1) : b = fun _ => 1#1 :=
  funext fun i => (IntOp.andi_eq_one.1 (congrFun h i)).2

/-- An "all" (a reduction by `and` over every axis, down to a scalar) that is one: every bit reduced is one. -/
theorem all_of_reduce (p : IVec s 1) (init : IVec u 1) (hr : s.ReducesTo ax ⟨0, ![]⟩) (hu : 0 < u.numel)
    (h : Host.reduce IntOp.andi p init hr hu = fun _ => 1#1) (i : s.Idx) : p i = 1#1 :=
  Host.reduce_andi_all p init hr hu (fun a => a.elim0) (congrFun h _) i

/-- An extended real whose absolute value `max x (-x)` is below `+∞` (the value of the pattern `0x7F800000`) is a real
    number: both infinities have absolute value `+∞`. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The finiteness test of a float array, `all (|x| < +∞)`, came out one: every entry of `x` is a real number. -/
theorem allReal_of_reduce (x : FVec Ideal s .f32) (hb : (⟨0, ![]⟩ : Shape).BroadcastsInDim s ![]) (init : IVec u 1)
    (hr : s.ReducesTo ax ⟨0, ![]⟩) (hu : 0 < u.numel)
    (h : Host.reduce IntOp.andi
        (cmpf .olt (Host.absf x) (broadcastInDim s ![] hb (constant (F := Ideal) ⟨0, ![]⟩ .f32 0x7F800000#32))) init hr hu
      = fun _ => 1#1) (i : s.Idx) : ∃ r : ℝ, x i = (r : EReal) :=
  real_of_abs_lt_inf (x i) (all_of_reduce _ init hr hu h i)

/-- `all (x ≥ c)`, signed, for a constant word `c`, came out one: every word of `x` is at least `c`. -/
theorem sge_of_reduce (x : IVec s 32) (c : BitVec 32) (hb : (⟨0, ![]⟩ : Shape).BroadcastsInDim s ![]) (init : IVec u 1)
    (hr : s.ReducesTo ax ⟨0, ![]⟩) (hu : 0 < u.numel)
    (h : Host.reduce IntOp.andi (cmpi .sge x (broadcastInDim s ![] hb (constantI ⟨0, ![]⟩ 32 c))) init hr hu
      = fun _ => 1#1) (i : s.Idx) : c.toInt ≤ (x i).toInt :=
  IntOp.cmpi_sge.1 (all_of_reduce _ init hr hu h i)

/-- `all (x < c)`, signed, for a constant word `c`, came out one: every word of `x` is below `c`. -/
theorem slt_of_reduce (x : IVec s 32) (c : BitVec 32) (hb : (⟨0, ![]⟩ : Shape).BroadcastsInDim s ![]) (init : IVec u 1)
    (hr : s.ReducesTo ax ⟨0, ![]⟩) (hu : 0 < u.numel)
    (h : Host.reduce IntOp.andi (cmpi .slt x (broadcastInDim s ![] hb (constantI ⟨0, ![]⟩ 32 c))) init hr hu
      = fun _ => 1#1) (i : s.Idx) : (x i).toInt < c.toInt :=
  IntOp.cmpi_slt.1 (all_of_reduce _ init hr hu h i)

end Cert.PreDecode
-- ==== Proof.PreDecode.lean ====
/-
  What the precondition says of the two argument arrays.

  The printed predicate is the conjunction of "every cosine's absolute value is below +infinity" (a compare
  against the float +inf, reduced by `and` over both axes) and "every target word is at least 0 and below
  100000 as a signed integer" (two compares, an `and`, reduced by `and` over the rows).  It is all ones
  exactly when every cosine is a real number and every target word, read as a natural, is below 100000.
  The second half involves no float operation and holds over any float family.
-/
import proofs.«427789_j12532714570064_2_alg».proof.Pre_finite_inputs
import proofs.«427789_j12532714570064_2_alg».proof.Proof.LibPreDecode
import Idealize.ShloMosaic.PureOps.Ideal
import Idealize.ShloMosaic.Lib.ReduceAll
import Idealize.ShloMosaic.Lib.StableHlo.Predicate

noncomputable section

namespace ArcPre

open Idealize.ShloMosaic

variable [Cert.Pre_finite_inputs.Facts]

/-- Under the precondition every target word names a column: as a natural number it is below 100000. -/
theorem target_range {F : FTy → Type} [FloatOps F]
    (x : FVec F Cert.Pre_finite_inputs.S512x100000 .f32) (tg : IVec Cert.Pre_finite_inputs.S512 32)
    (h : Cert.Pre_finite_inputs.fn (F := F) x tg = fun _ => 1#1) :
    ∀ i : Cert.Pre_finite_inputs.S512.Idx, (tg i).toNat < 100000 := by
  intro i
  dsimp only [Cert.Pre_finite_inputs.fn] at h
  -- the second conjunct is the "all" over the rows; its bit at row i is the "and" of the two compares
  have hi := Cert.PreDecode.all_of_reduce _ _ _ _ (Cert.PreDecode.andi_right h) i
  obtain ⟨hge, hlt⟩ := IntOp.andi_eq_one.1 hi
  -- a broadcast scalar constant reads the constant at every row: 0 ≤ tg i < 100000 as signed integers
  have hge' : (0#32 : BitVec 32).toInt ≤ (tg i).toInt := IntOp.cmpi_sge.1 hge
  have hlt' : (tg i).toInt < (100000#32 : BitVec 32).toInt := IntOp.cmpi_slt.1 hlt
  rw [show (0#32 : BitVec 32).toInt = 0 from by decide] at hge'
  rw [show (100000#32 : BitVec 32).toInt = 100000 from by decide] at hlt'
  -- a word whose signed value is nonnegative has that value as its natural value
  have hn := (tg i).isLt
  rw [BitVec.toInt_eq_toNat_cond] at hge' hlt'
  split at hge' <;> omega

/-- Under the precondition, at the extended reals, every cosine is a real number. -/
theorem finite (x : FVec Ideal Cert.Pre_finite_inputs.S512x100000 .f32) (tg : IVec Cert.Pre_finite_inputs.S512 32)
    (h : Cert.Pre_finite_inputs.fn (F := Ideal) x tg = fun _ => 1#1) :
    ∀ i : Cert.Pre_finite_inputs.S512x100000.Idx, ∃ r : ℝ, x i = ((r : ℝ) : EReal) := by
  intro i
  dsimp only [Cert.Pre_finite_inputs.fn] at h
  -- the first conjunct is the "all" of |x| < +∞ over both axes; neither infinity passes that test
  exact Cert.PreDecode.allReal_of_reduce x _ _ _ _ (Cert.PreDecode.andi_left h) i

end ArcPre

end
-- ==== Proof.lean ====
/-
  The certificate: the additive-angular-margin softmax loss as one streaming kernel, against the two-pass jnp form.

  The kernel sweeps each block of 256 rows over 17 column tiles of 6144 scores, keeping per row a running
  maximum, a running sum of exponentials shifted by it, and a running pick of the target's score; the lanes of
  the last tile past column 99999 are masked to a constant the certificate names minus infinity, so that their
  exponentials are exactly zero; at the last tile it writes the maximum plus the logarithm of the sum, and the
  pick, and the host forms each row's logit and the mean of their negatives.  The reference computes the same
  scores, a log-softmax the two-pass way, gathers each row's entry at its target, and takes the same mean.
  Over the extended reals, for finite cosines and target words that name columns, the streaming state after the
  last tile is the two-pass quantities (the rescaling law exp a · exp b = exp (a + b), and exp ⊥ = 0), so both
  programs end at the specification's loss.  The frames: each program runs to its end and leaves its arguments
  as they were; for the two kernel programs the body's triple is run once per control case, generic in the
  float family, with the three scratch columns tracked from point to point.
-/
import proofs.«427789_j12532714570064_2_alg».proof.Defs
import proofs.«427789_j12532714570064_2_alg».proof.Proof.Gen.Kernel
import proofs.«427789_j12532714570064_2_alg».proof.Proof.Gen.KernelIdeal
import proofs.«427789_j12532714570064_2_alg».proof.Proof.Gen.ReferenceIdeal
import proofs.«427789_j12532714570064_2_alg».proof.Proof.Gen.Pre_finite_inputs
import proofs.«427789_j12532714570064_2_alg».proof.Proof.KBBody
import proofs.«427789_j12532714570064_2_alg».proof.Proof.KBBlocks
import proofs.«427789_j12532714570064_2_alg».proof.Proof.KIBody
import proofs.«427789_j12532714570064_2_alg».proof.Proof.KIBlocks
import proofs.«427789_j12532714570064_2_alg».proof.Proof.KIFinal
import proofs.«427789_j12532714570064_2_alg».proof.Proof.RefRun
import proofs.«427789_j12532714570064_2_alg».proof.Proof.RefValue
import proofs.«427789_j12532714570064_2_alg».proof.Proof.PreDecode
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-! ## The frames -/

/-- The bit-exact kernel program runs and keeps its arguments: the precondition's second half bounds every
    point's target words, which is all the body's triple asks. -/
theorem frame_k : Cert.frame_Kernel := fun m ρ hpre =>
  Cert.Kernel.Body.frame m ρ fun c t j =>
    Cert.Kernel.Body.tgB_range m c (ArcPre.target_range (F := Bits) _ _ (hpre c)) t j

/-- The idealized kernel program likewise. -/
theorem frame_ki : Cert.frame_KernelIdeal := fun m ρ hpre =>
  Cert.KernelIdeal.Body.frame m ρ fun c t j =>
    Cert.KernelIdeal.Body.tgB_range m c (ArcPre.target_range (F := Ideal) _ _ (hpre c)) t j

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## The idealization's ledger -/

/-- Both entries: the mask constant's name denotes minus infinity in the certificate's table. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-! ## The two programs compute one loss -/

theorem algebraic : Cert.algebraic_KernelIdeal_ReferenceIdeal := by
  intro m ρ m' ρ' hpre hagree
  have hfin := fun c => ArcPre.finite _ _ (hpre c)
  have hrng := fun c => ArcPre.target_range (F := Ideal) _ _ (hpre c)
  refine ⟨fun c => ArcSpec.loss Cert.KernelIdeal.Facts₀.bcast_S_S512 Cert.KernelIdeal.Facts₀.reducesTo_S512_S_d0
      Cert.KernelIdeal.Facts₀.h_S_
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · -- the kernel: its run's post read at the result buffer and at the two arguments
    refine (θ_run Cert.KernelIdeal.defs _ _).mono (fun _ h c => ⟨?_, ?_, ?_⟩)
      (Cert.KernelIdeal.Body.run_main m ρ fun c t j => Cert.KernelIdeal.Body.tgB_range m c (hrng c) t j)
    · exact ((h c).2 Cert.KernelIdeal.main_v12
        (Pipeline.mem_restRefs_of Cert.KernelIdeal.main_v12 (by decide) (by decide))).trans
        (Cert.KernelIdeal.KValue.kernel_result m c (hfin c) (hrng c))
    · exact ((h c).1 1).trans (((Cert.KernelIdeal.Body.dats m 0 c).arrAt_in 1 rfl _).trans
        ((Cert.KernelIdeal.Body.A_eq m c 1).trans (Cert.KernelIdeal.Gen.V_main_arg0 m c)))
    · exact ((h c).2 Cert.KernelIdeal.main_arg1
        (Pipeline.mem_restRefs_of Cert.KernelIdeal.main_arg1 (by decide) (by decide))).trans
        (Cert.KernelIdeal.Gen.W_main_arg1 m (Cert.KernelIdeal.Body.dats m) c)
  · -- the reference: its run's result term is the specification's loss of ITS arguments, which agree
    refine (θ_run Cert.ReferenceIdeal.defs _ _).mono (fun _ h c => ⟨?_, (h c).2⟩)
      (Cert.ReferenceIdeal.Value.run (F := Ideal) m' ρ')
    have hr' : ∀ i : Cert.ReferenceIdeal.S512.Idx,
        ((m' ((c.tc : Thread Cert.ReferenceIdeal.nD Cert.ReferenceIdeal.τ).loc Cert.ReferenceIdeal.main_arg1)
          : Cert.ReferenceIdeal.S512.Idx → BitVec 32) i).toNat < 100000 := by
      rw [(hagree c).2]; exact hrng c
    refine ((h c).1.trans (Cert.ReferenceIdeal.RefValue.ref_value m' c hr')).trans ?_
    rw [(hagree c).1, (hagree c).2]

/-- The five claims, under the proved facts of the three programs and the precondition. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
